-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S1000x64 : Shape := ⟨2, ![1000, 64]⟩
abbrev S3x1600000 : Shape := ⟨2, ![3, 1600000]⟩
abbrev S1x1x64 : Shape := ⟨3, ![1, 1, 64]⟩
abbrev S2x2x64x1 : Shape := ⟨4, ![2, 2, 64, 1]⟩
abbrev S_ : Shape := ⟨0, ![]⟩
abbrev S1x1600000 : Shape := ⟨2, ![1, 1600000]⟩
abbrev S1600000 : Shape := ⟨1, ![1600000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1000x64 : S_.BroadcastsInDim S1000x64 (![] : Fin 0 → Fin S1000x64.rank)
  reducesTo_S1000x64_S_d0_1 : S1000x64.ReducesTo [0, 1] S_
  bcast_S_S1x1x64 : S_.BroadcastsInDim S1x1x64 (![] : Fin 0 → Fin S1x1x64.rank)
  reducesTo_S1x1x64_S_d0_1_2 : S1x1x64.ReducesTo [0, 1, 2] S_
  bcast_S_S2x2x64x1 : S_.BroadcastsInDim S2x2x64x1 (![] : Fin 0 → Fin S2x2x64x1.rank)
  reducesTo_S2x2x64x1_S_d0_1_2_3 : S2x2x64x1.ReducesTo [0, 1, 2, 3] S_
  slices_S3x1600000_S1x1600000_1_0 : S3x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_
  slices_S3x1600000_S1x1600000_2_0 : S3x1600000.Slices ![2, 0] S1x1600000

variable [Facts]

def fn_part2 {F : FTy → Type} [FloatOps F] (main_v29 : IVec S_ 1) (main_v33 : IVec S1600000 1) (main_v35 : IVec S1600000 32) : IVec S_ 1 :=
  let main_c_10 : IVec S_ 32 := constantI S_ 32 50000#32
  let main_v36 : IVec S1600000 32 := broadcastInDim S1600000 ![] bcast_S_S1600000 main_c_10
  let main_v37 : IVec S1600000 1 := cmpi .slt main_v35 main_v36
  let main_v38 : IVec S1600000 1 := andi main_v33 main_v37
  let main_c_11 : IVec S_ 1 := constantI S_ 1 1#1
  let main_v39 : IVec S_ 1 := (fun x v => Host.reduce IntOp.andi x v reducesTo_S1600000_S_d0 h_S_) main_v38 main_c_11
  let main_v40 : IVec S_ 1 := andi main_v29 main_v39
  main_v40

def fn_part1 {F : FTy → Type} [FloatOps F] (main_arg2 : IVec S3x1600000 32) (main_v13 : IVec S_ 1) (main_v16 : IVec S2x2x64x1 1) : IVec S_ 1 :=
  let main_c_5 : IVec S_ 1 := constantI S_ 1 1#1
  let main_v17 : IVec S_ 1 := (fun x v => Host.reduce IntOp.andi x v reducesTo_S2x2x64x1_S_d0_1_2_3 h_S_) main_v16 main_c_5
  let main_v18 : IVec S_ 1 := andi main_v13 main_v17
  let main_v19 : IVec S1x1600000 32 := (extractStridedSlice S1x1600000 ![1, 0] · slices_S3x1600000_S1x1600000_1_0) main_arg2
  let main_v20 : IVec S1600000 32 := shapeCast S1600000 main_v19 shapeCasts_S1x1600000_S1600000
  let main_c_6 : IVec S_ 32 := constantI S_ 32 0#32
  let main_v21 : IVec S1600000 32 := broadcastInDim S1600000 ![] bcast_S_S1600000 main_c_6
  let main_v22 : IVec S1600000 1 := cmpi .sge main_v20 main_v21
  let main_v23 : IVec S1x1600000 32 := (extractStridedSlice S1x1600000 ![1, 0] · slices_S3x1600000_S1x1600000_1_0) main_arg2
  let main_v24 : IVec S1600000 32 := shapeCast S1600000 main_v23 shapeCasts_S1x1600000_S1600000
  let main_c_7 : IVec S_ 32 := constantI S_ 32 1000#32
  let main_v25 : IVec S1600000 32 := broadcastInDim S1600000 ![] bcast_S_S1600000 main_c_7
  let main_v26 : IVec S1600000 1 := cmpi .slt main_v24 main_v25
  let main_v27 : IVec S1600000 1 := andi main_v22 main_v26
  let main_c_8 : IVec S_ 1 := constantI S_ 1 1#1
  let main_v28 : IVec S_ 1 := (fun x v => Host.reduce IntOp.andi x v reducesTo_S1600000_S_d0 h_S_) main_v27 main_c_8
  let main_v29 : IVec S_ 1 := andi main_v18 main_v28
  let main_v30 : IVec S1x1600000 32 := (extractStridedSlice S1x1600000 ![2, 0] · slices_S3x1600000_S1x1600000_2_0) main_arg2
  let main_v31 : IVec S1600000 32 := shapeCast S1600000 main_v30 shapeCasts_S1x1600000_S1600000
  let main_c_9 : IVec S_ 32 := constantI S_ 32 0#32
  let main_v32 : IVec S1600000 32 := broadcastInDim S1600000 ![] bcast_S_S1600000 main_c_9
  let main_v33 : IVec S1600000 1 := cmpi .sge main_v31 main_v32
  let main_v34 : IVec S1x1600000 32 := (extractStridedSlice S1x1600000 ![2, 0] · slices_S3x1600000_S1x1600000_2_0) main_arg2
  let main_v35 : IVec S1600000 32 := shapeCast S1600000 main_v34 shapeCasts_S1x1600000_S1600000
  fn_part2 (F := F) main_v29 main_v33 main_v35

def fn {F : FTy → Type} [FloatOps F] (main_arg0 : FVec F S50000x64 .f32) (main_arg1 : FVec F S1000x64 .f32) (main_arg2 : IVec S3x1600000 32) (main_arg3 : FVec F S1x1x64 .f32) (main_arg4 : FVec F S2x2x64x1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1000x64 .f32 := Host.absf main_arg1
  let main_cst_0 : FVec F S_ .f32 := constant S_ .f32 0x7F800000#32
  let main_v5 : FVec F S1000x64 .f32 := broadcastInDim S1000x64 ![] bcast_S_S1000x64 main_cst_0
  let main_v6 : IVec S1000x64 1 := cmpf .olt main_v4 main_v5
  let main_c_1 : IVec S_ 1 := constantI S_ 1 1#1
  let main_v7 : IVec S_ 1 := (fun x v => Host.reduce IntOp.andi x v reducesTo_S1000x64_S_d0_1 h_S_) main_v6 main_c_1
  let main_v8 : IVec S_ 1 := andi main_v3 main_v7
  let main_v9 : FVec F S1x1x64 .f32 := Host.absf main_arg3
  let main_cst_2 : FVec F S_ .f32 := constant S_ .f32 0x7F800000#32
  let main_v10 : FVec F S1x1x64 .f32 := broadcastInDim S1x1x64 ![] bcast_S_S1x1x64 main_cst_2
  let main_v11 : IVec S1x1x64 1 := cmpf .olt main_v9 main_v10
  let main_c_3 : IVec S_ 1 := constantI S_ 1 1#1
  let main_v12 : IVec S_ 1 := (fun x v => Host.reduce IntOp.andi x v reducesTo_S1x1x64_S_d0_1_2 h_S_) main_v11 main_c_3
  let main_v13 : IVec S_ 1 := andi main_v8 main_v12
  let main_v14 : FVec F S2x2x64x1 .f32 := Host.absf main_arg4
  let main_cst_4 : FVec F S_ .f32 := constant S_ .f32 0x7F800000#32
  let main_v15 : FVec F S2x2x64x1 .f32 := broadcastInDim S2x2x64x1 ![] bcast_S_S2x2x64x1 main_cst_4
  let main_v16 : IVec S2x2x64x1 1 := cmpf .olt main_v14 main_v15
  fn_part1 (F := F) main_arg2 main_v13 main_v16
-- ==== Kernel.lean ====
abbrev S50000x64 : Shape := ⟨2, ![50000, 64]⟩
abbrev S1000x64 : Shape := ⟨2, ![1000, 64]⟩
abbrev S3x1600000 : Shape := ⟨2, ![3, 1600000]⟩
abbrev S1x1x64 : Shape := ⟨3, ![1, 1, 64]⟩
abbrev S2x2x64x1 : Shape := ⟨4, ![2, 2, 64, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1600000x128 : Shape := ⟨2, ![1600000, 128]⟩
abbrev S1x1x64x1 : Shape := ⟨4, ![1, 1, 64, 1]⟩
abbrev S64 : Shape := ⟨1, ![64]⟩
abbrev S64x1 : Shape := ⟨2, ![64, 1]⟩
abbrev S64x2 : Shape := ⟨2, ![64, 2]⟩
abbrev S1x64 : Shape := ⟨2, ![1, 64]⟩
abbrev S1600000x2 : Shape := ⟨2, ![1600000, 2]⟩
abbrev S6400x128 : Shape := ⟨2, ![6400, 128]⟩
abbrev S6400x2 : Shape := ⟨2, ![6400, 2]⟩
abbrev S6400x64 : Shape := ⟨2, ![6400, 64]⟩
abbrev S6400x1 : Shape := ⟨2, ![6400, 1]⟩
abbrev S50000x128 : Shape := ⟨2, ![50000, 128]⟩
abbrev S50000x2 : Shape := ⟨2, ![50000, 2]⟩
abbrev S50000x1 : Shape := ⟨2, ![50000, 1]⟩
abbrev S1x50000x64 : Shape := ⟨3, ![1, 50000, 64]⟩
abbrev S2x50000x64 : Shape := ⟨3, ![2, 50000, 64]⟩

abbrev nBuf : Space → Nat
  | .hbm => 96
  | .vmem => 9
  | .smem => 0
  | _ => 0

abbrev bufTy : (tb : Table) → Fin (tcTables nBuf tb) → BufTy
  | .hbm, ⟨0, _⟩ => ⟨S50000x64, .f32⟩
  | .hbm, ⟨1, _⟩ => ⟨S1000x64, .f32⟩
  | .hbm, ⟨2, _⟩ => ⟨S3x1600000, .i32⟩
  | .hbm, ⟨3, _⟩ => ⟨S1x1x64, .f32⟩
  | .hbm, ⟨4, _⟩ => ⟨S2x2x64x1, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1, .i32⟩
  | .hbm, ⟨20, _⟩ => ⟨S_, .i32⟩
  | .hbm, ⟨21, _⟩ => ⟨S1600000x1, .i32⟩
  | .hbm, ⟨22, _⟩ => ⟨S1600000x1, .i1⟩
  | .hbm, ⟨23, _⟩ => ⟨S1x1, .i32⟩
  | .hbm, ⟨24, _⟩ => ⟨S1600000x1, .i32⟩
  | .hbm, ⟨25, _⟩ => ⟨S1600000x1, .i1⟩
  | .hbm, ⟨26, _⟩ => ⟨S1600000x1, .i1⟩
  | .hbm, ⟨27, _⟩ => ⟨S_, .i1⟩
  | .hbm, ⟨28, _⟩ => ⟨S1600000, .i1⟩
  | .hbm, ⟨29, _⟩ => ⟨S1600000x64, .f32⟩
  | .hbm, ⟨30, _⟩ => ⟨S1600000x64, .i1⟩
  | .hbm, ⟨31, _⟩ => ⟨S_, .f32⟩
  | .hbm, ⟨32, _⟩ => ⟨S1600000x64, .f32⟩
  | .hbm, ⟨33, _⟩ => ⟨S1600000x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1, .i32⟩
  | .hbm, ⟨43, _⟩ => ⟨S_, .i32⟩
  | .hbm, ⟨44, _⟩ => ⟨S1600000x1, .i32⟩
  | .hbm, ⟨45, _⟩ => ⟨S1600000x1, .i1⟩
  | .hbm, ⟨46, _⟩ => ⟨S1x1, .i32⟩
  | .hbm, ⟨47, _⟩ => ⟨S1600000x1, .i32⟩
  | .hbm, ⟨48, _⟩ => ⟨S1600000x1, .i1⟩
  | .hbm, ⟨49, _⟩ => ⟨S1600000x1, .i1⟩
  | .hbm, ⟨50, _⟩ => ⟨S_, .i1⟩
  | .hbm, ⟨51, _⟩ => ⟨S1600000, .i1⟩
  | .hbm, ⟨52, _⟩ => ⟨S1600000x64, .f32⟩
  | .hbm, ⟨53, _⟩ => ⟨S1600000x64, .i1⟩
  | .hbm, ⟨54, _⟩ => ⟨S_, .f32⟩
  | .hbm, ⟨55, _⟩ => ⟨S1600000x64, .f32⟩
  | .hbm, ⟨56, _⟩ => ⟨S1600000x64, .f32⟩
  | .hbm, ⟨57, _⟩ => ⟨S1600000x128, .f32⟩
  | .hbm, ⟨58, _⟩ => ⟨S1x1x64x1, .f32⟩
  | .hbm, ⟨59, _⟩ => ⟨S64, .f32⟩
  | .hbm, ⟨60, _⟩ => ⟨S1x1x64x1, .f32⟩
  | .hbm, ⟨61, _⟩ => ⟨S64, .f32⟩
  | .hbm, ⟨62, _⟩ => ⟨S1x1x64x1, .f32⟩
  | .hbm, ⟨63, _⟩ => ⟨S64, .f32⟩
  | .hbm, ⟨64, _⟩ => ⟨S1x1x64x1, .f32⟩
  | .hbm, ⟨65, _⟩ => ⟨S64, .f32⟩
  | .hbm, ⟨66, _⟩ => ⟨S64, .f32⟩
  | .hbm, ⟨67, _⟩ => ⟨S64, .f32⟩
  | .hbm, ⟨68, _⟩ => ⟨S64x1, .f32⟩
  | .hbm, ⟨69, _⟩ => ⟨S64x1, .f32⟩
  | .hbm, ⟨70, _⟩ => ⟨S64x2, .f32⟩
  | .hbm, ⟨71, _⟩ => ⟨S64x1, .f32⟩
  | .hbm, ⟨72, _⟩ => ⟨S64x1, .f32⟩
  | .hbm, ⟨73, _⟩ => ⟨S64x2, .f32⟩
  | .hbm, ⟨74, _⟩ => ⟨S1x64, .f32⟩
  | .hbm, ⟨75, _⟩ => ⟨S1600000x128, .f32⟩
  | .hbm, ⟨76, _⟩ => ⟨S1600000x2, .f32⟩
  | .hbm, ⟨77, _⟩ => ⟨S_, .f32⟩
  | .hbm, ⟨78, _⟩ => ⟨S50000x128, .f32⟩
  | .hbm, ⟨79, _⟩ => ⟨S1600000x1, .i32⟩
  | .hbm, ⟨80, _⟩ => ⟨S50000x128, .f32⟩
  | .hbm, ⟨81, _⟩ => ⟨S_, .f32⟩
  | .hbm, ⟨82, _⟩ => ⟨S50000x2, .f32⟩
  | .hbm, ⟨83, _⟩ => ⟨S1600000x1, .i32⟩
  | .hbm, ⟨84, _⟩ => ⟨S50000x2, .f32⟩
  | .hbm, ⟨85, _⟩ => ⟨S50000x1, .f32⟩
  | .hbm, ⟨86, _⟩ => ⟨S50000x64, .f32⟩
  | .hbm, ⟨87, _⟩ => ⟨S50000x64, .f32⟩
  | .hbm, ⟨88, _⟩ => ⟨S50000x64, .f32⟩
  | .hbm, ⟨89, _⟩ => ⟨S50000x1, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S1x50000x64, .f32⟩
  | .hbm, ⟨94, _⟩ => ⟨S1x50000x64, .f32⟩
  | .hbm, ⟨95, _⟩ => ⟨S2x50000x64, .f32⟩
  | .local _ .vmem, ⟨0, _⟩ => ⟨S6400x128, .f32⟩
  | .local _ .vmem, ⟨1, _⟩ => ⟨S6400x128, .f32⟩
  | .local _ .vmem, ⟨2, _⟩ => ⟨S64x2, .f32⟩
  | .local _ .vmem, ⟨3, _⟩ => ⟨S64x2, .f32⟩
  | .local _ .vmem, ⟨4, _⟩ => ⟨S1x64, .f32⟩
  | .local _ .vmem, ⟨5, _⟩ => ⟨S6400x128, .f32⟩
  | .local _ .vmem, ⟨6, _⟩ => ⟨S6400x128, .f32⟩
  | .local _ .vmem, ⟨7, _⟩ => ⟨S6400x2, .f32⟩
  | .local _ .vmem, ⟨8, _⟩ => ⟨S6400x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v6 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26_0 : Ref sig .tc := ⟨.hbm, 75, rfl⟩
abbrev main_v26_1 : Ref sig .tc := ⟨.hbm, 76, rfl⟩
abbrev main_cst : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_cst_0 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6400x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S3x1600000_S1x1600000_0_0 : S3x1600000.Slices ![0, 0] S1x1600000
  shapeCasts_S1x1600000_S1600000 : S1x1600000.ShapeCasts S1600000
  slices_S3x1600000_S1x1600000_1_0 : S3x1600000.Slices ![1, 0] S1x1600000
  slices_S3x1600000_S1x1600000_2_0 : S3x1600000.Slices ![2, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  concatenates_S1600000x64_S1600000x64_S1600000x128_d1 : Shape.Concatenates [S1600000x64, S1600000x64] S1600000x128 1
  slices_S2x2x64x1_S1x1x64x1_0_0_0_0 : S2x2x64x1.Slices ![0, 0, 0, 0] S1x1x64x1
  shapeCasts_S1x1x64x1_S64 : S1x1x64x1.ShapeCasts S64
  slices_S2x2x64x1_S1x1x64x1_0_1_0_0 : S2x2x64x1.Slices ![0, 1, 0, 0] S1x1x64x1
  slices_S2x2x64x1_S1x1x64x1_1_0_0_0 : S2x2x64x1.Slices ![1, 0, 0, 0] S1x1x64x1
  slices_S2x2x64x1_S1x1x64x1_1_1_0_0 : S2x2x64x1.Slices ![1, 1, 0, 0] S1x1x64x1
  shapeCasts_S1x1x64_S64 : S1x1x64.ShapeCasts S64
  bcast_S64_S64x1_0 : S64.BroadcastsInDim S64x1 (![0] : Fin 1 → Fin S64x1.rank)
  concatenates_S64x1_S64x1_S64x2_d1 : Shape.Concatenates [S64x1, S64x1] S64x2 1
  shapeCasts_S64_S1x64 : S64.ShapeCasts S1x64
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S1x64_S1x64_0_0 : ∀ a, (![0, 0] : Fin 2 → Nat) a + S1x64.size a ≤ S1x64.size a
  h_S1x64 : 0 < S1x64.numel
  shapeCasts_S1x64_S1x64 : S1x64.ShapeCasts S1x64
  slices_S6400x128_o0_0_S6400x64 : S6400x128.Slices ![0, 0] S6400x64
  slices_S6400x128_o0_64_S6400x64 : S6400x128.Slices ![0, 64] S6400x64
  bitsLt_bf16_f32 : FTy.bits .bf16 < FTy.bits .f32
  broadcasts_S1x64_S6400x64 : S1x64.Broadcasts S6400x64
  slices_S6400x2_o0_0_S6400x1 : S6400x2.Slices ![0, 0] S6400x1
  slices_S6400x2_o0_1_S6400x1 : S6400x2.Slices ![0, 1] S6400x1
  broadcasts_S6400x1_S6400x64 : S6400x1.Broadcasts S6400x64
  concatenates_S6400x64_S6400x64_S6400x128_d1 : Shape.Concatenates [S6400x64, S6400x64] S6400x128 1
  inb_S6400x2_S6400x2_0_0 : ∀ a, (![0, 0] : Fin 2 → Nat) a + S6400x2.size a ≤ S6400x2.size a
  h_S6400x2 : 0 < S6400x2.numel
  bcast_S_S50000x128 : S_.BroadcastsInDim S50000x128 (![] : Fin 0 → Fin S50000x128.rank)
  bcast_S_S50000x2 : S_.BroadcastsInDim S50000x2 (![] : Fin 0 → Fin S50000x2.rank)
  slices_S50000x2_S50000x1_0_0 : S50000x2.Slices ![0, 0] S50000x1
  slices_S50000x128_S50000x64_0_0 : S50000x128.Slices ![0, 0] S50000x64
  bcast_S50000x1_S50000x64_0_1 : S50000x1.BroadcastsInDim S50000x64 (![0, 1] : Fin 2 → Fin S50000x64.rank)
  slices_S50000x2_S50000x1_0_1 : S50000x2.Slices ![0, 1] S50000x1
  slices_S50000x128_S50000x64_0_64 : S50000x128.Slices ![0, 64] S50000x64
  bcast_S50000x64_S1x50000x64_1_2 : S50000x64.BroadcastsInDim S1x50000x64 (![1, 2] : Fin 2 → Fin S1x50000x64.rank)
  concatenates_S1x50000x64_S1x50000x64_S2x50000x64_d0 : Shape.Concatenates [S1x50000x64, S1x50000x64] S2x50000x64 0
  gather_S50000x64_S1600000x1_S1600000x64_1_0_n_n_0_1_164_wf : GatherDims.WF S50000x64 S1600000x1 S1600000x64 [1] [0] [] [0] [] 1 ![1, 64]
  gather_S1000x64_S1600000x1_S1600000x64_1_0_n_n_0_1_164_wf : GatherDims.WF S1000x64 S1600000x1 S1600000x64 [1] [0] [] [0] [] 1 ![1, 64]
  dot_S6400x64_S64x2_S6400x2_1_0_0_1_n_n_wf : DotDims.WF S6400x64 S64x2 S6400x2 [1] [0] [0] [1] [] []
  scatter_S50000x128_S1600000x1_S1600000x128_1_0_0_1_wf : ScatterDims.WF S50000x128 S1600000x1 S1600000x128 [1] [0] [0] 1
  scatter_S50000x2_S1600000x1_S1600000x2_1_0_0_1_wf : ScatterDims.WF S50000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2.size a ≤ S64x2.size a
  hwx0_1 : ∀ i : grid0.Coords, EltTy.bits .f32 = 32 ∨ (Rect.block (s := S64x2) S64x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2.size a ≤ S64x2.size a
  hwx0_2 : ∀ i : grid0.Coords, EltTy.bits .f32 = 32 ∨ (Rect.block (s := S64x2) S64x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x128.size a ≤ S1600000x128.size a
  hwx0_4 : ∀ i : grid0.Coords, EltTy.bits .f32 = 32 ∨ (Rect.block (s := S1600000x128) S6400x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x2.size a ≤ S1600000x2.size a
  hwx0_5 : ∀ i : grid0.Coords, EltTy.bits .f32 = 32 ∨ (Rect.block (s := S1600000x2) S6400x2.size (cc0_transform_5 i) (hinb0_5 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def gather_S1000x64_S1600000x1_S1600000x64_1_0_n_n_0_1_164 : GatherDims S1000x64 S1600000x1 S1600000x64 where
  offsetDims := [1]
  collapsedSliceDims := [0]
  operandBatchingDims := []
  startIndicesBatchingDims := []
  startIndexMap := [0]
  indexVectorDim := 1
  sliceSizes := ![1, 64]
  wf := gather_S1000x64_S1600000x1_S1600000x64_1_0_n_n_0_1_164_wf
def dot_S6400x64_S64x2_S6400x2_1_0_0_1_n_n : DotDims S6400x64 S64x2 S6400x2 where
  lhsContracting := [1]
  rhsContracting := [0]
  lhsNonContracting := [0]
  rhsNonContracting := [1]
  lhsBatch := []
  rhsBatch := []
  wf := dot_S6400x64_S64x2_S6400x2_1_0_0_1_n_n_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x2_S1600000x1_S1600000x2_1_0_0_1 : ScatterDims S50000x2 S1600000x1 S1600000x2 where
  updateWindowDims := [1]
  insertedWindowDims := [0]
  scatterDimsToOperandDims := [0]
  indexVectorDim := 1
  wf := scatter_S50000x2_S1600000x1_S1600000x2_1_0_0_1_wf

abbrev win0_0 : Pipeline.Window sig grid0 :=
  Pipeline.Window.ofSpec (Memref.whole main_v8) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S64x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S64x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26_0) S6400x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v26_1) S6400x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S1000x64 : Shape := ⟨2, ![1000, 64]⟩
abbrev S3x1600000 : Shape := ⟨2, ![3, 1600000]⟩
abbrev S1x1x64 : Shape := ⟨3, ![1, 1, 64]⟩
abbrev S2x2x64x1 : Shape := ⟨4, ![2, 2, 64, 1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x1x64x1 : Shape := ⟨4, ![1, 1, 64, 1]⟩
abbrev S64x1 : Shape := ⟨2, ![64, 1]⟩
abbrev S50000 : Shape := ⟨1, ![50000]⟩
abbrev S50000x1 : Shape := ⟨2, ![50000, 1]⟩
abbrev S1x64 : Shape := ⟨2, ![1, 64]⟩
abbrev S1x50000x64 : Shape := ⟨3, ![1, 50000, 64]⟩
abbrev S2x50000x64 : Shape := ⟨3, ![2, 50000, 64]⟩

abbrev nBuf : Space → Nat
  | .hbm => 119
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S1000x64, .f32⟩
  | .hbm, ⟨2, _⟩ => ⟨S3x1600000, .i32⟩
  | .hbm, ⟨3, _⟩ => ⟨S1x1x64, .f32⟩
  | .hbm, ⟨4, _⟩ => ⟨S2x2x64x1, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S1x1x64x1, .f32⟩
  | .hbm, ⟨30, _⟩ => ⟨S64x1, .f32⟩
  | .hbm, ⟨31, _⟩ => ⟨S1600000x1, .f32⟩
  | .hbm, ⟨32, _⟩ => ⟨S1x1x64x1, .f32⟩
  | .hbm, ⟨33, _⟩ => ⟨S64x1, .f32⟩
  | .hbm, ⟨34, _⟩ => ⟨S1600000x1, .f32⟩
  | .hbm, ⟨35, _⟩ => ⟨S1600000x1, .f32⟩
  | .hbm, ⟨36, _⟩ => ⟨S1600000, .f32⟩
  | .hbm, ⟨37, _⟩ => ⟨S_, .f32⟩
  | .hbm, ⟨38, _⟩ => ⟨S_, .f32⟩
  | .hbm, ⟨39, _⟩ => ⟨S1600000, .f32⟩
  | .hbm, ⟨40, _⟩ => ⟨S1600000, .i1⟩
  | .hbm, ⟨41, _⟩ => ⟨S_, .f32⟩
  | .hbm, ⟨42, _⟩ => ⟨S1600000, .f32⟩
  | .hbm, ⟨43, _⟩ => ⟨S1600000, .f32⟩
  | .hbm, ⟨44, _⟩ => ⟨S1600000, .f32⟩
  | .hbm, ⟨45, _⟩ => ⟨S1600000, .f32⟩
  | .hbm, ⟨46, _⟩ => ⟨S1600000, .f32⟩
  | .hbm, ⟨47, _⟩ => ⟨S_, .f32⟩
  | .hbm, ⟨48, _⟩ => ⟨S50000, .f32⟩
  | .hbm, ⟨49, _⟩ => ⟨S1600000x1, .i32⟩
  | .hbm, ⟨50, _⟩ => ⟨S50000, .f32⟩
  | .hbm, ⟨51, _⟩ => ⟨S50000x1, .f32⟩
  | .hbm, ⟨52, _⟩ => ⟨S1600000x64, .f32⟩
  | .hbm, ⟨53, _⟩ => ⟨S1600000x1, .f32⟩
  | .hbm, ⟨54, _⟩ => ⟨S1600000x64, .f32⟩
  | .hbm, ⟨55, _⟩ => ⟨S1600000x64, .f32⟩
  | .hbm, ⟨56, _⟩ => ⟨S_, .f32⟩
  | .hbm, ⟨57, _⟩ => ⟨S50000x64, .f32⟩
  | .hbm, ⟨58, _⟩ => ⟨S1600000x1, .i32⟩
  | .hbm, ⟨59, _⟩ => ⟨S50000x64, .f32⟩
  | .hbm, ⟨60, _⟩ => ⟨S50000x64, .f32⟩
  | .hbm, ⟨61, _⟩ => ⟨S50000x64, .f32⟩
  | .hbm, ⟨62, _⟩ => ⟨S1x64, .f32⟩
  | .hbm, ⟨63, _⟩ => ⟨S50000x64, .f32⟩
  | .hbm, ⟨64, _⟩ => ⟨S50000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x64, .f32⟩
  | .hbm, ⟨83, _⟩ => ⟨S1x1x64x1, .f32⟩
  | .hbm, ⟨84, _⟩ => ⟨S64x1, .f32⟩
  | .hbm, ⟨85, _⟩ => ⟨S1600000x1, .f32⟩
  | .hbm, ⟨86, _⟩ => ⟨S1x1x64x1, .f32⟩
  | .hbm, ⟨87, _⟩ => ⟨S64x1, .f32⟩
  | .hbm, ⟨88, _⟩ => ⟨S1600000x1, .f32⟩
  | .hbm, ⟨89, _⟩ => ⟨S1600000x1, .f32⟩
  | .hbm, ⟨90, _⟩ => ⟨S1600000, .f32⟩
  | .hbm, ⟨91, _⟩ => ⟨S_, .f32⟩
  | .hbm, ⟨92, _⟩ => ⟨S_, .f32⟩
  | .hbm, ⟨93, _⟩ => ⟨S1600000, .f32⟩
  | .hbm, ⟨94, _⟩ => ⟨S1600000, .i1⟩
  | .hbm, ⟨95, _⟩ => ⟨S_, .f32⟩
  | .hbm, ⟨96, _⟩ => ⟨S1600000, .f32⟩
  | .hbm, ⟨97, _⟩ => ⟨S1600000, .f32⟩
  | .hbm, ⟨98, _⟩ => ⟨S1600000, .f32⟩
  | .hbm, ⟨99, _⟩ => ⟨S1600000, .f32⟩
  | .hbm, ⟨100, _⟩ => ⟨S1600000, .f32⟩
  | .hbm, ⟨101, _⟩ => ⟨S_, .f32⟩
  | .hbm, ⟨102, _⟩ => ⟨S50000, .f32⟩
  | .hbm, ⟨103, _⟩ => ⟨S1600000x1, .i32⟩
  | .hbm, ⟨104, _⟩ => ⟨S50000, .f32⟩
  | .hbm, ⟨105, _⟩ => ⟨S50000x1, .f32⟩
  | .hbm, ⟨106, _⟩ => ⟨S1600000x64, .f32⟩
  | .hbm, ⟨107, _⟩ => ⟨S1600000x1, .f32⟩
  | .hbm, ⟨108, _⟩ => ⟨S1600000x64, .f32⟩
  | .hbm, ⟨109, _⟩ => ⟨S1600000x64, .f32⟩
  | .hbm, ⟨110, _⟩ => ⟨S_, .f32⟩
  | .hbm, ⟨111, _⟩ => ⟨S50000x64, .f32⟩
  | .hbm, ⟨112, _⟩ => ⟨S1600000x1, .i32⟩
  | .hbm, ⟨113, _⟩ => ⟨S50000x64, .f32⟩
  | .hbm, ⟨114, _⟩ => ⟨S50000x64, .f32⟩
  | .hbm, ⟨115, _⟩ => ⟨S50000x64, .f32⟩
  | .hbm, ⟨116, _⟩ => ⟨S1x50000x64, .f32⟩
  | .hbm, ⟨117, _⟩ => ⟨S1x50000x64, .f32⟩
  | .hbm, ⟨118, _⟩ => ⟨S2x50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_4 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_5 : Ref sig .tc := ⟨.hbm, 65, rfl⟩
abbrev main_v47 : Ref sig .tc := ⟨.hbm, 66, rfl⟩
abbrev main_v48 : Ref sig .tc := ⟨.hbm, 67, rfl⟩
abbrev main_c_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_7 : Ref sig .tc := ⟨.hbm, 74, rfl⟩
abbrev main_v54 : Ref sig .tc := ⟨.hbm, 75, rfl⟩
abbrev main_v55 : Ref sig .tc := ⟨.hbm, 76, rfl⟩
abbrev main_c_8 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_9 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_10 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_11 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]

class Facts₀ : Prop where
  slices_S3x1600000_S1x1600000_0_0 : S3x1600000.Slices ![0, 0] S1x1600000
  shapeCasts_S1x1600000_S1600000 : S1x1600000.ShapeCasts S1600000
  slices_S3x1600000_S1x1600000_1_0 : S3x1600000.Slices ![1, 0] S1x1600000
  slices_S3x1600000_S1x1600000_2_0 : S3x1600000.Slices ![2, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x2x64x1_S1x1x64x1_0_0_0_0 : S2x2x64x1.Slices ![0, 0, 0, 0] S1x1x64x1
  shapeCasts_S1x1x64x1_S64x1 : S1x1x64x1.ShapeCasts S64x1
  slices_S2x2x64x1_S1x1x64x1_0_1_0_0 : S2x2x64x1.Slices ![0, 1, 0, 0] S1x1x64x1
  shapeCasts_S1600000x1_S1600000 : S1600000x1.ShapeCasts S1600000
  bcast_S_S50000 : S_.BroadcastsInDim S50000 (![] : Fin 0 → Fin S50000.rank)
  bcast_S50000_S50000x1_0 : S50000.BroadcastsInDim S50000x1 (![0] : Fin 1 → Fin S50000x1.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S1x1x64_S1x64 : S1x1x64.ShapeCasts S1x64
  bcast_S1x64_S50000x64_0_1 : S1x64.BroadcastsInDim S50000x64 (![0, 1] : Fin 2 → Fin S50000x64.rank)
  slices_S2x2x64x1_S1x1x64x1_1_0_0_0 : S2x2x64x1.Slices ![1, 0, 0, 0] S1x1x64x1
  slices_S2x2x64x1_S1x1x64x1_1_1_0_0 : S2x2x64x1.Slices ![1, 1, 0, 0] S1x1x64x1
  bcast_S50000x64_S1x50000x64_1_2 : S50000x64.BroadcastsInDim S1x50000x64 (![1, 2] : Fin 2 → Fin S1x50000x64.rank)
  concatenates_S1x50000x64_S1x50000x64_S2x50000x64_d0 : Shape.Concatenates [S1x50000x64, S1x50000x64] S2x50000x64 0
  gather_S50000x64_S1600000x1_S1600000x64_1_0_n_n_0_1_164_wf : GatherDims.WF S50000x64 S1600000x1 S1600000x64 [1] [0] [] [0] [] 1 ![1, 64]
  gather_S1000x64_S1600000x1_S1600000x64_1_0_n_n_0_1_164_wf : GatherDims.WF S1000x64 S1600000x1 S1600000x64 [1] [0] [] [0] [] 1 ![1, 64]
  dot_S1600000x64_S64x1_S1600000x1_1_0_0_1_n_n_wf : DotDims.WF S1600000x64 S64x1 S1600000x1 [1] [0] [0] [1] [] []
  scatter_S50000_S1600000x1_S1600000_n_0_0_1_wf : ScatterDims.WF S50000 S1600000x1 S1600000 [] [0] [0] 1
  scatter_S50000x64_S1600000x1_S1600000x64_1_0_0_1_wf : ScatterDims.WF S50000x64 S1600000x1 S1600000x64 [1] [0] [0] 1

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def gather_S1000x64_S1600000x1_S1600000x64_1_0_n_n_0_1_164 : GatherDims S1000x64 S1600000x1 S1600000x64 where
  offsetDims := [1]
  collapsedSliceDims := [0]
  operandBatchingDims := []
  startIndicesBatchingDims := []
  startIndexMap := [0]
  indexVectorDim := 1
  sliceSizes := ![1, 64]
  wf := gather_S1000x64_S1600000x1_S1600000x64_1_0_n_n_0_1_164_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.PreDecode.lean ====
/-
  The index ranges the precondition states, read back from its printed form.

  The precondition ends in `jnp.all((A[1] >= 0) & (A[1] < 1000))` and `jnp.all((A[2] >= 0) & (A[2] < 50000))`: row 1
  and row 2 of the edge table cut out, flattened, compared with a broadcast constant, the two tests joined and
  reduced by `and`. Where the whole predicate is 1, each reduction is 1, so each test is 1 at every edge, and a signed
  compare that is 1 is the order of the words read as integers.
-/
import proofs.«412317_j52716428591538_3_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- Row `r` of the edge table, cut out as `[1, 1600000]` and flattened, read at `e`: the table's entry `(r, e)`. -/
theorem flatRow_apply (A : IVec S3x1600000 32) (r : ℕ) (hr : r < 3)
    (hs : S3x1600000.Slices ![r, 0] S1x1600000) (hc : S1x1600000.ShapeCasts S1600000) (e : Fin 1600000) :
    shapeCast S1600000 (extractStridedSlice S1x1600000 ![r, 0] A hs) hc (ix1 e) = A (ix2 ⟨r, hr⟩ e) := by
  refine (shapeCast_apply _ hc (ix1 e) (ix2 (0 : Fin 1) e) ?_).trans ?_
  · rw [Shape.rowMajor_val_two, Shape.rowMajor_val_one]
    show (0 : ℕ) * 1600000 + e.val = e.val
    omega
  · refine extractStridedSlice_apply _ A hs (ix2 (0 : Fin 1) e) (ix2 ⟨r, hr⟩ e) fun a => ?_
    match a with
    | ⟨0, _⟩ => show r = r + 0; omega
    | ⟨1, _⟩ => show e.val = 0 + e.val; omega

theorem rows_in_range [Cert.Pre_finite_inputs.Facts] (h : FVec Ideal Cert.Pre_finite_inputs.S50000x64 .f32) (r : FVec Ideal Cert.Pre_finite_inputs.S1000x64 .f32) (A : IVec Cert.Pre_finite_inputs.S3x1600000 32) (w : FVec Ideal Cert.Pre_finite_inputs.S1x1x64 .f32) (a : FVec Ideal Cert.Pre_finite_inputs.S2x2x64x1 .f32)
    (hpre : Cert.Pre_finite_inputs.fn (F := Ideal) h r A w a = fun _ => 1#1) :
    (∀ e : Fin 1600000, 0 ≤ (A (ValueIdx.ix2 1 e)).toInt ∧ (A (ValueIdx.ix2 1 e)).toInt < 1000)
    ∧ (∀ e : Fin 1600000, 0 ≤ (A (ValueIdx.ix2 2 e)).toInt ∧ (A (ValueIdx.ix2 2 e)).toInt < 50000) := by
  have h0 := congrFun hpre ix0
  dsimp only [fn, fn_part1, fn_part2] at h0
  obtain ⟨h29, h39⟩ := IntOp.andi_eq_one.1 h0
  obtain ⟨-, h28⟩ := IntOp.andi_eq_one.1 h29
  have k0 : (0#32 : BitVec 32).toInt = 0 := by decide
  have k1 : (1000#32 : BitVec 32).toInt = 1000 := by decide
  have k2 : (50000#32 : BitVec 32).toInt = 50000 := by decide
  refine ⟨fun e => ?_, fun e => ?_⟩
  · obtain ⟨hge, hlt⟩ := IntOp.andi_eq_one.1 (Host.reduce_andi_all _ _ _ _ ix0 h28 (ix1 e))
    have hge' := IntOp.cmpi_sge.1 hge
    have hlt' := IntOp.cmpi_slt.1 hlt
    rw [flatRow_apply A 1 (by omega)] at hge' hlt'
    have hge'' : (0#32 : BitVec 32).toInt ≤ (A (ix2 1 e)).toInt := hge'
    have hlt'' : (A (ix2 1 e)).toInt < (1000#32 : BitVec 32).toInt := hlt'
    rw [k0] at hge''
    rw [k1] at hlt''
    exact ⟨hge'', hlt''⟩
  · obtain ⟨hge, hlt⟩ := IntOp.andi_eq_one.1 (Host.reduce_andi_all _ _ _ _ ix0 h39 (ix1 e))
    have hge' := IntOp.cmpi_sge.1 hge
    have hlt' := IntOp.cmpi_slt.1 hlt
    rw [flatRow_apply A 2 (by omega)] at hge' hlt'
    have hge'' : (0#32 : BitVec 32).toInt ≤ (A (ix2 2 e)).toInt := hge'
    have hlt'' : (A (ix2 2 e)).toInt < (50000#32 : BitVec 32).toInt := hlt'
    rw [k0] at hge''
    rw [k2] at hlt''
    exact ⟨hge'', hlt''⟩

end Cert.PreDecode

end
-- ==== Proof.LibRowOps.lean ====
/-
  Row gathers and row scatter-adds, read at an index; general in the extents.

  A table `x : [N, C]` gathered at a column of start indices `idx : [E, 1]` gives `[E, C]`: row `e` of the result is
  the table's row at `idx[e]`, read signed and clamped into `[0, N - 1]`. A scatter-add of updates `[E, C]` (or
  `[E]`) into `[N, C]` (or `[N]`) at the same kind of index column adds to entry `(n, f)` the updates `(e, f)` of
  exactly the rows `e` whose index word reads `n`; a row whose index is outside `[0, N)` is dropped.
-/
import Idealize.ShloMosaic.PureOps.Ideal
import Idealize.ShloMosaic.Lib.ValueIdx
import Idealize.ShloMosaic.Lib.ValueIdxRank1
import Idealize.ShloMosaic.Lib.StableHlo.Predicate

noncomputable section

namespace RowOps

open Idealize.ShloMosaic Idealize.ShloMosaic.ValueIdx
open scoped BigOperators

/-- jnp's reading of a possibly negative index into an axis of extent `n`: a negative one wraps once. -/
def wrap (n v : BitVec 32) : BitVec 32 := Scalar.select (IntOp.cmpi .slt v 0#32) (IntOp.addi v n) v

/-- A gather's reading of a start index into an axis of extent `N`: signed, clamped into `[0, N - 1]`. -/
def clampRow (N : ℕ) (hN : 0 < N) {w : ℕ} (v : BitVec w) : Fin N := ⟨min v.toInt.toNat (N - 1), by omega⟩

/-- The sum of `g` over the rows whose index word reads `n`. -/
def edgeSum {E w : ℕ} (dst : Fin E → BitVec w) (n : ℕ) (g : Fin E → EReal) : EReal :=
  ∑ e ∈ Finset.univ.filter (fun e => (dst e).toInt = (n : ℤ)), g e

/-! ## Words in range -/

/-- A non-negative index is not wrapped. -/
theorem wrap_of_nonneg (n v : BitVec 32) (h : 0 ≤ v.toInt) : wrap n v = v := by
  have hs : v.slt 0#32 = false := by
    simp only [BitVec.slt, BitVec.toInt_zero, decide_eq_false_iff_not, not_lt]
    exact h
  unfold wrap Scalar.select IntOp.cmpi
  simp only [hs]
  rfl

/-- The in-range test `0 ≤ v ∧ v ≤ N - 1` (signed compares) of a word in `[0, N)` is true. -/
theorem inRange_test (N : ℕ) (hN : 0 < N) (hN' : N < 2 ^ 31) (v : BitVec 32) (h0 : 0 ≤ v.toInt) (h1 : v.toInt < N) :
    IntOp.andi (IntOp.cmpi .sge v 0#32) (IntOp.cmpi .sle v (BitVec.ofNat 32 (N - 1))) = 1#1 := by
  have hge : (0#32).sle v = true := by
    simp only [BitVec.sle, BitVec.toInt_zero, decide_eq_true_eq]
    exact h0
  have hle : v.sle (BitVec.ofNat 32 (N - 1)) = true := by
    simp only [BitVec.sle, StableHlo.Predicate.toInt_ofNat_small (N - 1) (by omega), decide_eq_true_eq]
    omega
  unfold IntOp.andi IntOp.cmpi
  simp only [hge, hle]
  rfl

/-- A word in `[0, N)` is its own clamp. -/
theorem clampRow_val_of_inRange (N : ℕ) (hN : 0 < N) (v : BitVec 32) (h0 : 0 ≤ v.toInt) (h1 : v.toInt < N) :
    ((clampRow N hN v).val : ℤ) = v.toInt := by
  show ((min v.toInt.toNat (N - 1) : ℕ) : ℤ) = v.toInt
  omega

/-! ## The gather of rows -/

/-- The dimension numbers of `x[idx]` along axis 0 of a table `[N, C]` at an index column `[E, 1]`. -/
abbrev rowGather (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the table's entry `k` of the row at `idx[e]`, read signed and clamped. -/
theorem gather_rows_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k) = x (ix2 (clampRow N hN (idx (ix2 e 0))) k) := by
  unfold Host.gather
  congr 1
  funext a
  refine Fin.ext ?_
  match a with
  | ⟨0, _⟩ =>
    -- axis 0: the clamped start; no batching coordinate, and the axis is collapsed
    show (rowGather N E C wf).start (ix2 e k) idx 0 + (rowGather N E C wf).batchCoord (ix2 e k) 0
      + (rowGather N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e k) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- axis 1: start 0 (not start-indexed), no batching coordinate, the offset coordinate is the result's column
    show (rowGather N E C wf).start (ix2 e k) idx 1 + (rowGather N E C wf).batchCoord (ix2 e k) 1
      + (rowGather N E C wf).offCoord (ix2 e k) 1 = k.val
    rw [GatherDims.batchCoord_eq_zero _ _ _ List.not_mem_nil]
    unfold GatherDims.start
    rw [dif_neg (show (1 : Fin 2) ∉ (rowGather N E C wf).startIndexMap from
      fun h => absurd (List.mem_singleton.mp h) (show ¬ ((1 : Fin 2) = 0) by decide))]
    simp only [Nat.add_zero, Nat.zero_add]
    rfl

/-! ## The scatter-add of rows -/

/-- A scatter's update lands on `i` exactly when start plus window coordinate is `i`'s coordinate on every axis. -/
theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i hh
      intro a
      have h1 := congrArg Fin.val (congrFun (Option.some.inj h) a)
      have h2 := hh a
      simp only at h1
      omega
    · exact absurd h (by simp)
  · intro h
    have hh : ∀ a, 0 ≤ d.start j idx a + (d.window j a : ℤ) ∧ d.start j idx a + (d.window j a : ℤ) < s.size a := by
      intro a
      have h1 := h a
      have h2 := (i a).isLt
      omega
    rw [dif_pos hh]
    congr 1
    funext a
    refine Fin.ext ?_
    have h1 := h a
    simp only
    omega

/-- The dimension numbers of `x.at[idx].add(upd)` along axis 0: operand `[N, C]`, index column `[E, 1]`, updates `[E, C]`. -/
abbrev rowScatter (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The same for a vector operand `[N]` and updates `[E]`. -/
abbrev vecScatter (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row scatter's start on axis 0 at update `(e, c)`: the index word of row `e`, read signed. -/
theorem rowScatter_start0 {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e c) ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- Its start on axis 1 is 0: that axis is not indexed. -/
theorem rowScatter_start1 {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c : Fin C) :
    (rowScatter N E C wf).start (ix2 e c) idx 1 = 0 := by
  unfold ScatterDims.start
  rw [dif_neg (show (1 : Fin 2) ∉ (rowScatter N E C wf).scatterDimsToOperandDims from
    fun h => absurd (List.mem_singleton.mp h) (show ¬ ((1 : Fin 2) = 0) by decide))]

/-- Its window coordinate on axis 0 is 0 (an inserted axis) and on axis 1 the update's column. -/
theorem rowScatter_window0 {N E C : ℕ}
    (wf : ScatterDims.WF ⟨2, ![N, C]⟩ ⟨2, ![E, 1]⟩ ⟨2, ![E, C]⟩ [1] [0] [0] 1) (e : Fin E) (c : Fin C) :
    (rowScatter N E C wf).window (ix2 e c) 0 = 0 := rfl

theorem rowScatter_window1 {N E C : ℕ}
    (wf : ScatterDims.WF ⟨2, ![N, C]⟩ ⟨2, ![E, 1]⟩ ⟨2, ![E, C]⟩ [1] [0] [0] 1) (e : Fin E) (c : Fin C) :
    (rowScatter N E C wf).window (ix2 e c) 1 = c.val := rfl

/-- Update `(e, c)` of a row scatter lands on `(n, f)` exactly when row `e`'s index word reads `n` and `c = f`. -/
theorem rowScatter_lands_iff {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c : Fin C) (n : Fin N) (f : Fin C) :
    (rowScatter N E C wf).resultIdx? (ix2 e c) idx = some (ix2 n f)
      ↔ (idx (ix2 e 0)).toInt = (n.val : ℤ) ∧ c = f := by
  rw [resultIdx?_eq_some_iff]
  constructor
  · intro h
    have h0 := h 0
    have h1 := h 1
    rw [rowScatter_start0, rowScatter_window0] at h0
    rw [rowScatter_start1, rowScatter_window1] at h1
    have h0' : (idx (ix2 e 0)).toInt + ((0 : ℕ) : ℤ) = (n.val : ℤ) := h0
    have h1' : (0 : ℤ) + (c.val : ℤ) = (f.val : ℤ) := h1
    exact ⟨by omega, Fin.ext (by omega)⟩
  · rintro ⟨h0, rfl⟩ a
    match a with
    | ⟨0, _⟩ =>
      show (rowScatter N E C wf).start (ix2 e c) idx 0 + (((rowScatter N E C wf).window (ix2 e c) 0 : ℕ) : ℤ) = (n.val : ℤ)
      rw [rowScatter_start0, rowScatter_window0]
      omega
    | ⟨1, _⟩ =>
      show (rowScatter N E C wf).start (ix2 e c) idx 1 + (((rowScatter N E C wf).window (ix2 e c) 1 : ℕ) : ℤ) = (c.val : ℤ)
      rw [rowScatter_start1, rowScatter_window1]
      omega

/-- The vector scatter's start at update `e`: the index word of row `e`, read signed. -/
theorem vecScatter_start0 {N E w : ℕ}
    (wf : ScatterDims.WF ⟨1, ![N]⟩ ⟨2, ![E, 1]⟩ ⟨1, ![E]⟩ [] [0] [0] 1)
    (idx : IVec ⟨2, ![E, 1]⟩ w) (e : Fin E) :
    (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- Its window coordinate is 0: the one operand axis is inserted. -/
theorem vecScatter_window0 {N E : ℕ}
    (wf : ScatterDims.WF ⟨1, ![N]⟩ ⟨2, ![E, 1]⟩ ⟨1, ![E]⟩ [] [0] [0] 1) (e : Fin E) :
    (vecScatter N E wf).window (ix1 e) 0 = 0 := rfl

/-- Update `e` of a vector scatter lands on `n` exactly when row `e`'s index word reads `n`. -/
theorem vecScatter_lands_iff {N E w : ℕ}
    (wf : ScatterDims.WF ⟨1, ![N]⟩ ⟨2, ![E, 1]⟩ ⟨1, ![E]⟩ [] [0] [0] 1)
    (idx : IVec ⟨2, ![E, 1]⟩ w) (e : Fin E) (n : Fin N) :
    (vecScatter N E wf).resultIdx? (ix1 e) idx = some (ix1 n) ↔ (idx (ix2 e 0)).toInt = (n.val : ℤ) := by
  rw [resultIdx?_eq_some_iff]
  constructor
  · intro h
    have h0 := h 0
    rw [vecScatter_start0, vecScatter_window0] at h0
    have h0' : (idx (ix2 e 0)).toInt + ((0 : ℕ) : ℤ) = (n.val : ℤ) := h0
    omega
  · intro h0 a
    obtain rfl : a = 0 := Subsingleton.elim _ _
    show (vecScatter N E wf).start (ix1 e) idx 0 + (((vecScatter N E wf).window (ix1 e) 0 : ℕ) : ℤ) = (n.val : ℤ)
    rw [vecScatter_start0, vecScatter_window0]
    omega

/-- THE ROW SCATTER-ADD READ AT `(n, f)`, on the extended reals: the operand's entry plus the updates `(e, f)` of the
    rows `e` whose index word reads `n`. -/
theorem scatterAdd_rows_apply {N E C : ℕ}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ 32) (upd : (⟨2, ![E, C]⟩ : Shape).Idx → EReal)
    (n : Fin N) (f : Fin C) :
    Ideal.hostScatterAdd (rowScatter N E C wf) x idx upd (ix2 n f)
      = x (ix2 n f) + edgeSum (fun e => idx (ix2 e 0)) n.val (fun e => upd (ix2 e f)) := by
  show x (ix2 n f) + ∑ j ∈ Finset.univ.filter (fun j => (rowScatter N E C wf).resultIdx? j idx = some (ix2 n f)), upd j = _
  congr 1
  unfold edgeSum
  rw [Finset.sum_filter, Finset.sum_filter, sum_idx2]
  refine Finset.sum_congr rfl fun e _ => ?_
  simp only [rowScatter_lands_iff]
  by_cases hA : (idx (ix2 e 0)).toInt = (n.val : ℤ)
  · simp [hA]
  · simp [hA]

/-- THE VECTOR SCATTER-ADD READ AT `n`. -/
theorem scatterAdd_vec_apply {N E : ℕ}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal)
    (n : Fin N) :
    Ideal.hostScatterAdd (vecScatter N E wf) x idx upd (ix1 n)
      = x (ix1 n) + edgeSum (fun e => idx (ix2 e 0)) n.val (fun e => upd (ix1 e)) := by
  show x (ix1 n) + ∑ j ∈ Finset.univ.filter (fun j => (vecScatter N E wf).resultIdx? j idx = some (ix1 n)), upd j = _
  congr 1
  unfold edgeSum
  rw [Finset.sum_filter, Finset.sum_filter, ← Equiv.sum_comp (idxEquiv1 (n := E)).symm]
  refine Finset.sum_congr rfl fun e _ => ?_
  show (if (vecScatter N E wf).resultIdx? (ix1 e) idx = some (ix1 n) then upd (ix1 e) else 0) = _
  simp only [vecScatter_lands_iff]

end RowOps

end
-- ==== Proof.Spec.lean ====
/-
  The function both programs compute, index by index, on the extended reals.

  A graph has 50000 nodes (features `h : [50000, 64]`), 1000 relations (`r : [1000, 64]`) and 1600000 edges;
  edge `e` has a destination node `A[0, e]`, a relation `A[1, e]` and a source node `A[2, e]`. For each of two
  heads `i` the source row is `h[src]` (head 0) or `h[src] · w` columnwise (head 1), the score of an edge is
  `⟨src row, a[i, 0]⟩ + ⟨rel row, a[i, 1]⟩`, its attention weight `exp (-leaky (score))`, its message
  `(src row - rel row) · weight`, and the result at node `n` is the sum of the messages of the edges arriving at
  `n` divided by the sum of their weights.

  A row index is read as jnp reads it (a negative index wraps once) and as a gather reads it (clamped into the
  table): where the indices are in range neither changes anything.
-/
import Idealize.ShloMosaic.PureOps.Ideal
import Idealize.ShloMosaic.Lib.ValueIdx
import proofs.«412317_j52716428591538_3_alg».proof.Proof.LibRowOps

noncomputable section

namespace Cert.EdgeAttn

open Idealize.ShloMosaic Idealize.ShloMosaic.ValueIdx RowOps
open scoped BigOperators

abbrev SN : Shape := ⟨2, ![50000, 64]⟩
abbrev SR : Shape := ⟨2, ![1000, 64]⟩
abbrev SA : Shape := ⟨2, ![3, 1600000]⟩
abbrev SW : Shape := ⟨3, ![1, 1, 64]⟩
abbrev SAtt : Shape := ⟨4, ![2, 2, 64, 1]⟩
abbrev SOut : Shape := ⟨3, ![2, 50000, 64]⟩

/-- The f32 zero word and the leaky slope's word (0.2 rounded to f32), as extended reals. -/
def zero32 : EReal := Ideal.ofBits .f32 0x00000000#32
def slope : EReal := Ideal.ofBits .f32 0x3E4CCCCD#32

/-- `leaky_relu`: `x` where `x ≥ 0`, else `slope · x`. -/
def leaky (x : EReal) : EReal := Scalar.select (Ideal.cmp .oge x zero32) x (slope * x)

section
variable (h : SN.Idx → EReal) (r : SR.Idx → EReal) (A : SA.Idx → BitVec 32) (w : SW.Idx → EReal) (a : SAtt.Idx → EReal)

/-- The source node's row and the relation's row of edge `e`. -/
def srcRow (e : Fin 1600000) : Fin 50000 := clampRow 50000 (by decide) (wrap 50000#32 (A (ix2 2 e)))
def relRow (e : Fin 1600000) : Fin 1000 := clampRow 1000 (by decide) (wrap 1000#32 (A (ix2 1 e)))

/-- Head `i`'s source features of edge `e`: the node's row, rescaled columnwise by `w` for head 1. -/
def srcAt (i : Fin 2) (e : Fin 1600000) (k : Fin 64) : EReal :=
  if i = 0 then h (ix2 (srcRow A e) k) else h (ix2 (srcRow A e) k) * w (ix3 0 0 k)

/-- The relation features of edge `e`. -/
def relAt (e : Fin 1600000) (k : Fin 64) : EReal := r (ix2 (relRow A e) k)

/-- Head `i`'s score of edge `e`. -/
def score (i : Fin 2) (e : Fin 1600000) : EReal :=
  (∑ k : Fin 64, srcAt h A w i e k * a (ix4 i 0 k 0)) + ∑ k : Fin 64, relAt r A e k * a (ix4 i 1 k 0)

/-- Head `i`'s attention weight of edge `e`. -/
def att (i : Fin 2) (e : Fin 1600000) : EReal := Ideal.exp (-(leaky (score h r A w a i e)))

/-- Head `i`'s message of edge `e`, column `f`. -/
def msg (i : Fin 2) (e : Fin 1600000) (f : Fin 64) : EReal :=
  (srcAt h A w i e f - relAt r A e f) * att h r A w a i e

/-- The result at head `i`, node `n`, column `f`: the messages arriving at `n` summed, over the weights arriving
    at `n` summed (each sum started at the f32 zero, as both programs start it). -/
def outAt (i : Fin 2) (n : Fin 50000) (f : Fin 64) : EReal :=
  Ideal.div (zero32 + edgeSum (fun e => A (ix2 0 e)) n.val (fun e => msg h r A w a i e f))
    (zero32 + edgeSum (fun e => A (ix2 0 e)) n.val (fun e => att h r A w a i e))

/-- The whole result array. -/
def out : SOut.Idx → EReal := fun j => outAt h r A w a (j 0) (j 1) (j 2)

end

end Cert.EdgeAttn

end
-- ==== Proof.KerPrefix.lean ====
/-
  The kernel program's host operations before its one region, read at an index.

  Before the region the program cuts the edge list `A : [3, E]` into its three rows (destination, relation, source),
  takes the source nodes' rows of `h : [50000, 64]` and the relations' rows of `r : [1000, 64]` (`jnp.take` in fill
  mode: a negative index wraps once, the wrapped index is tested against `[0, N - 1]`, the row is gathered, and a row
  whose index fails the test is replaced by a fill word), lays the two `[E, 64]` arrays side by side as `[E, 128]`, and
  builds three small tables from the attention vectors `a : [2, 2, 64, 1]` and the weight vector `w : [1, 1, 64]`: the source
  weights `[64, 2]` (column 0 head 0's `a[0, 0]`, column 1 head 1's `a[1, 0]` rescaled by `w`), the relation weights
  `[64, 2]` (`a[0, 1]`, `a[1, 1]`) and `w` as one row `[1, 64]`.

  Where every source index lies in `[0, 50000)` and every relation index in `[0, 1000)` the test passes everywhere and a take is
  the gather: entry `(e, l)` of the wide array is `h[src e, l]` for `l < 64` and `r[rel e, l - 64]` from column 64 on.

  The operations come in four stretches; each is read from the contents it starts at, and a take's 23 operations are read in
  three runs (the wrapped index column, the in-range mask, the gather and the fill).
-/
import proofs.«412317_j52716428591538_3_alg».proof.Proof.Gen.KernelIdeal.Frame
import proofs.«412317_j52716428591538_3_alg».proof.Proof.Spec
import Idealize.ShloMosaic.Lib.ValueIdx
import Idealize.ShloMosaic.Lib.Pipeline.Value
import Idealize.ShloMosaic.Lib.ValueLayout
import Idealize.ShloMosaic.PureOps.Reduce

noncomputable section

namespace Cert.KerSide

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (c : Dev nD)

/-! ## Layout operations read at an index -/

section Layout
variable {α : Type}

/-- Row `o` of a `[3, E]` array, cut out and flattened, read at `e`. -/
theorem row_apply (x : (⟨2, ![3, 1600000]⟩ : Shape).Idx → α) (o : ℕ)
    (h : (⟨2, ![3, 1600000]⟩ : Shape).Slices ![o, 0] ⟨2, ![1, 1600000]⟩)
    (hc : (⟨2, ![1, 1600000]⟩ : Shape).ShapeCasts ⟨1, ![1600000]⟩) (e : Fin 1600000) (r : Fin 3) (hr : r.val = o) :
    shapeCast ⟨1, ![1600000]⟩ (extractStridedSlice ⟨2, ![1, 1600000]⟩ ![o, 0] x h) hc (ix1 e) = x (ix2 r e) :=
  (shapeCast_1a_a_apply _ hc e).trans (slice2_axis0_apply o x h 0 e r hr)

/-- The column `x[oi, oj, :, 0]` of a `[2, 2, 64, 1]` table, cut out and flattened, read at `k`. -/
theorem col_apply (x : (⟨4, ![2, 2, 64, 1]⟩ : Shape).Idx → α) (oi oj : ℕ)
    (h : (⟨4, ![2, 2, 64, 1]⟩ : Shape).Slices ![oi, oj, 0, 0] ⟨4, ![1, 1, 64, 1]⟩)
    (hc : (⟨4, ![1, 1, 64, 1]⟩ : Shape).ShapeCasts ⟨1, ![64]⟩) (k : Fin 64) (i j : Fin 2) (hi : i.val = oi) (hj : j.val = oj) :
    shapeCast ⟨1, ![64]⟩ (extractStridedSlice ⟨4, ![1, 1, 64, 1]⟩ ![oi, oj, 0, 0] x h) hc (ix1 k) = x (ix4 i j k 0) := by
  refine (shapeCast_apply _ hc (ix1 k) (ix4 (0 : Fin 1) (0 : Fin 1) k (0 : Fin 1)) ?_).trans ?_
  · rw [Shape.rowMajor_val_four, Shape.rowMajor_val_one]
    show ((0 * 1 + 0) * 64 + k.val) * 1 + 0 = k.val
    omega
  · refine extractStridedSlice_apply _ _ h _ (ix4 i j k 0) fun a => ?_
    match a with
    | ⟨0, _⟩ => exact hi
    | ⟨1, _⟩ => exact hj
    | ⟨2, _⟩ => exact (Nat.zero_add _).symm
    | ⟨3, _⟩ => rfl

/-- A `[1, 1, 64]` array flattened, read at `k`. -/
theorem flat_apply (x : (⟨3, ![1, 1, 64]⟩ : Shape).Idx → α) (hc : (⟨3, ![1, 1, 64]⟩ : Shape).ShapeCasts ⟨1, ![64]⟩) (k : Fin 64) :
    shapeCast ⟨1, ![64]⟩ x hc (ix1 k) = x (ix3 0 0 k) := by
  refine shapeCast_apply _ hc (ix1 k) (ix3 (0 : Fin 1) (0 : Fin 1) k) ?_
  rw [Shape.rowMajor_val_three, Shape.rowMajor_val_one]
  show (0 * 1 + 0) * 64 + k.val = k.val
  omega

/-- A vector `[64]` as a column `[64, 1]`, read at `(k, 0)`. -/
theorem asCol_apply (x : (⟨1, ![64]⟩ : Shape).Idx → α) (h : (⟨1, ![64]⟩ : Shape).BroadcastsInDim ⟨2, ![64, 1]⟩ ![0]) (k : Fin 64) (z : Fin 1) :
    broadcastInDim ⟨2, ![64, 1]⟩ ![0] h x (ix2 k z) = x (ix1 k) := by
  refine broadcastInDim_apply _ h x (ix2 k z) (ix1 k) fun a => ?_
  match a with
  | ⟨0, _⟩ => rfl

/-- Two columns side by side, read in column 0 … -/
theorem cols_apply0 (x y : (⟨2, ![64, 1]⟩ : Shape).Idx → α)
    (h : Shape.Concatenates [(⟨2, ![64, 1]⟩ : Shape), ⟨2, ![64, 1]⟩] ⟨2, ![64, 2]⟩ 1) (k : Fin 64) :
    concatenate ⟨2, ![64, 2]⟩ 1 [⟨⟨2, ![64, 1]⟩, x⟩, ⟨⟨2, ![64, 1]⟩, y⟩] h (ix2 k 0) = x (ix2 k 0) := by
  refine concatenate_pair_apply_left 1 x y h (ix2 k 0) rfl (ix2 k 0) fun b => ?_
  match b with
  | ⟨0, _⟩ => rfl
  | ⟨1, _⟩ => rfl

/-- … and in column 1. -/
theorem cols_apply1 (x y : (⟨2, ![64, 1]⟩ : Shape).Idx → α)
    (h : Shape.Concatenates [(⟨2, ![64, 1]⟩ : Shape), ⟨2, ![64, 1]⟩] ⟨2, ![64, 2]⟩ 1) (k : Fin 64) :
    concatenate ⟨2, ![64, 2]⟩ 1 [⟨⟨2, ![64, 1]⟩, x⟩, ⟨⟨2, ![64, 1]⟩, y⟩] h (ix2 k 1) = y (ix2 k 0) := by
  refine concatenate_pair_apply_right 1 x y h (ix2 k 1) rfl rfl (ix2 k 0) (fun b hb => ?_) rfl
  match b with
  | ⟨0, _⟩ => rfl
  | ⟨1, _⟩ => exact absurd rfl hb

/-- Two `[E, 64]` arrays side by side, read left of column 64 … -/
theorem wide_apply_lo (x y : (⟨2, ![1600000, 64]⟩ : Shape).Idx → α)
    (h : Shape.Concatenates [(⟨2, ![1600000, 64]⟩ : Shape), ⟨2, ![1600000, 64]⟩] ⟨2, ![1600000, 128]⟩ 1)
    (e : Fin 1600000) (l : Fin 128) (hl : l.val < 64) :
    concatenate ⟨2, ![1600000, 128]⟩ 1 [⟨⟨2, ![1600000, 64]⟩, x⟩, ⟨⟨2, ![1600000, 64]⟩, y⟩] h (ix2 e l) = x (ix2 e ⟨l.val, hl⟩) := by
  refine concatenate_pair_apply_left 1 x y h (ix2 e l) rfl (ix2 e ⟨l.val, hl⟩) fun b => ?_
  match b with
  | ⟨0, _⟩ => rfl
  | ⟨1, _⟩ => rfl

/-- … and from column 64 on. -/
theorem wide_apply_hi (x y : (⟨2, ![1600000, 64]⟩ : Shape).Idx → α)
    (h : Shape.Concatenates [(⟨2, ![1600000, 64]⟩ : Shape), ⟨2, ![1600000, 64]⟩] ⟨2, ![1600000, 128]⟩ 1)
    (e : Fin 1600000) (l : Fin 128) (hl : 64 ≤ l.val) :
    concatenate ⟨2, ![1600000, 128]⟩ 1 [⟨⟨2, ![1600000, 64]⟩, x⟩, ⟨⟨2, ![1600000, 64]⟩, y⟩] h (ix2 e l)
      = y (ix2 e ⟨l.val - 64, by omega⟩) := by
  refine concatenate_pair_apply_right 1 x y h (ix2 e l) rfl rfl (ix2 e ⟨l.val - 64, by omega⟩) (fun b hb => ?_) ?_
  · match b with
    | ⟨0, _⟩ => rfl
    | ⟨1, _⟩ => exact absurd rfl hb
  · show l.val - 64 + 64 = l.val
    omega

end Layout

/-! ## An `and` over words that are all one -/

/-- A reduction by `and` from 1 over words that are all 1 is 1. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize List.filter _ _ = l
  induction l with
  | nil => rfl
  | cons a l ih =>
    rw [List.foldl_cons, hx a, show IntOp.andi 1#1 1#1 = 1#1 by decide]
    exact ih

/-! ## `jnp.take` of rows, in fill mode -/

section Take
variable {N : ℕ}

/-- The index row with its negative entries wrapped once. -/
def wrapRow (n : BitVec 32) (idx : S1600000.Idx → BitVec 32) : S1600000.Idx → BitVec 32 :=
  select (cmpi .slt idx (broadcastInDim S1600000 ![] Gen.bcast_S_S1600000 (constantI S_ 32 0#32)))
    (addi idx (broadcastInDim S1600000 ![] Gen.bcast_S_S1600000 (constantI S_ 32 n))) idx

/-- The wrapped index row as a column of start indices. -/
def idxCol (n : BitVec 32) (idx : S1600000.Idx → BitVec 32) : S1600000x1.Idx → BitVec 32 :=
  broadcastInDim S1600000x1 ![0] Gen.bcast_S1600000_S1600000x1_0 (wrapRow n idx)

/-- The test `0 ≤ i ∧ i ≤ last` of each start index. -/
def okOf (last : BitVec 32) (col : S1600000x1.Idx → BitVec 32) : S1600000x1.Idx → BitVec 1 :=
  andi (cmpi .sge col (broadcastInDim S1600000x1 ![] Gen.bcast_S_S1600000x1 (constantI S_ 32 0#32)))
    (cmpi .sle col
      (broadcastInDim S1600000x1 ![0, 1] Gen.bcast_S1x1_S1600000x1_0_1 (broadcastInDim S1x1 ![1] Gen.bcast_S1_S1x1_1 (constantI S1 32 last))))

/-- The test, and-ed over the column's unit axis: one bit per row. -/
def maskOf (last : BitVec 32) (col : S1600000x1.Idx → BitVec 32) : S1600000.Idx → BitVec 1 :=
  Host.reduce IntOp.andi (okOf last col) (constantI S_ 1 1#1) Gen.reducesTo_S1600000x1_S1600000_d1 Gen.h_S_

/-- The gathered rows where the mask holds, the fill word elsewhere. At any float instance. -/
def fillRows {F : FTy → Type} [FloatOps F] (g : GatherDims ⟨2, ![N, 64]⟩ S1600000x1 S1600000x64)
    (x : (⟨2, ![N, 64]⟩ : Shape).Idx → F .f32) (col : S1600000x1.Idx → BitVec 32) (mask : S1600000.Idx → BitVec 1) :
    S1600000x64.Idx → F .f32 :=
  select (broadcastInDim S1600000x64 ![0] Gen.bcast_S1600000_S1600000x64_0 mask) (Host.gather g x col)
    (broadcastInDim S1600000x64 ![] Gen.bcast_S_S1600000x64 (constant (F := F) S_ .f32 0x7FC00000#32))

/-- The rows of a table `[N, 64]` at an index row: where the wrapped index passes the test the gathered row, elsewhere
    the fill word. -/
def takeRows {F : FTy → Type} [FloatOps F] (g : GatherDims ⟨2, ![N, 64]⟩ S1600000x1 S1600000x64) (n last : BitVec 32)
    (x : (⟨2, ![N, 64]⟩ : Shape).Idx → F .f32) (idx : S1600000.Idx → BitVec 32) : S1600000x64.Idx → F .f32 :=
  fillRows g x (idxCol n idx) (maskOf last (idxCol n idx))

theorem wrapRow_apply (n : BitVec 32) (idx : S1600000.Idx → BitVec 32) (i : S1600000.Idx) :
    wrapRow n idx i = RowOps.wrap n (idx i) := rfl

theorem idxCol_apply (n : BitVec 32) (idx : S1600000.Idx → BitVec 32) (e : Fin 1600000) (z : Fin 1) :
    idxCol n idx (ix2 e z) = RowOps.wrap n (idx (ix1 e)) := by
  unfold idxCol
  refine (broadcastInDim_apply _ _ _ (ix2 e z) (ix1 e) fun a => ?_).trans (wrapRow_apply n idx _)
  match a with
  | ⟨0, _⟩ => rfl

theorem okOf_apply (last : BitVec 32) (col : S1600000x1.Idx → BitVec 32) (i : S1600000x1.Idx) :
    okOf last col i = IntOp.andi (IntOp.cmpi .sge (col i) 0#32) (IntOp.cmpi .sle (col i) last) := rfl

/-- THE TAKE READ AT `(e, k)`, every index in range: the table's entry `k` of the row the index names. -/
theorem takeRows_apply (hN : 0 < N) (hN' : N < 2 ^ 31)
    (wf : GatherDims.WF ⟨2, ![N, 64]⟩ ⟨2, ![1600000, 1]⟩ ⟨2, ![1600000, 64]⟩ [1] [0] [] [0] [] 1 ![1, 64])
    (g : GatherDims ⟨2, ![N, 64]⟩ S1600000x1 S1600000x64) (hg : g = RowOps.rowGather N 1600000 64 wf)
    (n last : BitVec 32) (hlast : last = BitVec.ofNat 32 (N - 1))
    (x : (⟨2, ![N, 64]⟩ : Shape).Idx → EReal) (idx : S1600000.Idx → BitVec 32)
    (hidx : ∀ e : Fin 1600000, 0 ≤ (idx (ix1 e)).toInt ∧ (idx (ix1 e)).toInt < N) (e : Fin 1600000) (k : Fin 64) :
    takeRows (F := Ideal) g n last x idx (ix2 e k) = x (ix2 (RowOps.clampRow N hN (RowOps.wrap n (idx (ix1 e)))) k) := by
  subst hg hlast
  have hok : ∀ i : S1600000x1.Idx, okOf (BitVec.ofNat 32 (N - 1)) (idxCol n idx) i = 1#1 := fun i => by
    obtain ⟨a, b, rfl⟩ : ∃ a b, i = ix2 a b := ⟨i 0, i 1, eq_ix2 i⟩
    rw [okOf_apply, idxCol_apply, RowOps.wrap_of_nonneg _ _ (hidx a).1]
    exact RowOps.inRange_test N hN hN' _ (hidx a).1 (hidx a).2
  have hmask : maskOf (BitVec.ofNat 32 (N - 1)) (idxCol n idx) (ix1 e) = 1#1 :=
    reduce_andi_of_all _ _ _ _ hok rfl _
  have hb : broadcastInDim S1600000x64 ![0] Gen.bcast_S1600000_S1600000x64_0
      (maskOf (BitVec.ofNat 32 (N - 1)) (idxCol n idx)) (ix2 e k) = 1#1 := by
    refine (broadcastInDim_apply _ _ _ (ix2 e k) (ix1 e) fun a => ?_).trans hmask
    match a with
    | ⟨0, _⟩ => rfl
  unfold takeRows fillRows
  rw [select_apply, hb, select_one]
  refine (RowOps.gather_rows_apply hN wf x _ e k).trans ?_
  rw [idxCol_apply]

end Take

/-- A line of operations run in two parts. -/
theorem after_cut {Val : EltTy → Type} (k : ℕ) (l : List (HloOp τ sig Val)) (X : Valuation τ sig Val) :
    StableHlo.after l X = StableHlo.after (l.drop k) (StableHlo.after (l.take k) X) := by
  rw [← StableHlo.after_append, List.take_append_drop]

/-! ## The contents after each stretch of host operations

The operations before the region come in four stretches: the three rows of the edge list cut out; the source rows
taken; the relation rows taken; the two laid side by side and the weight tables built. Each stretch is read from the
contents `X` it starts at. -/

/-- After the three rows of the edge list are cut out. -/
def Va : Valuation τ sig (Elt Ideal) := StableHlo.after Gen.hostOps0 (fun b => m (c, b))
/-- After the source rows are taken. -/
def Vb : Valuation τ sig (Elt Ideal) := StableHlo.after Gen.hostOps0_1 (Va m c)
/-- After the relation rows are taken. -/
def Vc : Valuation τ sig (Elt Ideal) := StableHlo.after Gen.hostOps0_2 (Vb m c)

theorem V0_split : Gen.V0 m c = StableHlo.after Gen.hostOps0_3 (Vc m c) := by
  unfold Vc Vb Va
  rw [← StableHlo.after_append, ← StableHlo.after_append, ← StableHlo.after_append]
  show StableHlo.after (List.flatten [Gen.hostOps0, Gen.hostOps0_1, Gen.hostOps0_2, Gen.hostOps0_3]) _ = _
  simp only [List.flatten_cons, List.flatten_nil, List.append_nil]

section Stretches
variable (X : Valuation τ sig (Elt Ideal))

/-! ### The first stretch -/

theorem ops0_dst : (StableHlo.after (Gen.hostOps0 (F := Ideal)) X (Proc.devRef .tc main_v1) : S1600000.Idx → BitVec 32)
    = shapeCast S1600000 (extractStridedSlice S1x1600000 ![0, 0] (X (Proc.devRef .tc main_arg2) : S3x1600000.Idx → BitVec 32)
        Gen.slices_S3x1600000_S1x1600000_0_0) Gen.shapeCasts_S1x1600000_S1600000 := by
  rw [Gen.hostOps0]; after_results; rfl
theorem ops0_rel : (StableHlo.after (Gen.hostOps0 (F := Ideal)) X (Proc.devRef .tc main_v3) : S1600000.Idx → BitVec 32)
    = shapeCast S1600000 (extractStridedSlice S1x1600000 ![1, 0] (X (Proc.devRef .tc main_arg2) : S3x1600000.Idx → BitVec 32)
        Gen.slices_S3x1600000_S1x1600000_1_0) Gen.shapeCasts_S1x1600000_S1600000 := by
  rw [Gen.hostOps0]; after_results; rfl
theorem ops0_src : (StableHlo.after (Gen.hostOps0 (F := Ideal)) X (Proc.devRef .tc main_v5) : S1600000.Idx → BitVec 32)
    = shapeCast S1600000 (extractStridedSlice S1x1600000 ![2, 0] (X (Proc.devRef .tc main_arg2) : S3x1600000.Idx → BitVec 32)
        Gen.slices_S3x1600000_S1x1600000_2_0) Gen.shapeCasts_S1x1600000_S1600000 := by
  rw [Gen.hostOps0]; after_results; rfl
theorem ops0_arg0 : StableHlo.after (Gen.hostOps0 (F := Ideal)) X (Proc.devRef .tc main_arg0) = X (Proc.devRef .tc main_arg0) := by
  rw [Gen.hostOps0]; after_results
theorem ops0_arg1 : StableHlo.after (Gen.hostOps0 (F := Ideal)) X (Proc.devRef .tc main_arg1) = X (Proc.devRef .tc main_arg1) := by
  rw [Gen.hostOps0]; after_results
theorem ops0_arg3 : StableHlo.after (Gen.hostOps0 (F := Ideal)) X (Proc.devRef .tc main_arg3) = X (Proc.devRef .tc main_arg3) := by
  rw [Gen.hostOps0]; after_results
theorem ops0_arg4 : StableHlo.after (Gen.hostOps0 (F := Ideal)) X (Proc.devRef .tc main_arg4) = X (Proc.devRef .tc main_arg4) := by
  rw [Gen.hostOps0]; after_results

/-! ### The second stretch: the source rows -/

theorem ops1_dst : StableHlo.after (Gen.hostOps0_1 (F := Ideal)) X (Proc.devRef .tc main_v1) = X (Proc.devRef .tc main_v1) := by
  rw [Gen.hostOps0_1]; after_results
theorem ops1_rel : StableHlo.after (Gen.hostOps0_1 (F := Ideal)) X (Proc.devRef .tc main_v3) = X (Proc.devRef .tc main_v3) := by
  rw [Gen.hostOps0_1]; after_results
theorem ops1_arg1 : StableHlo.after (Gen.hostOps0_1 (F := Ideal)) X (Proc.devRef .tc main_arg1) = X (Proc.devRef .tc main_arg1) := by
  rw [Gen.hostOps0_1]; after_results
theorem ops1_arg3 : StableHlo.after (Gen.hostOps0_1 (F := Ideal)) X (Proc.devRef .tc main_arg3) = X (Proc.devRef .tc main_arg3) := by
  rw [Gen.hostOps0_1]; after_results
theorem ops1_arg4 : StableHlo.after (Gen.hostOps0_1 (F := Ideal)) X (Proc.devRef .tc main_arg4) = X (Proc.devRef .tc main_arg4) := by
  rw [Gen.hostOps0_1]; after_results

/-! ### The third stretch: the relation rows -/

theorem ops2_dst : StableHlo.after (Gen.hostOps0_2 (F := Ideal)) X (Proc.devRef .tc main_v1) = X (Proc.devRef .tc main_v1) := by
  rw [Gen.hostOps0_2]; after_results
theorem ops2_srcRows : StableHlo.after (Gen.hostOps0_2 (F := Ideal)) X (Proc.devRef .tc main_v6) = X (Proc.devRef .tc main_v6) := by
  rw [Gen.hostOps0_2]; after_results
theorem ops2_arg3 : StableHlo.after (Gen.hostOps0_2 (F := Ideal)) X (Proc.devRef .tc main_arg3) = X (Proc.devRef .tc main_arg3) := by
  rw [Gen.hostOps0_2]; after_results
theorem ops2_arg4 : StableHlo.after (Gen.hostOps0_2 (F := Ideal)) X (Proc.devRef .tc main_arg4) = X (Proc.devRef .tc main_arg4) := by
  rw [Gen.hostOps0_2]; after_results

/-! ### The fourth stretch: the rows side by side, and the weight tables -/

theorem ops3_dst : StableHlo.after (Gen.hostOps0_3 (F := Ideal)) X (Proc.devRef .tc main_v1) = X (Proc.devRef .tc main_v1) := by
  rw [Gen.hostOps0_3]; after_results
theorem ops3_wide : (StableHlo.after (Gen.hostOps0_3 (F := Ideal)) X (Proc.devRef .tc main_v8) : S1600000x128.Idx → EReal)
    = concatenate S1600000x128 1 [⟨S1600000x64, (X (Proc.devRef .tc main_v6) : S1600000x64.Idx → EReal)⟩,
        ⟨S1600000x64, (X (Proc.devRef .tc main_v7) : S1600000x64.Idx → EReal)⟩]
        Gen.concatenates_S1600000x64_S1600000x64_S1600000x128_d1 := by
  rw [Gen.hostOps0_3]; after_results
theorem ops3_wsrc : (StableHlo.after (Gen.hostOps0_3 (F := Ideal)) X (Proc.devRef .tc main_v21) : S64x2.Idx → EReal)
    = concatenate S64x2 1
        [⟨S64x1, broadcastInDim S64x1 ![0] Gen.bcast_S64_S64x1_0
            (shapeCast S64 (extractStridedSlice S1x1x64x1 ![0, 0, 0, 0] (X (Proc.devRef .tc main_arg4) : S2x2x64x1.Idx → EReal)
              Gen.slices_S2x2x64x1_S1x1x64x1_0_0_0_0) Gen.shapeCasts_S1x1x64x1_S64)⟩,
         ⟨S64x1, broadcastInDim S64x1 ![0] Gen.bcast_S64_S64x1_0
            (mulf (F := Ideal) (s := S64) (φ := .f32)
              (shapeCast S64 (extractStridedSlice S1x1x64x1 ![1, 0, 0, 0] (X (Proc.devRef .tc main_arg4) : S2x2x64x1.Idx → EReal)
                Gen.slices_S2x2x64x1_S1x1x64x1_1_0_0_0) Gen.shapeCasts_S1x1x64x1_S64)
              (shapeCast S64 (X (Proc.devRef .tc main_arg3) : S1x1x64.Idx → EReal) Gen.shapeCasts_S1x1x64_S64))⟩]
        Gen.concatenates_S64x1_S64x1_S64x2_d1 := by
  rw [Gen.hostOps0_3]; after_results; rfl
theorem ops3_wrel : (StableHlo.after (Gen.hostOps0_3 (F := Ideal)) X (Proc.devRef .tc main_v24) : S64x2.Idx → EReal)
    = concatenate S64x2 1
        [⟨S64x1, broadcastInDim S64x1 ![0] Gen.bcast_S64_S64x1_0
            (shapeCast S64 (extractStridedSlice S1x1x64x1 ![0, 1, 0, 0] (X (Proc.devRef .tc main_arg4) : S2x2x64x1.Idx → EReal)
              Gen.slices_S2x2x64x1_S1x1x64x1_0_1_0_0) Gen.shapeCasts_S1x1x64x1_S64)⟩,
         ⟨S64x1, broadcastInDim S64x1 ![0] Gen.bcast_S64_S64x1_0
            (shapeCast S64 (extractStridedSlice S1x1x64x1 ![1, 1, 0, 0] (X (Proc.devRef .tc main_arg4) : S2x2x64x1.Idx → EReal)
              Gen.slices_S2x2x64x1_S1x1x64x1_1_1_0_0) Gen.shapeCasts_S1x1x64x1_S64)⟩]
        Gen.concatenates_S64x1_S64x1_S64x2_d1 := by
  rw [Gen.hostOps0_3]; after_results; rfl
theorem ops3_wvec : (StableHlo.after (Gen.hostOps0_3 (F := Ideal)) X (Proc.devRef .tc main_v25) : S1x64.Idx → EReal)
    = shapeCast S1x64 (shapeCast S64 (X (Proc.devRef .tc main_arg3) : S1x1x64.Idx → EReal) Gen.shapeCasts_S1x1x64_S64)
        Gen.shapeCasts_S64_S1x64 := by
  rw [Gen.hostOps0_3]; after_results; rfl

end Stretches

/-! ### The source rows taken: the operations in three runs — the wrapped index column (8), the in-range mask (10), the
    gather and the fill (5) -/

section
variable {F : FTy → Type} [FloatOps F] (X : Valuation τ sig (Elt F))
attribute [local irreducible] Host.reduce Host.gather

theorem hostOps0_1a_col : (StableHlo.after ((Gen.hostOps0_1 (F := F)).take 8) X (Proc.devRef .tc main_call0_v5) : S1600000x1.Idx → BitVec 32)
    = idxCol 50000#32 (X (Proc.devRef .tc main_v5) : S1600000.Idx → BitVec 32) := by
  simp only [Gen.hostOps0_1, List.take_succ_cons, List.take_zero]; after_results; rfl
theorem hostOps0_1a_tab : StableHlo.after ((Gen.hostOps0_1 (F := F)).take 8) X (Proc.devRef .tc main_arg0) = X (Proc.devRef .tc main_arg0) := by
  simp only [Gen.hostOps0_1, List.take_succ_cons, List.take_zero]; after_results
theorem hostOps0_1b_mask : (StableHlo.after (((Gen.hostOps0_1 (F := F)).drop 8).take 10) X (Proc.devRef .tc main_call0_v12) : S1600000.Idx → BitVec 1)
    = maskOf 49999#32 (X (Proc.devRef .tc main_call0_v5) : S1600000x1.Idx → BitVec 32) := by
  simp only [Gen.hostOps0_1, List.drop_succ_cons, List.drop_zero, List.take_succ_cons, List.take_zero]; after_results
  simp only [StableHlo.TRef.ofBuf, StableHlo.TRef.toBuf, cast_eq]
  rfl
theorem hostOps0_1b_col : StableHlo.after (((Gen.hostOps0_1 (F := F)).drop 8).take 10) X (Proc.devRef .tc main_call0_v5) = X (Proc.devRef .tc main_call0_v5) := by
  simp only [Gen.hostOps0_1, List.drop_succ_cons, List.drop_zero, List.take_succ_cons, List.take_zero]; after_results
theorem hostOps0_1b_tab : StableHlo.after (((Gen.hostOps0_1 (F := F)).drop 8).take 10) X (Proc.devRef .tc main_arg0) = X (Proc.devRef .tc main_arg0) := by
  simp only [Gen.hostOps0_1, List.drop_succ_cons, List.drop_zero, List.take_succ_cons, List.take_zero]; after_results
theorem hostOps0_1c_out : (StableHlo.after (((Gen.hostOps0_1 (F := F)).drop 8).drop 10) X (Proc.devRef .tc main_v6) : S1600000x64.Idx → F .f32)
    = fillRows gather_S50000x64_S1600000x1_S1600000x64_1_0_n_n_0_1_164 (X (Proc.devRef .tc main_arg0) : S50000x64.Idx → F .f32)
        (X (Proc.devRef .tc main_call0_v5) : S1600000x1.Idx → BitVec 32) (X (Proc.devRef .tc main_call0_v12) : S1600000.Idx → BitVec 1) := by
  simp only [Gen.hostOps0_1, List.drop_succ_cons, List.drop_zero]; after_results; rfl

/-- The stretch whole: the source rows are the take of the table at the index row. -/
theorem hostOps0_1_take : (StableHlo.after (Gen.hostOps0_1 (F := F)) X (Proc.devRef .tc main_v6) : S1600000x64.Idx → F .f32)
    = takeRows gather_S50000x64_S1600000x1_S1600000x64_1_0_n_n_0_1_164 50000#32 49999#32
        (X (Proc.devRef .tc main_arg0) : S50000x64.Idx → F .f32) (X (Proc.devRef .tc main_v5) : S1600000.Idx → BitVec 32) := by
  rw [after_cut 8 (Gen.hostOps0_1 (F := F)) X, after_cut 10 ((Gen.hostOps0_1 (F := F)).drop 8)]
  rw [hostOps0_1c_out, hostOps0_1b_mask, hostOps0_1b_col, hostOps0_1b_tab, hostOps0_1a_col, hostOps0_1a_tab]
  rfl

end

/-! ### The relation rows taken: the operations in three runs — the wrapped index column (8), the in-range mask (10), the
    gather and the fill (5) -/

section
variable {F : FTy → Type} [FloatOps F] (X : Valuation τ sig (Elt F))
attribute [local irreducible] Host.reduce Host.gather

theorem hostOps0_2a_col : (StableHlo.after ((Gen.hostOps0_2 (F := F)).take 8) X (Proc.devRef .tc main_call1_v5) : S1600000x1.Idx → BitVec 32)
    = idxCol 1000#32 (X (Proc.devRef .tc main_v3) : S1600000.Idx → BitVec 32) := by
  simp only [Gen.hostOps0_2, List.take_succ_cons, List.take_zero]; after_results; rfl
theorem hostOps0_2a_tab : StableHlo.after ((Gen.hostOps0_2 (F := F)).take 8) X (Proc.devRef .tc main_arg1) = X (Proc.devRef .tc main_arg1) := by
  simp only [Gen.hostOps0_2, List.take_succ_cons, List.take_zero]; after_results
theorem hostOps0_2b_mask : (StableHlo.after (((Gen.hostOps0_2 (F := F)).drop 8).take 10) X (Proc.devRef .tc main_call1_v12) : S1600000.Idx → BitVec 1)
    = maskOf 999#32 (X (Proc.devRef .tc main_call1_v5) : S1600000x1.Idx → BitVec 32) := by
  simp only [Gen.hostOps0_2, List.drop_succ_cons, List.drop_zero, List.take_succ_cons, List.take_zero]; after_results
  simp only [StableHlo.TRef.ofBuf, StableHlo.TRef.toBuf, cast_eq]
  rfl
theorem hostOps0_2b_col : StableHlo.after (((Gen.hostOps0_2 (F := F)).drop 8).take 10) X (Proc.devRef .tc main_call1_v5) = X (Proc.devRef .tc main_call1_v5) := by
  simp only [Gen.hostOps0_2, List.drop_succ_cons, List.drop_zero, List.take_succ_cons, List.take_zero]; after_results
theorem hostOps0_2b_tab : StableHlo.after (((Gen.hostOps0_2 (F := F)).drop 8).take 10) X (Proc.devRef .tc main_arg1) = X (Proc.devRef .tc main_arg1) := by
  simp only [Gen.hostOps0_2, List.drop_succ_cons, List.drop_zero, List.take_succ_cons, List.take_zero]; after_results
theorem hostOps0_2c_out : (StableHlo.after (((Gen.hostOps0_2 (F := F)).drop 8).drop 10) X (Proc.devRef .tc main_v7) : S1600000x64.Idx → F .f32)
    = fillRows gather_S1000x64_S1600000x1_S1600000x64_1_0_n_n_0_1_164 (X (Proc.devRef .tc main_arg1) : S1000x64.Idx → F .f32)
        (X (Proc.devRef .tc main_call1_v5) : S1600000x1.Idx → BitVec 32) (X (Proc.devRef .tc main_call1_v12) : S1600000.Idx → BitVec 1) := by
  simp only [Gen.hostOps0_2, List.drop_succ_cons, List.drop_zero]; after_results; rfl

/-- The stretch whole: the relation rows are the take of the table at the index row. -/
theorem hostOps0_2_take : (StableHlo.after (Gen.hostOps0_2 (F := F)) X (Proc.devRef .tc main_v7) : S1600000x64.Idx → F .f32)
    = takeRows gather_S1000x64_S1600000x1_S1600000x64_1_0_n_n_0_1_164 1000#32 999#32
        (X (Proc.devRef .tc main_arg1) : S1000x64.Idx → F .f32) (X (Proc.devRef .tc main_v3) : S1600000.Idx → BitVec 32) := by
  rw [after_cut 8 (Gen.hostOps0_2 (F := F)) X, after_cut 10 ((Gen.hostOps0_2 (F := F)).drop 8)]
  rw [hostOps0_2c_out, hostOps0_2b_mask, hostOps0_2b_col, hostOps0_2b_tab, hostOps0_2a_col, hostOps0_2a_tab]
  rfl

end

/-! ## The buffers the region reads, at an index -/

theorem V_split (r : Ref sig .tc) : Gen.V m c r = StableHlo.after Gen.hostOps0_3 (Vc m c) (Proc.devRef .tc r) :=
  congrFun (V0_split m c) (Proc.devRef .tc r)

/-- The weight vector and the attention table are as launched when the last stretch starts. -/
theorem Vc_arg3 : Vc m c (Proc.devRef .tc main_arg3) = m ((c.tc : Thread nD τ).loc main_arg3) :=
  (ops2_arg3 _).trans ((ops1_arg3 _).trans (ops0_arg3 _))
theorem Vc_arg4 : Vc m c (Proc.devRef .tc main_arg4) = m ((c.tc : Thread nD τ).loc main_arg4) :=
  (ops2_arg4 _).trans ((ops1_arg4 _).trans (ops0_arg4 _))

/-- The destination row is row 0 of the edge list. -/
theorem V_dst (e : Fin 1600000) :
    (Gen.V m c main_v1 : S1600000.Idx → BitVec 32) (ix1 e)
      = (m ((c.tc : Thread nD τ).loc main_arg2) : S3x1600000.Idx → BitVec 32) (ix2 0 e) := by
  have h : (Gen.V m c main_v1 : S1600000.Idx → BitVec 32)
      = shapeCast S1600000 (extractStridedSlice S1x1600000 ![0, 0]
          (m ((c.tc : Thread nD τ).loc main_arg2) : S3x1600000.Idx → BitVec 32) Gen.slices_S3x1600000_S1x1600000_0_0)
          Gen.shapeCasts_S1x1600000_S1600000 :=
    (V_split m c main_v1).trans ((ops3_dst _).trans ((ops2_dst _).trans ((ops1_dst _).trans (ops0_dst _))))
  rw [h]
  exact row_apply _ 0 _ _ e 0 rfl

/-- The source rows, as taken. -/
theorem Vc_srcRows : (Vc m c (Proc.devRef .tc main_v6) : S1600000x64.Idx → EReal)
    = takeRows (F := Ideal) gather_S50000x64_S1600000x1_S1600000x64_1_0_n_n_0_1_164 50000#32 49999#32
        (m ((c.tc : Thread nD τ).loc main_arg0) : S50000x64.Idx → EReal)
        (shapeCast S1600000 (extractStridedSlice S1x1600000 ![2, 0]
          (m ((c.tc : Thread nD τ).loc main_arg2) : S3x1600000.Idx → BitVec 32) Gen.slices_S3x1600000_S1x1600000_2_0)
          Gen.shapeCasts_S1x1600000_S1600000) := by
  refine (ops2_srcRows _).trans ((hostOps0_1_take _).trans ?_)
  show takeRows (F := Ideal) _ _ _ (Va m c (Proc.devRef .tc main_arg0)) (Va m c (Proc.devRef .tc main_v5)) = _
  unfold Va
  rw [ops0_arg0, ops0_src]

/-- The relation rows, as taken. -/
theorem Vc_relRows : (Vc m c (Proc.devRef .tc main_v7) : S1600000x64.Idx → EReal)
    = takeRows (F := Ideal) gather_S1000x64_S1600000x1_S1600000x64_1_0_n_n_0_1_164 1000#32 999#32
        (m ((c.tc : Thread nD τ).loc main_arg1) : S1000x64.Idx → EReal)
        (shapeCast S1600000 (extractStridedSlice S1x1600000 ![1, 0]
          (m ((c.tc : Thread nD τ).loc main_arg2) : S3x1600000.Idx → BitVec 32) Gen.slices_S3x1600000_S1x1600000_1_0)
          Gen.shapeCasts_S1x1600000_S1600000) := by
  refine (hostOps0_2_take _).trans ?_
  show takeRows (F := Ideal) _ _ _ (Vb m c (Proc.devRef .tc main_arg1)) (Vb m c (Proc.devRef .tc main_v3)) = _
  unfold Vb
  rw [ops1_arg1, ops1_rel]
  unfold Va
  rw [ops0_arg1, ops0_rel]

/-- Left of column 64 the wide array holds the source node's row. -/
theorem V_srcrel_lo
    (hA2 : ∀ e : Fin 1600000, 0 ≤ ((m ((c.tc : Thread nD τ).loc main_arg2) : S3x1600000.Idx → BitVec 32) (ix2 2 e)).toInt
      ∧ ((m ((c.tc : Thread nD τ).loc main_arg2) : S3x1600000.Idx → BitVec 32) (ix2 2 e)).toInt < 50000)
    (e : Fin 1600000) (l : Fin 128) (hl : l.val < 64) :
    (Gen.V m c main_v8 : S1600000x128.Idx → EReal) (ix2 e l)
      = (m ((c.tc : Thread nD τ).loc main_arg0) : S50000x64.Idx → EReal)
          (ix2 (Cert.EdgeAttn.srcRow (m ((c.tc : Thread nD τ).loc main_arg2)) e) ⟨l.val, hl⟩) := by
  rw [V_split, ops3_wide]
  refine (wide_apply_lo _ _ _ e l hl).trans ?_
  rw [Vc_srcRows]
  refine (takeRows_apply (N := 50000) (by decide) (by decide) gather_S50000x64_S1600000x1_S1600000x64_1_0_n_n_0_1_164_wf _ rfl
    50000#32 49999#32 rfl _ _ (fun e' => ?_) e ⟨l.val, hl⟩).trans ?_
  · rw [row_apply _ 2 _ _ _ 2 rfl]
    exact ⟨(hA2 e').1, by have := (hA2 e').2; omega⟩
  · rw [row_apply _ 2 _ _ _ 2 rfl]
    rfl

/-- From column 64 on it holds the relation's row. -/
theorem V_srcrel_hi
    (hA1 : ∀ e : Fin 1600000, 0 ≤ ((m ((c.tc : Thread nD τ).loc main_arg2) : S3x1600000.Idx → BitVec 32) (ix2 1 e)).toInt
      ∧ ((m ((c.tc : Thread nD τ).loc main_arg2) : S3x1600000.Idx → BitVec 32) (ix2 1 e)).toInt < 1000)
    (e : Fin 1600000) (l : Fin 128) (hl : 64 ≤ l.val) :
    (Gen.V m c main_v8 : S1600000x128.Idx → EReal) (ix2 e l)
      = (m ((c.tc : Thread nD τ).loc main_arg1) : S1000x64.Idx → EReal)
          (ix2 (Cert.EdgeAttn.relRow (m ((c.tc : Thread nD τ).loc main_arg2)) e) ⟨l.val - 64, by omega⟩) := by
  rw [V_split, ops3_wide]
  refine (wide_apply_hi _ _ _ e l hl).trans ?_
  rw [Vc_relRows]
  refine (takeRows_apply (N := 1000) (by decide) (by decide) gather_S1000x64_S1600000x1_S1600000x64_1_0_n_n_0_1_164_wf _ rfl
    1000#32 999#32 rfl _ _ (fun e' => ?_) e ⟨l.val - 64, by omega⟩).trans ?_
  · rw [row_apply _ 1 _ _ _ 1 rfl]
    exact ⟨(hA1 e').1, by have := (hA1 e').2; omega⟩
  · rw [row_apply _ 1 _ _ _ 1 rfl]
    rfl

/-- The source weights: head 0's column as it is, head 1's rescaled by the weight vector. -/
theorem V_wsrc0 (k : Fin 64) :
    (Gen.V m c main_v21 : S64x2.Idx → EReal) (ix2 k 0)
      = (m ((c.tc : Thread nD τ).loc main_arg4) : S2x2x64x1.Idx → EReal) (ix4 0 0 k 0) := by
  rw [V_split, ops3_wsrc, Vc_arg4]
  refine (cols_apply0 _ _ _ k).trans ((asCol_apply _ _ k 0).trans ?_)
  exact col_apply _ 0 0 _ _ k 0 0 rfl rfl

theorem V_wsrc1 (k : Fin 64) :
    (Gen.V m c main_v21 : S64x2.Idx → EReal) (ix2 k 1)
      = @HMul.hMul EReal EReal EReal instHMul
          ((m ((c.tc : Thread nD τ).loc main_arg4) : S2x2x64x1.Idx → EReal) (ix4 1 0 k 0))
          ((m ((c.tc : Thread nD τ).loc main_arg3) : S1x1x64.Idx → EReal) (ix3 0 0 k)) := by
  rw [V_split, ops3_wsrc, Vc_arg4, Vc_arg3]
  refine (cols_apply1 _ _ _ k).trans ((asCol_apply _ _ k 0).trans ?_)
  rw [mulf_apply, col_apply _ 1 0 _ _ k 1 0 rfl rfl, flat_apply]

/-- The relation weights: the two heads' columns. -/
theorem V_wrel0 (k : Fin 64) :
    (Gen.V m c main_v24 : S64x2.Idx → EReal) (ix2 k 0)
      = (m ((c.tc : Thread nD τ).loc main_arg4) : S2x2x64x1.Idx → EReal) (ix4 0 1 k 0) := by
  rw [V_split, ops3_wrel, Vc_arg4]
  refine (cols_apply0 _ _ _ k).trans ((asCol_apply _ _ k 0).trans ?_)
  exact col_apply _ 0 1 _ _ k 0 1 rfl rfl

theorem V_wrel1 (k : Fin 64) :
    (Gen.V m c main_v24 : S64x2.Idx → EReal) (ix2 k 1)
      = (m ((c.tc : Thread nD τ).loc main_arg4) : S2x2x64x1.Idx → EReal) (ix4 1 1 k 0) := by
  rw [V_split, ops3_wrel, Vc_arg4]
  refine (cols_apply1 _ _ _ k).trans ((asCol_apply _ _ k 0).trans ?_)
  exact col_apply _ 1 1 _ _ k 1 1 rfl rfl

/-- The weight vector as one row. -/
theorem V_wvec (k : Fin 64) :
    (Gen.V m c main_v25 : S1x64.Idx → EReal) (ix2 0 k)
      = (m ((c.tc : Thread nD τ).loc main_arg3) : S1x1x64.Idx → EReal) (ix3 0 0 k) := by
  rw [V_split, ops3_wvec, Vc_arg3]
  exact (shapeCast_a_1a_apply _ _ 0 k).trans (flat_apply _ _ k)

end Cert.KerSide

end
-- ==== Proof.KerBody.lean ====
/-
  The kernel body's two stored values, read at an index of the block.

  One grid point handles 6400 edges. Its input block `x0 : [6400, 128]` holds, per edge, the source row in columns
  0–63 and the relation row in columns 64–127; `x1, x2 : [64, 2]` hold per head the vector the source row, resp. the
  relation row, is dotted with; `x3 : [1, 64]` is the columnwise rescale of head 1. The body stores the two weights
  `exp (-leaky (score))` of each edge, and the two messages side by side: `(src - rel) · weight₀` in columns 0–63 and
  `(src · x3 - rel) · weight₁` in columns 64–127.
-/
import proofs.«412317_j52716428591538_3_alg».proof.Proof.Gen.KernelIdeal.Skeleton
import proofs.«412317_j52716428591538_3_alg».proof.Proof.Spec
import Idealize.ShloMosaic.PureOps.Ideal.Laws
import Idealize.ShloMosaic.Lib.ValueIdx
import Idealize.ShloMosaic.Lib.Pipeline.Value

noncomputable section

namespace Cert.KerSide

open Cert.KernelIdeal Cert.KernelIdeal.Gen Idealize.ShloMosaic Idealize.ShloMosaic.ValueIdx
open scoped BigOperators

/-! ## The matrix product at an index -/

theorem dotK_lhs_0 (j : S6400x2.Idx) (k : dot_S6400x64_S64x2_S6400x2_1_0_0_1_n_n.contr.Idx) :
    (dot_S6400x64_S64x2_S6400x2_1_0_0_1_n_n.lhsIdx j k 0).val = (j 0).val := rfl
theorem dotK_lhs_1 (j : S6400x2.Idx) (k : dot_S6400x64_S64x2_S6400x2_1_0_0_1_n_n.contr.Idx) :
    (dot_S6400x64_S64x2_S6400x2_1_0_0_1_n_n.lhsIdx j k 1).val = (k ⟨0, by decide⟩).val :=
  dot_S6400x64_S64x2_S6400x2_1_0_0_1_n_n.lhsIdx_val_of_single rfl j k
theorem dotK_rhs_0 (j : S6400x2.Idx) (k : dot_S6400x64_S64x2_S6400x2_1_0_0_1_n_n.contr.Idx) :
    (dot_S6400x64_S64x2_S6400x2_1_0_0_1_n_n.rhsIdx j k 0).val = (k ⟨0, by decide⟩).val :=
  dot_S6400x64_S64x2_S6400x2_1_0_0_1_n_n.rhsIdx_val_of_single rfl j k
theorem dotK_rhs_1 (j : S6400x2.Idx) (k : dot_S6400x64_S64x2_S6400x2_1_0_0_1_n_n.contr.Idx) :
    (dot_S6400x64_S64x2_S6400x2_1_0_0_1_n_n.rhsIdx j k 1).val = (j 1).val := rfl

/-- A `[6400, 64] × [64, 2]` product into the zero accumulator, at edge `p` and head `j`: the sum over the 64 columns. -/
theorem matmul_at {φ₁ φ₂ : FTy} (lhs : FVec Ideal S6400x64 φ₁) (rhs : FVec Ideal S64x2 φ₂) (p : Fin 6400) (j : Fin 2) :
    matmul dot_S6400x64_S64x2_S6400x2_1_0_0_1_n_n none lhs rhs (constant S6400x2 .f32 0x00000000#32) (ix2 p j)
      = ∑ k : Fin 64, lhs (ix2 p k) * rhs (ix2 k j) := by
  simp only [matmul]
  rw [Ideal.matmul_constant_zero_apply,
    ← Equiv.sum_comp (contrEquiv1 dot_S6400x64_S64x2_S6400x2_1_0_0_1_n_n 64 rfl rfl).symm]
  refine Finset.sum_congr rfl fun k _ => ?_
  have hk := contrEquiv1_symm_val dot_S6400x64_S64x2_S6400x2_1_0_0_1_n_n 64 rfl rfl k
  congr 2
  · funext a
    refine Fin.ext ?_
    match a with
    | ⟨0, _⟩ => exact dotK_lhs_0 _ _
    | ⟨1, _⟩ => exact (dotK_lhs_1 _ _).trans hk
  · funext a
    refine Fin.ext ?_
    match a with
    | ⟨0, _⟩ => exact (dotK_rhs_0 _ _).trans hk
    | ⟨1, _⟩ => exact dotK_rhs_1 _ _

/-! ## The two halves of the input block -/

/-- Columns 0–63 of the block: the source rows. -/
theorem pay2_apply {F : FTy → Type} [FloatOps F] (x0 : Vec F S6400x128 .f32) (p : Fin 6400) (k : Fin 64) :
    k0_pay2 x0 (ix2 p k) = x0 (ix2 p ⟨k.val, by omega⟩) := by
  unfold k0_pay2 k0_pay1
  refine (extractStridedSlice_apply _ _ _ (ix2 p k) (ix2 p ⟨k.val, by omega⟩) fun a => ?_).trans ?_
  · match a with
    | ⟨0, _⟩ => show p.val = 0 + p.val; omega
    | ⟨1, _⟩ => show k.val = 0 + k.val; omega
  · rw [shapeCast_self]

/-- Columns 64–127 of the block: the relation rows. -/
theorem pay3_apply {F : FTy → Type} [FloatOps F] (x0 : Vec F S6400x128 .f32) (p : Fin 6400) (k : Fin 64) :
    k0_pay3 x0 (ix2 p k) = x0 (ix2 p ⟨64 + k.val, by omega⟩) := by
  unfold k0_pay3 k0_pay1
  refine (extractStridedSlice_apply _ _ _ (ix2 p k) (ix2 p ⟨64 + k.val, by omega⟩) fun a => ?_).trans ?_
  · match a with
    | ⟨0, _⟩ => show p.val = 0 + p.val; omega
    | ⟨1, _⟩ => show 64 + k.val = 64 + k.val; rfl
  · rw [shapeCast_self]

/-! ## The stored weights -/

/-- Edge `p`'s score for head `j`, from the block: source row · `x1[:, j]` + relation row · `x2[:, j]`. -/
def scoreB (x0 : S6400x128.Idx → EReal) (x1 x2 : S64x2.Idx → EReal) (p : Fin 6400) (j : Fin 2) : EReal :=
  (∑ k : Fin 64, x0 (ix2 p ⟨k.val, by omega⟩) * x1 (ix2 k j)) + ∑ k : Fin 64, x0 (ix2 p ⟨64 + k.val, by omega⟩) * x2 (ix2 k j)

/-- Edge `p`'s weight for head `j`. -/
def attB (x0 : S6400x128.Idx → EReal) (x1 x2 : S64x2.Idx → EReal) (p : Fin 6400) (j : Fin 2) : EReal :=
  Ideal.exp (-(Cert.EdgeAttn.leaky (scoreB x0 x1 x2 p j)))

/-- `exp (0 - leaky s)` as the body spells it (a compare against the zero splat, a select, the slope's splat times
    `s`), at one entry: on the extended reals `0 - y = -y`. -/
theorem expNegLeaky_apply (s : FVec Ideal S6400x2 .f32) (i : S6400x2.Idx) :
    exp (subf (broadcast S6400x2 (Scalar.ofBits (F := Ideal) .f32 0x00000000#32))
      (select (cmpf .oge s (broadcast S6400x2 (Scalar.ofBits (F := Ideal) .f32 0x00000000#32))) s
        (mulf (broadcast S6400x2 (Scalar.ofBits (F := Ideal) .f32 0x3E4CCCCD#32)) s))) i
      = Ideal.exp (-(Cert.EdgeAttn.leaky (s i))) := by
  show Ideal.exp (Ideal.ofBits .f32 0x00000000#32
      - Scalar.select (Ideal.cmp .oge (s i) (Ideal.ofBits .f32 0x00000000#32)) (s i) (Ideal.ofBits .f32 0x3E4CCCCD#32 * s i)) = _
  unfold Cert.EdgeAttn.leaky Cert.EdgeAttn.zero32 Cert.EdgeAttn.slope
  rw [Ideal.ofBits_zero_f32, zero_sub]

/-- The stored weights at edge `p`, head `j`. -/
theorem pay4_apply (x0 : Vec Ideal S6400x128 .f32) (x1 x2 : Vec Ideal S64x2 .f32) (p : Fin 6400) (j : Fin 2) :
    k0_pay4 x0 x1 x2 (ix2 p j) = attB x0 x1 x2 p j := by
  unfold k0_pay4
  refine (expNegLeaky_apply _ _).trans ?_
  refine congrArg (fun t => Ideal.exp (-(Cert.EdgeAttn.leaky t))) ?_
  rw [addf_apply, matmul_at, matmul_at]
  simp only [truncf_apply, pay2_apply, pay3_apply, shapeCast_self]
  rfl

/-! ## The stored messages -/

/-- A `[6400, 1]` column broadcast along the rows' 64 columns, at `(p, k)`: the column's entry `p`. -/
theorem bcastCol_apply {α : Type} (v : S6400x1.Idx → α) (p : Fin 6400) (k : Fin 64) :
    broadcastTo S6400x64 v broadcasts_S6400x1_S6400x64 (ix2 p k) = v (ix2 p 0) :=
  broadcastTo_apply v _ (ix2 p k) (ix2 p 0) fun a => by
    match a with
    | ⟨0, _⟩ => rfl
    | ⟨1, _⟩ => rfl

/-- The `[1, 64]` rescale row broadcast along the 6400 edges, at `(p, k)`: the row's entry `k`. -/
theorem bcastRow_apply {α : Type} (v : S1x64.Idx → α) (p : Fin 6400) (k : Fin 64) :
    broadcastTo S6400x64 v broadcasts_S1x64_S6400x64 (ix2 p k) = v (ix2 0 k) :=
  broadcastTo_apply v _ (ix2 p k) (ix2 0 k) fun a => by
    match a with
    | ⟨0, _⟩ => rfl
    | ⟨1, _⟩ => rfl

/-- Head `j`'s column of the weights, as a `[6400, 1]` slice, at edge `p`. -/
theorem attCol0_apply {α : Type} (v : S6400x2.Idx → α) (p : Fin 6400) :
    extractStridedSlice S6400x1 ![0, 0] v slices_S6400x2_o0_0_S6400x1 (ix2 p 0) = v (ix2 p 0) :=
  extractStridedSlice_apply _ v _ (ix2 p 0) (ix2 p 0) fun a => by
    match a with
    | ⟨0, _⟩ => show p.val = 0 + p.val; omega
    | ⟨1, _⟩ => rfl
theorem attCol1_apply {α : Type} (v : S6400x2.Idx → α) (p : Fin 6400) :
    extractStridedSlice S6400x1 ![0, 1] v slices_S6400x2_o0_1_S6400x1 (ix2 p 0) = v (ix2 p 1) :=
  extractStridedSlice_apply _ v _ (ix2 p 0) (ix2 p 1) fun a => by
    match a with
    | ⟨0, _⟩ => show p.val = 0 + p.val; omega
    | ⟨1, _⟩ => rfl

/-- The stored messages, head 0 (columns 0–63): `(src - rel) · weight₀`. -/
theorem pay5_apply_lo (x0 : Vec Ideal S6400x128 .f32) (x1 x2 : Vec Ideal S64x2 .f32) (x3 : Vec Ideal S1x64 .f32)
    (p : Fin 6400) (k : Fin 64) :
    k0_pay5 x0 x1 x2 x3 (ix2 p ⟨k.val, by omega⟩)
      = (x0 (ix2 p ⟨k.val, by omega⟩) - x0 (ix2 p ⟨64 + k.val, by omega⟩)) * attB x0 x1 x2 p 0 := by
  unfold k0_pay5
  refine (concatenate_pair_apply_left 1 _ _ concatenates_S6400x64_S6400x64_S6400x128_d1 (ix2 p ⟨k.val, by omega⟩) rfl
    (ix2 p k) fun b => by
      match b with
      | ⟨0, _⟩ => rfl
      | ⟨1, _⟩ => rfl).trans ?_
  rw [mulf_apply, subf_apply, pay2_apply, pay3_apply, bcastCol_apply, attCol0_apply, pay4_apply]

/-- The stored messages, head 1 (columns 64–127): `(src · x3 - rel) · weight₁`. -/
theorem pay5_apply_hi (x0 : Vec Ideal S6400x128 .f32) (x1 x2 : Vec Ideal S64x2 .f32) (x3 : Vec Ideal S1x64 .f32)
    (p : Fin 6400) (k : Fin 64) :
    k0_pay5 x0 x1 x2 x3 (ix2 p ⟨64 + k.val, by omega⟩)
      = (x0 (ix2 p ⟨k.val, by omega⟩) * x3 (ix2 0 k) - x0 (ix2 p ⟨64 + k.val, by omega⟩)) * attB x0 x1 x2 p 1 := by
  unfold k0_pay5
  refine (concatenate_pair_apply_right 1 _ _ concatenates_S6400x64_S6400x64_S6400x128_d1 (ix2 p ⟨64 + k.val, by omega⟩) rfl rfl
    (ix2 p k) (fun b hb => by
      match b with
      | ⟨0, _⟩ => rfl
      | ⟨1, _⟩ => exact absurd rfl hb) (by show k.val + 64 = 64 + k.val; omega)).trans ?_
  rw [mulf_apply, subf_apply, mulf_apply, pay2_apply, pay3_apply, bcastRow_apply, shapeCast_self, bcastCol_apply,
    attCol1_apply, pay4_apply]

/-! ## The two payloads as functions of an edge's row

Everything the body stores for an edge depends on the block only through that edge's 128-entry row. Stating the
payloads so — over `x : Fin 128 → EReal`, the row — lets the same two formulas be read off a block (the row of
block entry `p`) and off the whole array (the row of edge `e`). Column `l` of a message reads the row at
`l mod 64` (the source half) and at `64 + l mod 64` (the relation half). -/

/-- The source-half and relation-half columns that message column `l` reads, and its column within a head. -/
def colLo (l : Fin 128) : Fin 128 := ⟨l.val % 64, by omega⟩
def colHi (l : Fin 128) : Fin 128 := ⟨64 + l.val % 64, by omega⟩
def colK (l : Fin 128) : Fin 64 := ⟨l.val % 64, by omega⟩

/-- An edge's score for head `j` from its row. -/
def scoreRow (x : Fin 128 → EReal) (x1 x2 : S64x2.Idx → EReal) (j : Fin 2) : EReal :=
  (∑ k : Fin 64, x ⟨k.val, by omega⟩ * x1 (ix2 k j)) + ∑ k : Fin 64, x ⟨64 + k.val, by omega⟩ * x2 (ix2 k j)

/-- An edge's weight for head `j` from its row. -/
def attRow (x : Fin 128 → EReal) (x1 x2 : S64x2.Idx → EReal) (j : Fin 2) : EReal :=
  Ideal.exp (-(Cert.EdgeAttn.leaky (scoreRow x x1 x2 j)))

/-- An edge's message entry `l` from its row, the rescale row `x3` and its two weights. -/
def msgRow (x : Fin 128 → EReal) (x3 : Fin 64 → EReal) (a0 a1 : EReal) (l : Fin 128) : EReal :=
  if l.val < 64 then (x (colLo l) - x (colHi l)) * a0 else (x (colLo l) * x3 (colK l) - x (colHi l)) * a1

theorem pay4_row (x0 : Vec Ideal S6400x128 .f32) (x1 x2 : Vec Ideal S64x2 .f32) (y : S6400x2.Idx) :
    k0_pay4 x0 x1 x2 y = attRow (fun l => x0 (ix2 (y 0) l)) x1 x2 (y 1) := by
  obtain ⟨p, j, rfl⟩ : ∃ (p : Fin 6400) (j : Fin 2), y = ix2 p j := ⟨y 0, y 1, eq_ix2 y⟩
  exact pay4_apply x0 x1 x2 p j

theorem pay5_row (x0 : Vec Ideal S6400x128 .f32) (x1 x2 : Vec Ideal S64x2 .f32) (x3 : Vec Ideal S1x64 .f32) (y : S6400x128.Idx) :
    k0_pay5 x0 x1 x2 x3 y = msgRow (fun l => x0 (ix2 (y 0) l)) (fun k => x3 (ix2 0 k))
      (attRow (fun l => x0 (ix2 (y 0) l)) x1 x2 0) (attRow (fun l => x0 (ix2 (y 0) l)) x1 x2 1) (y 1) := by
  obtain ⟨p, l, rfl⟩ : ∃ (p : Fin 6400) (l : Fin 128), y = ix2 p l := ⟨y 0, y 1, eq_ix2 y⟩
  show k0_pay5 x0 x1 x2 x3 (ix2 p l) = msgRow (fun l => x0 (ix2 p l)) (fun k => x3 (ix2 0 k))
      (attRow (fun l => x0 (ix2 p l)) x1 x2 0) (attRow (fun l => x0 (ix2 p l)) x1 x2 1) l
  unfold msgRow
  by_cases hl : l.val < 64
  · rw [if_pos hl]
    have e1 : colLo l = l := Fin.ext (by show l.val % 64 = l.val; omega)
    have e2 : colHi l = ⟨64 + l.val, by omega⟩ := Fin.ext (by show 64 + l.val % 64 = 64 + l.val; omega)
    rw [e1, e2]
    exact pay5_apply_lo x0 x1 x2 x3 p ⟨l.val, hl⟩
  · rw [if_neg hl]
    have hk : l.val - 64 < 64 := by omega
    have e4 : l = ⟨64 + (⟨l.val - 64, hk⟩ : Fin 64).val, by omega⟩ := Fin.ext (by show l.val = 64 + (l.val - 64); omega)
    have e1 : colLo l = ⟨(⟨l.val - 64, hk⟩ : Fin 64).val, by omega⟩ := Fin.ext (by show l.val % 64 = l.val - 64; omega)
    have e2 : colHi l = ⟨64 + (⟨l.val - 64, hk⟩ : Fin 64).val, by omega⟩ :=
      Fin.ext (by show 64 + l.val % 64 = 64 + (l.val - 64); omega)
    have e3 : colK l = ⟨l.val - 64, hk⟩ := Fin.ext (by show l.val % 64 = l.val - 64; omega)
    rw [e1, e2, e3]
    refine (congrArg (fun q => k0_pay5 x0 x1 x2 x3 (ix2 p q)) e4).trans ?_
    exact pay5_apply_hi x0 x1 x2 x3 p ⟨l.val - 64, hk⟩

end Cert.KerSide

end
-- ==== Proof.KerBlocks.lean ====
/-
  From the blocks to the arrays: what the two output arrays hold after the region.

  The grid has 250 points; point `t` handles edges `6400 t … 6400 t + 6399`: its input block is those rows of the
  edge table `[1600000, 128]` (the three small tables are whole at every point), and it writes those rows of the
  message array `[1600000, 128]` and of the weight array `[1600000, 2]`. The blocks tile the arrays, so each array
  ends as one function of the region's four input arrays: row `e` from row `e` of the edge table.
-/
import proofs.«412317_j52716428591538_3_alg».proof.Proof.Gen.KernelIdeal.Frame
import proofs.«412317_j52716428591538_3_alg».proof.Proof.KerBody
import Idealize.ShloMosaic.Lib.Pipeline.Value

noncomputable section

namespace Cert.KerSide

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The arrays as the region finds them, and the blocks of a point -/

abbrev arr0 (c : Dev nD) : S1600000x128.Idx → EReal := V m c main_v8
abbrev arr1 (c : Dev nD) : S64x2.Idx → EReal := V m c main_v21
abbrev arr2 (c : Dev nD) : S64x2.Idx → EReal := V m c main_v24
abbrev arr3 (c : Dev nD) : S1x64.Idx → EReal := V m c main_v25

abbrev blk0 (c : Dev nD) (t : Fin cfg0.N) : Vec Ideal S6400x128 .f32 := iblk m c 0 t
abbrev blk1 (c : Dev nD) (t : Fin cfg0.N) : Vec Ideal S64x2 .f32 := iblk m c 1 t
abbrev blk2 (c : Dev nD) (t : Fin cfg0.N) : Vec Ideal S64x2 .f32 := iblk m c 2 t
abbrev blk3 (c : Dev nD) (t : Fin cfg0.N) : Vec Ideal S1x64 .f32 := iblk m c 3 t

theorem hz : (![0, 0] : Fin 2 → Nat) = fun _ => 0 := funext fun a => by fin_cases a <;> rfl

/-- The printed index maps, decided over the 250 points: the edge table's and both outputs' block index is the point,
    the small tables' is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 250 := by
  have h := t.isLt
  have hN : cfg0.N = 250 := N_0
  omega

/-- The edge that row `p` of point `t`'s block is. -/
def edgeOf (t : Fin cfg0.N) (p : Fin 6400) : Fin 1600000 :=
  ⟨6400 * t.val + p.val, by have := point_lt t; have := p.isLt; omega⟩

/-- Row `p` of point `t`'s block of the edge table is row `edgeOf t p` of the table. -/
theorem blk0_read (c : Dev nD) (t : Fin cfg0.N) (p : Fin 6400) (l : Fin 128) :
    blk0 m c t (ix2 p l) = arr0 m c (ix2 (edgeOf t p) l) := by
  obtain ⟨e0, e1, -⟩ := idx_facts t
  show V m c main_v8 (((cfg0.win 0).blk t).view.emb (ix2 p l)) = V m c main_v8 (ix2 (edgeOf t p) l)
  have h : ((cfg0.win 0).blk t).view.emb (ix2 p l) = ix2 (edgeOf t p) l := by
    funext a; apply Fin.ext
    match a with
    | ⟨0, _⟩ => show win0_0.index t (0 : Fin 2) * 6400 + 1 * p.val = 6400 * t.val + p.val; rw [e0]; omega
    | ⟨1, _⟩ => show win0_0.index t (1 : Fin 2) * 128 + 1 * l.val = l.val; rw [e1]; omega
  rw [h]

/-- The three small tables' blocks are the tables. -/
theorem blk1_eq (c : Dev nD) (t : Fin cfg0.N) : blk1 m c t = arr1 m c := by
  obtain ⟨-, -, e0, e1, -⟩ := idx_facts t
  funext y
  show V m c main_v21 (((cfg0.win 1).blk t).view.emb y) = V m c main_v21 y
  have h : ((cfg0.win 1).blk t).view.emb y = y := by
    funext a; apply Fin.ext
    match a with
    | ⟨0, _⟩ => show win0_1.index t (0 : Fin 2) * 64 + 1 * (y 0).val = (y 0).val; rw [e0]; omega
    | ⟨1, _⟩ => show win0_1.index t (1 : Fin 2) * 2 + 1 * (y 1).val = (y 1).val; rw [e1]; omega
  rw [h]

theorem blk2_eq (c : Dev nD) (t : Fin cfg0.N) : blk2 m c t = arr2 m c := by
  obtain ⟨-, -, -, -, e0, e1, -⟩ := idx_facts t
  funext y
  show V m c main_v24 (((cfg0.win 2).blk t).view.emb y) = V m c main_v24 y
  have h : ((cfg0.win 2).blk t).view.emb y = y := by
    funext a; apply Fin.ext
    match a with
    | ⟨0, _⟩ => show win0_2.index t (0 : Fin 2) * 64 + 1 * (y 0).val = (y 0).val; rw [e0]; omega
    | ⟨1, _⟩ => show win0_2.index t (1 : Fin 2) * 2 + 1 * (y 1).val = (y 1).val; rw [e1]; omega
  rw [h]

theorem blk3_eq (c : Dev nD) (t : Fin cfg0.N) : blk3 m c t = arr3 m c := by
  obtain ⟨-, -, -, -, -, -, e0, e1, -⟩ := idx_facts t
  funext y
  show V m c main_v25 (((cfg0.win 3).blk t).view.emb y) = V m c main_v25 y
  have h : ((cfg0.win 3).blk t).view.emb y = y := by
    funext a; apply Fin.ext
    match a with
    | ⟨0, _⟩ => show win0_3.index t (0 : Fin 2) * 1 + 1 * (y 0).val = (y 0).val; rw [e0]; omega
    | ⟨1, _⟩ => show win0_3.index t (1 : Fin 2) * 64 + 1 * (y 1).val = (y 1).val; rw [e1]; omega
  rw [h]

/-! ## The two output arrays as functions of the four input arrays -/

/-- The weight array: entry `(e, j)` is edge `e`'s weight for head `j`, from row `e` of the edge table. -/
def attArr (X0 : S1600000x128.Idx → EReal) (X1 X2 : S64x2.Idx → EReal) : S1600000x2.Idx → EReal :=
  fun i => attRow (fun l => X0 (ix2 (i 0) l)) X1 X2 (i 1)

/-- The message array: entry `(e, l)` is edge `e`'s message entry `l` (head 0 in columns 0–63, head 1 in 64–127). -/
def msgArr (X0 : S1600000x128.Idx → EReal) (X1 X2 : S64x2.Idx → EReal) (X3 : S1x64.Idx → EReal) : S1600000x128.Idx → EReal :=
  fun i => msgRow (fun l => X0 (ix2 (i 0) l)) (fun k => X3 (ix2 0 k))
    (attRow (fun l => X0 (ix2 (i 0) l)) X1 X2 0) (attRow (fun l => X0 (ix2 (i 0) l)) X1 X2 1) (i 1)

/-- The row of block entry `p` at point `t` is the row of edge `edgeOf t p`. -/
theorem row_eq (c : Dev nD) (t : Fin cfg0.N) (p : Fin 6400) :
    (fun l : Fin 128 => blk0 m c t (ix2 p l)) = fun l : Fin 128 => arr0 m c (ix2 (edgeOf t p) l) :=
  funext fun l => blk0_read m c t p l
end Cert.KerSide

end
-- ==== Proof.KerFlush.lean ====
/-
  What each grid point writes back, and the two output arrays after the region.
-/
import proofs.«412317_j52716428591538_3_alg».proof.Proof.KerBlocks

noncomputable section

namespace Cert.KerSide

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- WHAT POINT `t` WRITES BACK to the weight array is block `t` of `attArr` of the input arrays: the row of block
    entry `y` is the row of the edge that entry is. -/
theorem flushed5_eq (c : Dev nD) (t : Fin cfg0.N) :
    (dats m 0 c).flushed 5 t = ((cfg0.win 5).blk t).view.read (Elt Ideal) (attArr (arr0 m c) (arr1 m c) (arr2 m c)) := by
  show (cfg0.win 5).cut (grid0.coords t) ((dats m 0 c).after 5 t) = _
  rw [after0_5]
  unfold out0_5
  rw [View.canon_unit_zero hz]
  simp only [View.ld_unit_zero (S := S6400x128) hz, View.ld_unit_zero (S := S64x2) hz]
  obtain ⟨-, -, -, -, -, -, -, -, -, -, e0, e1⟩ := idx_facts t
  funext y
  refine (pay4_row (blk0 m c t) (blk1 m c t) (blk2 m c t) ((cfg0.win 5).xinj (grid0.coords t) y)).trans ?_
  rw [View.read_apply]
  have h0 : edgeOf t (((cfg0.win 5).xinj (grid0.coords t) y) 0) = (((cfg0.win 5).blk t).view.emb y) 0 :=
    Fin.ext (by show 6400 * t.val + (y 0).val = win0_5.index t (0 : Fin 2) * 6400 + 1 * (y 0).val; rw [e0]; omega)
  have h1 : (((cfg0.win 5).xinj (grid0.coords t) y) 1 : Fin 2) = (((cfg0.win 5).blk t).view.emb y) 1 :=
    Fin.ext (by show (y 1).val = win0_5.index t (1 : Fin 2) * 2 + 1 * (y 1).val; rw [e1]; omega)
  have hrow : (fun l : Fin 128 => blk0 m c t (ix2 (((cfg0.win 5).xinj (grid0.coords t) y) 0) l))
      = fun l : Fin 128 => arr0 m c (ix2 ((((cfg0.win 5).blk t).view.emb y) 0) l) :=
    funext fun l => (blk0_read m c t _ l).trans (congrArg (fun e => arr0 m c (ix2 e l)) h0)
  refine (congr (congr (congr (congrArg attRow hrow) (blk1_eq m c t)) (blk2_eq m c t)) h1).trans ?_
  exact (cast_eq _ _).symm

/-- WHAT POINT `t` WRITES BACK to the message array is block `t` of `msgArr` of the input arrays. -/
theorem flushed4_eq (c : Dev nD) (t : Fin cfg0.N) :
    (dats m 0 c).flushed 4 t
      = ((cfg0.win 4).blk t).view.read (Elt Ideal) (msgArr (arr0 m c) (arr1 m c) (arr2 m c) (arr3 m c)) := by
  show (cfg0.win 4).cut (grid0.coords t) ((dats m 0 c).after 4 t) = _
  rw [after0_4]
  unfold out0_4
  rw [View.canon_unit_zero hz]
  simp only [View.ld_unit_zero (S := S6400x128) hz, View.ld_unit_zero (S := S64x2) hz, View.ld_unit_zero (S := S1x64) hz]
  obtain ⟨-, -, -, -, -, -, -, -, e0, e1, -⟩ := idx_facts t
  funext y
  refine (pay5_row (blk0 m c t) (blk1 m c t) (blk2 m c t) (blk3 m c t) ((cfg0.win 4).xinj (grid0.coords t) y)).trans ?_
  rw [View.read_apply]
  have h0 : edgeOf t (((cfg0.win 4).xinj (grid0.coords t) y) 0) = (((cfg0.win 4).blk t).view.emb y) 0 :=
    Fin.ext (by show 6400 * t.val + (y 0).val = win0_4.index t (0 : Fin 2) * 6400 + 1 * (y 0).val; rw [e0]; omega)
  have h1 : (((cfg0.win 4).xinj (grid0.coords t) y) 1 : Fin 128) = (((cfg0.win 4).blk t).view.emb y) 1 :=
    Fin.ext (by show (y 1).val = win0_4.index t (1 : Fin 2) * 128 + 1 * (y 1).val; rw [e1]; omega)
  have hrow : (fun l : Fin 128 => blk0 m c t (ix2 (((cfg0.win 4).xinj (grid0.coords t) y) 0) l))
      = fun l : Fin 128 => arr0 m c (ix2 ((((cfg0.win 4).blk t).view.emb y) 0) l) :=
    funext fun l => (blk0_read m c t _ l).trans (congrArg (fun e => arr0 m c (ix2 e l)) h0)
  have h3 : (fun k : Fin 64 => blk3 m c t (ix2 0 k)) = fun k : Fin 64 => arr3 m c (ix2 0 k) :=
    funext fun k => congrFun (blk3_eq m c t) (ix2 0 k)
  have ha0 := congr (congr (congr (congrArg attRow hrow) (blk1_eq m c t)) (blk2_eq m c t)) (rfl : (0 : Fin 2) = 0)
  have ha1 := congr (congr (congr (congrArg attRow hrow) (blk1_eq m c t)) (blk2_eq m c t)) (rfl : (1 : Fin 2) = 1)
  refine (congr (congr (congr (congr (congrArg msgRow hrow) h3) ha0) ha1) h1).trans ?_
  exact (cast_eq _ _).symm

/-! ## The blocks tile the arrays -/

theorem mem_blk5 (t : Fin cfg0.N) (i : S1600000x2.Idx) :
    i ∈ ((cfg0.win 5).blk t).view.set
      ↔ ∀ a : Fin 2, win0_5.index t a * S6400x2.size a ≤ (i a).val ∧ (i a).val < win0_5.index t a * S6400x2.size a + S6400x2.size a := by
  show i ∈ ((View.whole main_v26_1).slice (win0_5.rect t)).set ↔ _
  rw [View.set_slice_whole, Rect.mem_set_unit]
  exact Iff.rfl

theorem mem_blk4 (t : Fin cfg0.N) (i : S1600000x128.Idx) :
    i ∈ ((cfg0.win 4).blk t).view.set
      ↔ ∀ a : Fin 2, win0_4.index t a * S6400x128.size a ≤ (i a).val ∧ (i a).val < win0_4.index t a * S6400x128.size a + S6400x128.size a := by
  show i ∈ ((View.whole main_v26_0).slice (win0_4.rect t)).set ↔ _
  rw [View.set_slice_whole, Rect.mem_set_unit]
  exact Iff.rfl

/-- Edge `e`'s row lies in the block of point `e / 6400`. -/
theorem cover5 (i : S1600000x2.Idx) :
    ∃ t : Fin cfg0.N, (cfg0.win 5).flush t = true ∧ i ∈ ((cfg0.win 5).blk t).view.set := by
  have hi0 : (i 0).val < 1600000 := (i 0).isLt
  have hi1 : (i 1).val < 2 := (i 1).isLt
  have hN : cfg0.N = 250 := N_0
  have hq : (i 0).val / 6400 < cfg0.N := by rw [hN]; omega
  obtain ⟨-, -, -, -, -, -, -, -, -, -, e0, e1⟩ := idx_facts ⟨(i 0).val / 6400, hq⟩
  have e0' : win0_5.index ⟨(i 0).val / 6400, hq⟩ (0 : Fin 2) = (i 0).val / 6400 := e0
  refine ⟨⟨(i 0).val / 6400, hq⟩, flush0_5 _, ?_⟩
  rw [mem_blk5]
  intro a
  match a with
  | ⟨0, _⟩ =>
    show win0_5.index ⟨(i 0).val / 6400, hq⟩ (0 : Fin 2) * 6400 ≤ (i 0).val
      ∧ (i 0).val < win0_5.index ⟨(i 0).val / 6400, hq⟩ (0 : Fin 2) * 6400 + 6400
    rw [e0']; omega
  | ⟨1, _⟩ =>
    show win0_5.index ⟨(i 0).val / 6400, hq⟩ (1 : Fin 2) * 2 ≤ (i 1).val
      ∧ (i 1).val < win0_5.index ⟨(i 0).val / 6400, hq⟩ (1 : Fin 2) * 2 + 2
    rw [e1]; omega

theorem cover4 (i : S1600000x128.Idx) :
    ∃ t : Fin cfg0.N, (cfg0.win 4).flush t = true ∧ i ∈ ((cfg0.win 4).blk t).view.set := by
  have hi0 : (i 0).val < 1600000 := (i 0).isLt
  have hi1 : (i 1).val < 128 := (i 1).isLt
  have hN : cfg0.N = 250 := N_0
  have hq : (i 0).val / 6400 < cfg0.N := by rw [hN]; omega
  obtain ⟨-, -, -, -, -, -, -, -, e0, e1, -⟩ := idx_facts ⟨(i 0).val / 6400, hq⟩
  have e0' : win0_4.index ⟨(i 0).val / 6400, hq⟩ (0 : Fin 2) = (i 0).val / 6400 := e0
  refine ⟨⟨(i 0).val / 6400, hq⟩, flush0_4 _, ?_⟩
  rw [mem_blk4]
  intro a
  match a with
  | ⟨0, _⟩ =>
    show win0_4.index ⟨(i 0).val / 6400, hq⟩ (0 : Fin 2) * 6400 ≤ (i 0).val
      ∧ (i 0).val < win0_4.index ⟨(i 0).val / 6400, hq⟩ (0 : Fin 2) * 6400 + 6400
    rw [e0']; omega
  | ⟨1, _⟩ =>
    show win0_4.index ⟨(i 0).val / 6400, hq⟩ (1 : Fin 2) * 128 ≤ (i 1).val
      ∧ (i 1).val < win0_4.index ⟨(i 0).val / 6400, hq⟩ (1 : Fin 2) * 128 + 128
    rw [e1]; omega

/-! ## The arrays after the region -/

/-- The weight array after the region. -/
theorem final5 (c : Dev nD) : (dats m 0 c).arrAt 5 cfg0.N = attArr (arr0 m c) (arr1 m c) (arr2 m c) :=
  (dats m 0 c).arrAt_eq_of_cover 5 _ (fun t _ => flushed5_eq m c t) cover5

/-- The message array after the region. -/
theorem final4 (c : Dev nD) : (dats m 0 c).arrAt 4 cfg0.N = msgArr (arr0 m c) (arr1 m c) (arr2 m c) (arr3 m c) :=
  (dats m 0 c).arrAt_eq_of_cover 4 _ (fun t _ => flushed4_eq m c t) cover4

end Cert.KerSide

end
-- ==== Proof.KerTailDef.lean ====
/-
  The host operations after the region, as one function: the two segment sums and their quotient, per head.
-/
import proofs.«412317_j52716428591538_3_alg».proof.Proof.Gen.KernelIdeal

noncomputable section

namespace Cert.KerSide

open Cert.KernelIdeal Cert.KernelIdeal.Gen Idealize.ShloMosaic

/-- The tail as one function of the destination row, the message array and the weight array: both arrays are
    scatter-added over the destination into zero tables; head `i`'s result is columns `64 i … 64 i + 63` of the
    summed messages over column `i` of the summed weights; the two heads are stacked. -/
def tailOut {F : FTy → Type} [FloatOps F] (dst : IVec S1600000 32) (msgs : FVec F S1600000x128 .f32) (atts : FVec F S1600000x2 .f32) :
    FVec F S2x50000x64 .f32 :=
  let segm : FVec F S50000x128 .f32 := Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst) msgs
  let sege : FVec F S50000x2 .f32 := Host.scatterAdd scatter_S50000x2_S1600000x1_S1600000x2_1_0_0_1
    (broadcastInDim S50000x2 ![] bcast_S_S50000x2 (constant S_ .f32 0x00000000#32))
    (broadcastInDim S1600000x1 ![0] bcast_S1600000_S1600000x1_0 dst) atts
  let o0 : FVec F S50000x64 .f32 := Host.divf (extractStridedSlice S50000x64 ![0, 0] segm slices_S50000x128_S50000x64_0_0)
    (broadcastInDim S50000x64 ![0, 1] bcast_S50000x1_S50000x64_0_1 (extractStridedSlice S50000x1 ![0, 0] sege slices_S50000x2_S50000x1_0_0))
  let o1 : FVec F S50000x64 .f32 := Host.divf (extractStridedSlice S50000x64 ![0, 64] segm slices_S50000x128_S50000x64_0_64)
    (broadcastInDim S50000x64 ![0, 1] bcast_S50000x1_S50000x64_0_1 (extractStridedSlice S50000x1 ![0, 1] sege slices_S50000x2_S50000x1_0_1))
  concatenate S2x50000x64 0
    [⟨S1x50000x64, broadcastInDim S1x50000x64 ![1, 2] bcast_S50000x64_S1x50000x64_1_2 o0⟩,
     ⟨S1x50000x64, broadcastInDim S1x50000x64 ![1, 2] bcast_S50000x64_S1x50000x64_1_2 o1⟩]
    concatenates_S1x50000x64_S1x50000x64_S2x50000x64_d0

end Cert.KerSide

end
-- ==== Proof.KerTail.lean ====
/-
  The host operations after the region, run: the result buffer holds `tailOut` of the destination row (as the
  prefix left it) and of the two arrays the region wrote.
-/
import proofs.«412317_j52716428591538_3_alg».proof.Proof.Gen.KernelIdeal.Frame
import proofs.«412317_j52716428591538_3_alg».proof.Proof.KerTailDef
import Idealize.ShloMosaic.Lib.StableHlo.Run

noncomputable section

namespace Cert.KerSide

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

open Idealize.ShloMosaic.StableHlo in
set_option maxHeartbeats 2000000 in
/-- The nineteen operations after the region, over any contents `W` of the buffers: the result is `tailOut` of the
    destination row and the region's two output arrays as `W` holds them. -/
theorem tail_after (W : Valuation τ sig (Elt F)) :
    StableHlo.after hostOps1 W (Proc.devRef .tc main_v43)
      = tailOut (W (Proc.devRef .tc main_v1)) (W (Proc.devRef .tc main_v26_0)) (W (Proc.devRef .tc main_v26_1)) := by
  after_results_simp
  unfold tailOut
  refine congrArg₂ (fun a b => concatenate S2x50000x64 0 [⟨S1x50000x64, a⟩, ⟨S1x50000x64, b⟩]
    concatenates_S1x50000x64_S1x50000x64_S2x50000x64_d0) ?_ ?_
  · after_results_simp
  · after_results_simp

/-- After the region the result buffer holds `tailOut` of the destination row (no window's array: as the region
    found it) and of the message and weight arrays as the region left them. -/
theorem tail_eq (c : Dev nD) :
    Pipeline.afterTail₀ cfgs (dats m) 0 (V0 m) [hostOps1] c main_v43
      = tailOut (V m c main_v1) ((dats m 0 c).arrAt 4 cfg0.N) ((dats m 0 c).arrAt 5 cfg0.N) := by
  unfold Pipeline.afterTail₀
  simp only [List.flatten_cons, List.flatten_nil, List.append_nil]
  rw [tail_after]
  have h1 := Pipeline.withArrays_of_ne (cfgs 0).spec c (V0 m c) (fun w => (dats m 0 c).arrAt w (cfgs 0).N) main_v1
    (by exact (by decide : ∀ w, Pipeline.arrRef spec0 w ≠ main_v1))
  have h4 := Pipeline.withArrays_arr spec0 launch0.win.arr_inj c (V0 m c) (fun w => (dats m 0 c).arrAt w (cfgs 0).N) 4
  have h5 := Pipeline.withArrays_arr spec0 launch0.win.arr_inj c (V0 m c) (fun w => (dats m 0 c).arrAt w (cfgs 0).N) 5
  exact congr (congr (congrArg tailOut h1) h4) h5

end Cert.KerSide

end
-- ==== Proof.KerTailValue.lean ====
/-
  The tail read at an index: head `i`, node `n`, column `f` of the result is the sum over the edges arriving at `n` of
  column `64 i + f` of the message array, over the sum of column `i` of the weight array (each sum started at zero).
-/
import proofs.«412317_j52716428591538_3_alg».proof.Proof.KerTailDef
import proofs.«412317_j52716428591538_3_alg».proof.Proof.Spec
import Idealize.ShloMosaic.Lib.ValueIdx
import Idealize.ShloMosaic.Lib.Pipeline.Value

noncomputable section

namespace Cert.KerSide

open Cert.KernelIdeal Cert.KernelIdeal.Gen Idealize.ShloMosaic Idealize.ShloMosaic.ValueIdx
open scoped BigOperators

/-! ## Small reads -/

theorem hostDivf_at {s : Shape} (x y : FVec Ideal s .f32) (i : s.Idx) : Host.divf x y i = Ideal.div (x i) (y i) := rfl

theorem hostScatterAdd_ideal {s si u : Shape} {w : ℕ} (d : ScatterDims s si u) (x : FVec Ideal s .f32) (idx : IVec si w)
    (upd : FVec Ideal u .f32) : Host.scatterAdd d x idx upd = Ideal.hostScatterAdd d x idx upd := rfl

theorem scatter128_eq : scatter_S50000x128_S1600000x1_S1600000x128_1_0_0_1
    = RowOps.rowScatter 50000 1600000 128 scatter_S50000x128_S1600000x1_S1600000x128_1_0_0_1_wf := rfl

theorem scatter2_eq : scatter_S50000x2_S1600000x1_S1600000x2_1_0_0_1
    = RowOps.rowScatter 50000 1600000 2 scatter_S50000x2_S1600000x1_S1600000x2_1_0_0_1_wf := rfl

/-- The zero table a segment sum starts from, at any entry. -/
theorem zero128_at (i : S50000x128.Idx) :
    broadcastInDim S50000x128 ![] bcast_S_S50000x128 (constant (F := Ideal) S_ .f32 0x00000000#32) i = Cert.EdgeAttn.zero32 := rfl
theorem zero2_at (i : S50000x2.Idx) :
    broadcastInDim S50000x2 ![] bcast_S_S50000x2 (constant (F := Ideal) S_ .f32 0x00000000#32) i = Cert.EdgeAttn.zero32 := rfl

/-- The destination row as an index column, at edge `e`. -/
theorem dstCol_at (dst : IVec S1600000 32) (e : Fin 1600000) :
    broadcastInDim S1600000x1 ![0] bcast_S1600000_S1600000x1_0 dst (ix2 e 0) = dst (ix1 e) :=
  broadcastInDim_apply _ _ dst (ix2 e 0) (ix1 e) fun a => by
    match a with
    | ⟨0, _⟩ => rfl

/-- The summed messages at node `n`, column `l`. -/
theorem segm_at (dst : IVec S1600000 32) (msgs : FVec Ideal S1600000x128 .f32) (n : Fin 50000) (l : Fin 128) :
    Host.scatterAdd scatter_S50000x128_S1600000x1_S1600000x128_1_0_0_1
        (broadcastInDim S50000x128 ![] bcast_S_S50000x128 (constant S_ .f32 0x00000000#32))
        (broadcastInDim S1600000x1 ![0] bcast_S1600000_S1600000x1_0 dst) msgs (ix2 n l)
      = Cert.EdgeAttn.zero32 + RowOps.edgeSum (fun e => dst (ix1 e)) n.val (fun e => msgs (ix2 e l)) := by
  rw [hostScatterAdd_ideal, scatter128_eq, RowOps.scatterAdd_rows_apply, zero128_at]
  exact congrArg (fun d => Cert.EdgeAttn.zero32 + RowOps.edgeSum d n.val (fun e => msgs (ix2 e l)))
    (funext (dstCol_at dst))

/-- The summed weights at node `n`, head `j`. -/
theorem sege_at (dst : IVec S1600000 32) (atts : FVec Ideal S1600000x2 .f32) (n : Fin 50000) (j : Fin 2) :
    Host.scatterAdd scatter_S50000x2_S1600000x1_S1600000x2_1_0_0_1
        (broadcastInDim S50000x2 ![] bcast_S_S50000x2 (constant S_ .f32 0x00000000#32))
        (broadcastInDim S1600000x1 ![0] bcast_S1600000_S1600000x1_0 dst) atts (ix2 n j)
      = Cert.EdgeAttn.zero32 + RowOps.edgeSum (fun e => dst (ix1 e)) n.val (fun e => atts (ix2 e j)) := by
  rw [hostScatterAdd_ideal, scatter2_eq, RowOps.scatterAdd_rows_apply, zero2_at]
  exact congrArg (fun d => Cert.EdgeAttn.zero32 + RowOps.edgeSum d n.val (fun e => atts (ix2 e j)))
    (funext (dstCol_at dst))

/-- Columns `0 … 63` and `64 … 127` of a `[50000, 128]` table. -/
theorem cols_lo_at {α : Type} (x : S50000x128.Idx → α) (n : Fin 50000) (f : Fin 64) :
    extractStridedSlice S50000x64 ![0, 0] x slices_S50000x128_S50000x64_0_0 (ix2 n f) = x (ix2 n ⟨f.val, by omega⟩) :=
  extractStridedSlice_apply _ x _ (ix2 n f) (ix2 n ⟨f.val, by omega⟩) fun a => by
    match a with
    | ⟨0, _⟩ => show n.val = 0 + n.val; omega
    | ⟨1, _⟩ => show f.val = 0 + f.val; omega
theorem cols_hi_at {α : Type} (x : S50000x128.Idx → α) (n : Fin 50000) (f : Fin 64) :
    extractStridedSlice S50000x64 ![0, 64] x slices_S50000x128_S50000x64_0_64 (ix2 n f) = x (ix2 n ⟨64 + f.val, by omega⟩) :=
  extractStridedSlice_apply _ x _ (ix2 n f) (ix2 n ⟨64 + f.val, by omega⟩) fun a => by
    match a with
    | ⟨0, _⟩ => show n.val = 0 + n.val; omega
    | ⟨1, _⟩ => rfl

/-- Column `j` of a `[50000, 2]` table, broadcast along 64 columns. -/
theorem den0_at {α : Type} (y : S50000x2.Idx → α) (n : Fin 50000) (f : Fin 64) :
    broadcastInDim S50000x64 ![0, 1] bcast_S50000x1_S50000x64_0_1
      (extractStridedSlice S50000x1 ![0, 0] y slices_S50000x2_S50000x1_0_0) (ix2 n f) = y (ix2 n 0) :=
  (broadcastInDim_apply _ _ _ (ix2 n f) (ix2 n 0) fun a => by
    match a with
    | ⟨0, _⟩ => rfl
    | ⟨1, _⟩ => rfl).trans
  (extractStridedSlice_apply _ y _ (ix2 n 0) (ix2 n 0) fun a => by
    match a with
    | ⟨0, _⟩ => show n.val = 0 + n.val; omega
    | ⟨1, _⟩ => rfl)
theorem den1_at {α : Type} (y : S50000x2.Idx → α) (n : Fin 50000) (f : Fin 64) :
    broadcastInDim S50000x64 ![0, 1] bcast_S50000x1_S50000x64_0_1
      (extractStridedSlice S50000x1 ![0, 1] y slices_S50000x2_S50000x1_0_1) (ix2 n f) = y (ix2 n 1) :=
  (broadcastInDim_apply _ _ _ (ix2 n f) (ix2 n 0) fun a => by
    match a with
    | ⟨0, _⟩ => rfl
    | ⟨1, _⟩ => rfl).trans
  (extractStridedSlice_apply _ y _ (ix2 n 0) (ix2 n 1) fun a => by
    match a with
    | ⟨0, _⟩ => show n.val = 0 + n.val; omega
    | ⟨1, _⟩ => rfl)

/-- A `[50000, 64]` table under a leading unit axis. -/
theorem lead_at {α : Type} (v : S50000x64.Idx → α) (n : Fin 50000) (f : Fin 64) :
    broadcastInDim S1x50000x64 ![1, 2] bcast_S50000x64_S1x50000x64_1_2 v (ix3 0 n f) = v (ix2 n f) :=
  broadcastInDim_apply _ _ v (ix3 0 n f) (ix2 n f) fun a => by
    match a with
    | ⟨0, _⟩ => rfl
    | ⟨1, _⟩ => rfl

/-! ## The tail at an index -/

/-- Two `[50000, 64]` tables stacked along a new leading axis: entry `(0, n, f)` is the first's, `(1, n, f)` the second's. -/
theorem stack_at0 {α : Type} (v0 v1 : S50000x64.Idx → α) (n : Fin 50000) (f : Fin 64) :
    concatenate S2x50000x64 0
        [⟨S1x50000x64, broadcastInDim S1x50000x64 ![1, 2] bcast_S50000x64_S1x50000x64_1_2 v0⟩,
         ⟨S1x50000x64, broadcastInDim S1x50000x64 ![1, 2] bcast_S50000x64_S1x50000x64_1_2 v1⟩]
        concatenates_S1x50000x64_S1x50000x64_S2x50000x64_d0 (ix3 0 n f) = v0 (ix2 n f) :=
  (concatenate_pair_apply_left 0 _ _ concatenates_S1x50000x64_S1x50000x64_S2x50000x64_d0 (ix3 0 n f) rfl
    (ix3 0 n f) fun b => by
      match b with
      | ⟨0, _⟩ => rfl
      | ⟨1, _⟩ => rfl
      | ⟨2, _⟩ => rfl).trans (lead_at v0 n f)

theorem stack_at1 {α : Type} (v0 v1 : S50000x64.Idx → α) (n : Fin 50000) (f : Fin 64) :
    concatenate S2x50000x64 0
        [⟨S1x50000x64, broadcastInDim S1x50000x64 ![1, 2] bcast_S50000x64_S1x50000x64_1_2 v0⟩,
         ⟨S1x50000x64, broadcastInDim S1x50000x64 ![1, 2] bcast_S50000x64_S1x50000x64_1_2 v1⟩]
        concatenates_S1x50000x64_S1x50000x64_S2x50000x64_d0 (ix3 1 n f) = v1 (ix2 n f) :=
  (concatenate_pair_apply_right 0 _ _ concatenates_S1x50000x64_S1x50000x64_S2x50000x64_d0 (ix3 1 n f) rfl rfl
    (ix3 0 n f) (fun b hb => by
      match b with
      | ⟨0, _⟩ => exact absurd rfl hb
      | ⟨1, _⟩ => rfl
      | ⟨2, _⟩ => rfl) (by rfl)).trans (lead_at v1 n f)

/-- The summed messages, the summed weights and a head's quotient, named. -/
def segM (dst : IVec S1600000 32) (msgs : FVec Ideal S1600000x128 .f32) : FVec Ideal S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst) msgs
def segE (dst : IVec S1600000 32) (atts : FVec Ideal S1600000x2 .f32) : FVec Ideal S50000x2 .f32 :=
  Host.scatterAdd scatter_S50000x2_S1600000x1_S1600000x2_1_0_0_1
    (broadcastInDim S50000x2 ![] bcast_S_S50000x2 (constant S_ .f32 0x00000000#32))
    (broadcastInDim S1600000x1 ![0] bcast_S1600000_S1600000x1_0 dst) atts
def quot0 (sm : FVec Ideal S50000x128 .f32) (se : FVec Ideal S50000x2 .f32) : FVec Ideal S50000x64 .f32 :=
  Host.divf (extractStridedSlice S50000x64 ![0, 0] sm slices_S50000x128_S50000x64_0_0)
    (broadcastInDim S50000x64 ![0, 1] bcast_S50000x1_S50000x64_0_1 (extractStridedSlice S50000x1 ![0, 0] se slices_S50000x2_S50000x1_0_0))
def quot1 (sm : FVec Ideal S50000x128 .f32) (se : FVec Ideal S50000x2 .f32) : FVec Ideal S50000x64 .f32 :=
  Host.divf (extractStridedSlice S50000x64 ![0, 64] sm slices_S50000x128_S50000x64_0_64)
    (broadcastInDim S50000x64 ![0, 1] bcast_S50000x1_S50000x64_0_1 (extractStridedSlice S50000x1 ![0, 1] se slices_S50000x2_S50000x1_0_1))

theorem tailOut_eq (dst : IVec S1600000 32) (msgs : FVec Ideal S1600000x128 .f32) (atts : FVec Ideal S1600000x2 .f32) :
    tailOut dst msgs atts = concatenate S2x50000x64 0
      [⟨S1x50000x64, broadcastInDim S1x50000x64 ![1, 2] bcast_S50000x64_S1x50000x64_1_2 (quot0 (segM dst msgs) (segE dst atts))⟩,
       ⟨S1x50000x64, broadcastInDim S1x50000x64 ![1, 2] bcast_S50000x64_S1x50000x64_1_2 (quot1 (segM dst msgs) (segE dst atts))⟩]
      concatenates_S1x50000x64_S1x50000x64_S2x50000x64_d0 := rfl

theorem quot0_at (sm : FVec Ideal S50000x128 .f32) (se : FVec Ideal S50000x2 .f32) (n : Fin 50000) (f : Fin 64) :
    quot0 sm se (ix2 n f) = Ideal.div (sm (ix2 n ⟨f.val, by omega⟩)) (se (ix2 n 0)) := by
  unfold quot0
  rw [hostDivf_at, cols_lo_at, den0_at]
theorem quot1_at (sm : FVec Ideal S50000x128 .f32) (se : FVec Ideal S50000x2 .f32) (n : Fin 50000) (f : Fin 64) :
    quot1 sm se (ix2 n f) = Ideal.div (sm (ix2 n ⟨64 + f.val, by omega⟩)) (se (ix2 n 1)) := by
  unfold quot1
  rw [hostDivf_at, cols_hi_at, den1_at]

/-- Head 0 of the tail at node `n`, column `f`. -/
theorem tailOut_apply0 (dst : IVec S1600000 32) (msgs : FVec Ideal S1600000x128 .f32) (atts : FVec Ideal S1600000x2 .f32)
    (n : Fin 50000) (f : Fin 64) :
    tailOut dst msgs atts (ix3 0 n f)
      = Ideal.div
          (Cert.EdgeAttn.zero32 + RowOps.edgeSum (fun e => dst (ix1 e)) n.val (fun e => msgs (ix2 e ⟨f.val, by omega⟩)))
          (Cert.EdgeAttn.zero32 + RowOps.edgeSum (fun e => dst (ix1 e)) n.val (fun e => atts (ix2 e 0))) := by
  rw [tailOut_eq]
  refine (stack_at0 _ _ n f).trans ?_
  rw [quot0_at]
  unfold segM segE
  rw [segm_at, sege_at]

/-- Head 1 of the tail at node `n`, column `f`. -/
theorem tailOut_apply1 (dst : IVec S1600000 32) (msgs : FVec Ideal S1600000x128 .f32) (atts : FVec Ideal S1600000x2 .f32)
    (n : Fin 50000) (f : Fin 64) :
    tailOut dst msgs atts (ix3 1 n f)
      = Ideal.div
          (Cert.EdgeAttn.zero32 + RowOps.edgeSum (fun e => dst (ix1 e)) n.val (fun e => msgs (ix2 e ⟨64 + f.val, by omega⟩)))
          (Cert.EdgeAttn.zero32 + RowOps.edgeSum (fun e => dst (ix1 e)) n.val (fun e => atts (ix2 e 1))) := by
  rw [tailOut_eq]
  refine (stack_at1 _ _ n f).trans ?_
  rw [quot1_at]
  unfold segM segE
  rw [segm_at, sege_at]

end Cert.KerSide

end
-- ==== Proof.KerSide.lean ====
/-
  The kernel program's result is the specification.

  Under the precondition (every relation index in [0, 1000), every source index in [0, 50000)) the edge table the
  region reads holds, per edge, the source node's row and the relation's row; the two small tables hold the
  attention vectors (head 1's source vector already multiplied by the rescale `w`). So an edge's row-level score,
  weight and messages are the specification's — for head 1 by `x · (a · w) = (x · w) · a` under the sum — and the
  tail's segment sums and quotient are the specification's at every head, node and column.
-/
import proofs.«412317_j52716428591538_3_alg».proof.Proof.KerPrefix
import proofs.«412317_j52716428591538_3_alg».proof.Proof.KerFlush
import proofs.«412317_j52716428591538_3_alg».proof.Proof.KerTail
import proofs.«412317_j52716428591538_3_alg».proof.Proof.KerTailValue

noncomputable section

namespace Cert.KerSide

open Cert.KernelIdeal Cert.KernelIdeal.Gen Idealize.ShloMosaic Idealize.ShloMosaic.TcCoe Idealize.ShloMosaic.ValueIdx Idealize.SL.Sem
open scoped BigOperators

variable (m : (ℓ : Loc nD τ sig) → Buf (Elt Ideal) ℓ) (c : Dev nD)

/-! ## The five argument arrays -/

abbrev argH : S50000x64.Idx → EReal := m ((c.tc : Thread nD τ).loc main_arg0)
abbrev argR : S1000x64.Idx → EReal := m ((c.tc : Thread nD τ).loc main_arg1)
abbrev argA : S3x1600000.Idx → BitVec 32 := m ((c.tc : Thread nD τ).loc main_arg2)
abbrev argW : S1x1x64.Idx → EReal := m ((c.tc : Thread nD τ).loc main_arg3)
abbrev argAtt : S2x2x64x1.Idx → EReal := m ((c.tc : Thread nD τ).loc main_arg4)

/-- The precondition's two facts about the index rows. -/
def RelInRange : Prop := ∀ e : Fin 1600000, 0 ≤ (argA m c (ix2 1 e)).toInt ∧ (argA m c (ix2 1 e)).toInt < 1000
def SrcInRange : Prop := ∀ e : Fin 1600000, 0 ≤ (argA m c (ix2 2 e)).toInt ∧ (argA m c (ix2 2 e)).toInt < 50000

/-! ## The region's input arrays, entry by entry -/

theorem row_lo (hA2 : SrcInRange m c) (e : Fin 1600000) (k : Fin 64) :
    arr0 m c (ix2 e ⟨k.val, by omega⟩) = argH m c (ix2 (Cert.EdgeAttn.srcRow (argA m c) e) k) :=
  V_srcrel_lo m c hA2 e ⟨k.val, by omega⟩ k.isLt

theorem row_hi (hA1 : RelInRange m c) (e : Fin 1600000) (k : Fin 64) :
    arr0 m c (ix2 e ⟨64 + k.val, by omega⟩) = argR m c (ix2 (Cert.EdgeAttn.relRow (argA m c) e) k) :=
  (V_srcrel_hi m c hA1 e ⟨64 + k.val, by omega⟩ (by show 64 ≤ 64 + k.val; omega)).trans
    (congrArg (fun q : Fin 64 => argR m c (ix2 (Cert.EdgeAttn.relRow (argA m c) e) q))
      (Fin.ext (by show 64 + k.val - 64 = k.val; omega)))

theorem wsrc0 (k : Fin 64) : arr1 m c (ix2 k 0) = argAtt m c (ix4 0 0 k 0) := V_wsrc0 m c k
theorem wsrc1 (k : Fin 64) : arr1 m c (ix2 k 1) = argAtt m c (ix4 1 0 k 0) * argW m c (ix3 0 0 k) := V_wsrc1 m c k
theorem wrel0 (k : Fin 64) : arr2 m c (ix2 k 0) = argAtt m c (ix4 0 1 k 0) := V_wrel0 m c k
theorem wrel1 (k : Fin 64) : arr2 m c (ix2 k 1) = argAtt m c (ix4 1 1 k 0) := V_wrel1 m c k
theorem wvec (k : Fin 64) : arr3 m c (ix2 0 k) = argW m c (ix3 0 0 k) := V_wvec m c k
theorem dstRow (e : Fin 1600000) : (V m c main_v1 : S1600000.Idx → BitVec 32) (ix1 e) = argA m c (ix2 0 e) := V_dst m c e

/-! ## An edge's score, weight and messages -/

theorem score_edge0 (hA1 : RelInRange m c) (hA2 : SrcInRange m c) (e : Fin 1600000) :
    scoreRow (fun l => arr0 m c (ix2 e l)) (arr1 m c) (arr2 m c) 0
      = Cert.EdgeAttn.score (argH m c) (argR m c) (argA m c) (argW m c) (argAtt m c) 0 e := by
  unfold scoreRow Cert.EdgeAttn.score Cert.EdgeAttn.srcAt Cert.EdgeAttn.relAt
  refine congrArg₂ (· + ·) (Finset.sum_congr rfl fun k _ => ?_) (Finset.sum_congr rfl fun k _ => ?_)
  · show arr0 m c (ix2 e ⟨k.val, _⟩) * arr1 m c (ix2 k 0) = _
    rw [row_lo m c hA2 e k, wsrc0, if_pos rfl]
  · show arr0 m c (ix2 e ⟨64 + k.val, _⟩) * arr2 m c (ix2 k 0) = _
    rw [row_hi m c hA1 e k, wrel0]

/-- Head 1: the kernel dots the source row with `a · w`, the specification dots the rescaled row `x · w` with `a`. -/
theorem score_edge1 (hA1 : RelInRange m c) (hA2 : SrcInRange m c) (e : Fin 1600000) :
    scoreRow (fun l => arr0 m c (ix2 e l)) (arr1 m c) (arr2 m c) 1
      = Cert.EdgeAttn.score (argH m c) (argR m c) (argA m c) (argW m c) (argAtt m c) 1 e := by
  unfold scoreRow Cert.EdgeAttn.score Cert.EdgeAttn.srcAt Cert.EdgeAttn.relAt
  refine congrArg₂ (· + ·) (Finset.sum_congr rfl fun k _ => ?_) (Finset.sum_congr rfl fun k _ => ?_)
  · show arr0 m c (ix2 e ⟨k.val, _⟩) * arr1 m c (ix2 k 1) = _
    rw [row_lo m c hA2 e k, wsrc1, if_neg (by decide)]
    rw [mul_comm (argAtt m c (ix4 1 0 k 0)) (argW m c (ix3 0 0 k)), mul_assoc]
  · show arr0 m c (ix2 e ⟨64 + k.val, _⟩) * arr2 m c (ix2 k 1) = _
    rw [row_hi m c hA1 e k, wrel1]

theorem att_edge0 (hA1 : RelInRange m c) (hA2 : SrcInRange m c) (e : Fin 1600000) :
    attArr (arr0 m c) (arr1 m c) (arr2 m c) (ix2 e 0)
      = Cert.EdgeAttn.att (argH m c) (argR m c) (argA m c) (argW m c) (argAtt m c) 0 e := by
  show attRow (fun l => arr0 m c (ix2 e l)) (arr1 m c) (arr2 m c) 0 = _
  unfold attRow Cert.EdgeAttn.att
  rw [score_edge0 m c hA1 hA2 e]

theorem att_edge1 (hA1 : RelInRange m c) (hA2 : SrcInRange m c) (e : Fin 1600000) :
    attArr (arr0 m c) (arr1 m c) (arr2 m c) (ix2 e 1)
      = Cert.EdgeAttn.att (argH m c) (argR m c) (argA m c) (argW m c) (argAtt m c) 1 e := by
  show attRow (fun l => arr0 m c (ix2 e l)) (arr1 m c) (arr2 m c) 1 = _
  unfold attRow Cert.EdgeAttn.att
  rw [score_edge1 m c hA1 hA2 e]

/-- Head 0's message of edge `e`, column `f`: column `f` of the message array. -/
theorem msg_edge0 (hA1 : RelInRange m c) (hA2 : SrcInRange m c) (e : Fin 1600000) (f : Fin 64) :
    msgArr (arr0 m c) (arr1 m c) (arr2 m c) (arr3 m c) (ix2 e ⟨f.val, by omega⟩)
      = Cert.EdgeAttn.msg (argH m c) (argR m c) (argA m c) (argW m c) (argAtt m c) 0 e f := by
  show msgRow (fun l => arr0 m c (ix2 e l)) (fun k => arr3 m c (ix2 0 k))
      (attRow (fun l => arr0 m c (ix2 e l)) (arr1 m c) (arr2 m c) 0) (attRow (fun l => arr0 m c (ix2 e l)) (arr1 m c) (arr2 m c) 1)
      ⟨f.val, by omega⟩ = _
  have ha := att_edge0 m c hA1 hA2 e
  unfold msgRow
  rw [if_pos (show (⟨f.val, by omega⟩ : Fin 128).val < 64 from f.isLt)]
  have e1 : colLo ⟨f.val, by omega⟩ = ⟨f.val, by omega⟩ := Fin.ext (by show f.val % 64 = f.val; omega)
  have e2 : colHi ⟨f.val, by omega⟩ = ⟨64 + f.val, by omega⟩ := Fin.ext (by show 64 + f.val % 64 = 64 + f.val; omega)
  rw [e1, e2]
  show (arr0 m c (ix2 e ⟨f.val, _⟩) - arr0 m c (ix2 e ⟨64 + f.val, _⟩)) * attArr (arr0 m c) (arr1 m c) (arr2 m c) (ix2 e 0) = _
  rw [row_lo m c hA2 e f, row_hi m c hA1 e f, ha]
  unfold Cert.EdgeAttn.msg Cert.EdgeAttn.srcAt Cert.EdgeAttn.relAt
  rw [if_pos rfl]

/-- Head 1's message of edge `e`, column `f`: column `64 + f` of the message array. -/
theorem msg_edge1 (hA1 : RelInRange m c) (hA2 : SrcInRange m c) (e : Fin 1600000) (f : Fin 64) :
    msgArr (arr0 m c) (arr1 m c) (arr2 m c) (arr3 m c) (ix2 e ⟨64 + f.val, by omega⟩)
      = Cert.EdgeAttn.msg (argH m c) (argR m c) (argA m c) (argW m c) (argAtt m c) 1 e f := by
  show msgRow (fun l => arr0 m c (ix2 e l)) (fun k => arr3 m c (ix2 0 k))
      (attRow (fun l => arr0 m c (ix2 e l)) (arr1 m c) (arr2 m c) 0) (attRow (fun l => arr0 m c (ix2 e l)) (arr1 m c) (arr2 m c) 1)
      ⟨64 + f.val, by omega⟩ = _
  have ha := att_edge1 m c hA1 hA2 e
  unfold msgRow
  rw [if_neg (show ¬ (⟨64 + f.val, by omega⟩ : Fin 128).val < 64 from by show ¬ 64 + f.val < 64; omega)]
  have e1 : colLo ⟨64 + f.val, by omega⟩ = ⟨f.val, by omega⟩ := Fin.ext (by show (64 + f.val) % 64 = f.val; omega)
  have e2 : colHi ⟨64 + f.val, by omega⟩ = ⟨64 + f.val, by omega⟩ := Fin.ext (by show 64 + (64 + f.val) % 64 = 64 + f.val; omega)
  have e3 : colK ⟨64 + f.val, by omega⟩ = f := Fin.ext (by show (64 + f.val) % 64 = f.val; omega)
  rw [e1, e2, e3]
  show (arr0 m c (ix2 e ⟨f.val, _⟩) * arr3 m c (ix2 0 f) - arr0 m c (ix2 e ⟨64 + f.val, _⟩))
      * attArr (arr0 m c) (arr1 m c) (arr2 m c) (ix2 e 1) = _
  rw [row_lo m c hA2 e f, row_hi m c hA1 e f, wvec, ha]
  unfold Cert.EdgeAttn.msg Cert.EdgeAttn.srcAt Cert.EdgeAttn.relAt
  rw [if_neg (by decide)]

/-! ## The result -/

theorem edgeSum_congr {E w : ℕ} {d d' : Fin E → BitVec w} {g g' : Fin E → EReal} (n : ℕ)
    (hd : ∀ e, d e = d' e) (hg : ∀ e, g e = g' e) : RowOps.edgeSum d n g = RowOps.edgeSum d' n g' := by
  have h1 : d = d' := funext hd
  have h2 : g = g' := funext hg
  rw [h1, h2]

/-- THE KERNEL PROGRAM'S RESULT: what the operations after the region leave in the result buffer is the
    specification of the five argument arrays. -/
theorem result_eq (hA1 : RelInRange m c) (hA2 : SrcInRange m c) :
    Pipeline.afterTail₀ cfgs (dats m) 0 (V0 m) [hostOps1] c main_v43
      = Cert.EdgeAttn.out (argH m c) (argR m c) (argA m c) (argW m c) (argAtt m c) := by
  rw [tail_eq, final4, final5]
  funext j
  obtain ⟨i, n, f, rfl⟩ : ∃ (i : Fin 2) (n : Fin 50000) (f : Fin 64), j = ix3 i n f := ⟨j 0, j 1, j 2, eq_ix3 j⟩
  show _ = Cert.EdgeAttn.outAt (argH m c) (argR m c) (argA m c) (argW m c) (argAtt m c) i n f
  unfold Cert.EdgeAttn.outAt
  match i with
  | ⟨0, _⟩ =>
    refine (tailOut_apply0 _ _ _ n f).trans ?_
    refine congrArg₂ (fun x y => Ideal.div (Cert.EdgeAttn.zero32 + x) (Cert.EdgeAttn.zero32 + y)) ?_ ?_
    · exact edgeSum_congr n.val (dstRow m c) fun e => msg_edge0 m c hA1 hA2 e f
    · exact edgeSum_congr n.val (dstRow m c) fun e => att_edge0 m c hA1 hA2 e
  | ⟨1, _⟩ =>
    refine (tailOut_apply1 _ _ _ n f).trans ?_
    refine congrArg₂ (fun x y => Ideal.div (Cert.EdgeAttn.zero32 + x) (Cert.EdgeAttn.zero32 + y)) ?_ ?_
    · exact edgeSum_congr n.val (dstRow m c) fun e => msg_edge1 m c hA1 hA2 e f
    · exact edgeSum_congr n.val (dstRow m c) fun e => att_edge1 m c hA1 hA2 e

end Cert.KerSide

end
-- ==== Proof.RefRun.lean ====
/-
  The reference program's run, as a list of operations.

  @main is a straight line of host operations with two calls of `leaky_relu` (each calling `_where`); a call means
  its callee's body on the call's own buffers, so the line is the list below: @main's operations in order with each
  call's seven operations in its place (the zero, its broadcast, the comparison `x ≥ 0`, the slope converted to its
  own type, its broadcast, the product `slope · x`, the select). The list is cut where @main is printed in two
  parts. Every execution of @main on the TensorCore terminates, and every buffer ends at the fold of the list's
  operations over the launch contents.
-/
import proofs.«412317_j52716428591538_3_alg».proof.Proof.Gen.ReferenceIdeal
import Idealize.ShloMosaic.Lib.StableHlo.Run

noncomputable section

namespace Cert.RefSide

open Cert.ReferenceIdeal Cert.ReferenceIdeal.Gen Idealize.ShloMosaic Idealize.ShloMosaic.TcCoe Idealize.SL.Sem
open Idealize.ShloMosaic.StableHlo

variable {F : FTy → Type} [FloatOps F]

/-- The operations of @main's first part: sixty statements, the first call's seven operations in its place. -/
abbrev ops0 : List (HloOp τ sig (Elt F)) :=
  [ unary main_arg2 main_v0 ((extractStridedSlice S1x1600000 ![0, 0] · slices_S3x1600000_S1x1600000_0_0) : (⟨S3x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S3x1600000_S1x1600000_1_0) : (⟨S3x1600000, .i32⟩ : BufTy).Contents (Elt F) → (⟨S1x1600000, .i32⟩ : BufTy).Contents (Elt F)),
    reshape main_v2 main_v3 rfl shapeCasts_S1x1600000_S1600000,
    unary main_arg2 main_v4 ((extractStridedSlice S1x1600000 ![2, 0] · slices_S3x1600000_S1x1600000_2_0) : (⟨S3x1600000, .i32⟩ : BufTy).Contents (Elt F) → (⟨S1x1600000, .i32⟩ : BufTy).Contents (Elt F)),
    reshape main_v4 main_v5 rfl shapeCasts_S1x1600000_S1600000,
    nullary main_c (constantI S_ 32 0#32),
    unary main_c main_v6 (broadcastInDim S1600000 ![] bcast_S_S1600000 : (⟨S_, .i32⟩ : BufTy).Contents (Elt F) → (⟨S1600000, .i32⟩ : BufTy).Contents (Elt F)),
    binary main_v5 main_v6 main_v7 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v8 (broadcastInDim S1600000 ![] bcast_S_S1600000 : (⟨S_, .i32⟩ : BufTy).Contents (Elt F) → (⟨S1600000, .i32⟩ : BufTy).Contents (Elt F)),
    binary main_v5 main_v8 main_v9 (addi : (⟨S1600000, .i32⟩ : BufTy).Contents (Elt F) → (⟨S1600000, .i32⟩ : BufTy).Contents (Elt F) → (⟨S1600000, .i32⟩ : BufTy).Contents (Elt F)),
    ternary main_v7 main_v9 main_v5 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v10 main_v11 (broadcastInDim S1600000x1 ![0] bcast_S1600000_S1600000x1_0 : (⟨S1600000, .i32⟩ : BufTy).Contents (Elt F) → (⟨S1600000x1, .i32⟩ : BufTy).Contents (Elt F)),
    binary main_arg0 main_v11 main_v12 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_c_1 (constantI S_ 32 0#32),
    unary main_c_1 main_v13 (broadcastInDim S1600000 ![] bcast_S_S1600000 : (⟨S_, .i32⟩ : BufTy).Contents (Elt F) → (⟨S1600000, .i32⟩ : BufTy).Contents (Elt F)),
    binary main_v3 main_v13 main_v14 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 1000#32),
    unary main_c_2 main_v15 (broadcastInDim S1600000 ![] bcast_S_S1600000 : (⟨S_, .i32⟩ : BufTy).Contents (Elt F) → (⟨S1600000, .i32⟩ : BufTy).Contents (Elt F)),
    binary main_v3 main_v15 main_v16 (addi : (⟨S1600000, .i32⟩ : BufTy).Contents (Elt F) → (⟨S1600000, .i32⟩ : BufTy).Contents (Elt F) → (⟨S1600000, .i32⟩ : BufTy).Contents (Elt F)),
    ternary main_v14 main_v16 main_v3 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v17 main_v18 (broadcastInDim S1600000x1 ![0] bcast_S1600000_S1600000x1_0 : (⟨S1600000, .i32⟩ : BufTy).Contents (Elt F) → (⟨S1600000x1, .i32⟩ : BufTy).Contents (Elt F)),
    binary main_arg1 main_v18 main_v19 ((fun x i => Host.gather gather_S1000x64_S1600000x1_S1600000x64_1_0_n_n_0_1_164 x i) : (⟨S1000x64, .f32⟩ : BufTy).Contents (Elt F) → (⟨S1600000x1, .i32⟩ : BufTy).Contents (Elt F) → (⟨S1600000x64, .f32⟩ : BufTy).Contents (Elt F)),
    unary main_arg4 main_v20 ((extractStridedSlice S1x1x64x1 ![0, 0, 0, 0] · slices_S2x2x64x1_S1x1x64x1_0_0_0_0) : (⟨S2x2x64x1, .f32⟩ : BufTy).Contents (Elt F) → (⟨S1x1x64x1, .f32⟩ : BufTy).Contents (Elt F)),
    reshape main_v20 main_v21 rfl shapeCasts_S1x1x64x1_S64x1,
    binary main_v12 main_v21 main_v22 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    unary main_arg4 main_v23 ((extractStridedSlice S1x1x64x1 ![0, 1, 0, 0] · slices_S2x2x64x1_S1x1x64x1_0_1_0_0) : (⟨S2x2x64x1, .f32⟩ : BufTy).Contents (Elt F) → (⟨S1x1x64x1, .f32⟩ : BufTy).Contents (Elt F)),
    reshape main_v23 main_v24 rfl shapeCasts_S1x1x64x1_S64x1,
    binary main_v19 main_v24 main_v25 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    binary main_v22 main_v25 main_v26 (addf : (⟨S1600000x1, .f32⟩ : BufTy).Contents (Elt F) → (⟨S1600000x1, .f32⟩ : BufTy).Contents (Elt F) → (⟨S1600000x1, .f32⟩ : BufTy).Contents (Elt F)),
    reshape main_v26 main_v27 rfl shapeCasts_S1600000x1_S1600000,
    nullary main_cst (constant S_ .f32 0x3E4CCCCD#32),
    TRef.nullary main_call0.cst (constant S_ .f32 0x00000000#32),
    TRef.unary main_call0.cst main_call0.v0 (broadcastInDim S1600000 ![] bcast_S_S1600000),
    TRef.binary (.of main_v27) main_call0.v0 main_call0.v1 (cmpf .oge),
    TRef.unary (.of main_cst) main_call0.v2 id,
    TRef.unary main_call0.v2 main_call0.v3 (broadcastInDim S1600000 ![] bcast_S_S1600000),
    TRef.binary main_call0.v3 (.of main_v27) main_call0.v4 mulf,
    TRef.ternary main_call0.v1 (.of main_v27) main_call0.v4 main_call0.call0.v0 select,
    unary main_v28 main_v29 (Host.negf : (⟨S1600000, .f32⟩ : BufTy).Contents (Elt F) → (⟨S1600000, .f32⟩ : BufTy).Contents (Elt F)),
    unary main_v29 main_v30 (Host.exp : (⟨S1600000, .f32⟩ : BufTy).Contents (Elt F) → (⟨S1600000, .f32⟩ : BufTy).Contents (Elt F)),
    nullary main_cst_3 (constant S_ .f32 0x00000000#32),
    unary main_cst_3 main_v31 (broadcastInDim S50000 ![] bcast_S_S50000 : (⟨S_, .f32⟩ : BufTy).Contents (Elt F) → (⟨S50000, .f32⟩ : BufTy).Contents (Elt F)),
    unary main_v1 main_v32 (broadcastInDim S1600000x1 ![0] bcast_S1600000_S1600000x1_0 : (⟨S1600000, .i32⟩ : BufTy).Contents (Elt F) → (⟨S1600000x1, .i32⟩ : BufTy).Contents (Elt F)),
    ternary main_v31 main_v32 main_v30 main_v33 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    unary main_v33 main_v34 (broadcastInDim S50000x1 ![0] bcast_S50000_S50000x1_0 : (⟨S50000, .f32⟩ : BufTy).Contents (Elt F) → (⟨S50000x1, .f32⟩ : BufTy).Contents (Elt F)),
    binary main_v12 main_v19 main_v35 (subf : (⟨S1600000x64, .f32⟩ : BufTy).Contents (Elt F) → (⟨S1600000x64, .f32⟩ : BufTy).Contents (Elt F) → (⟨S1600000x64, .f32⟩ : BufTy).Contents (Elt F)),
    unary main_v30 main_v36 (broadcastInDim S1600000x1 ![0] bcast_S1600000_S1600000x1_0 : (⟨S1600000, .f32⟩ : BufTy).Contents (Elt F) → (⟨S1600000x1, .f32⟩ : BufTy).Contents (Elt F)),
    unary main_v36 main_v37 (broadcastInDim S1600000x64 ![0, 1] bcast_S1600000x1_S1600000x64_0_1 : (⟨S1600000x1, .f32⟩ : BufTy).Contents (Elt F) → (⟨S1600000x64, .f32⟩ : BufTy).Contents (Elt F)),
    binary main_v35 main_v37 main_v38 (mulf : (⟨S1600000x64, .f32⟩ : BufTy).Contents (Elt F) → (⟨S1600000x64, .f32⟩ : BufTy).Contents (Elt F) → (⟨S1600000x64, .f32⟩ : BufTy).Contents (Elt F)),
    nullary main_cst_4 (constant S_ .f32 0x00000000#32),
    unary main_cst_4 main_v39 (broadcastInDim S50000x64 ![] bcast_S_S50000x64 : (⟨S_, .f32⟩ : BufTy).Contents (Elt F) → (⟨S50000x64, .f32⟩ : BufTy).Contents (Elt F)),
    unary main_v1 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v34 main_v42 (broadcastInDim S50000x64 ![0, 1] bcast_S50000x1_S50000x64_0_1 : (⟨S50000x1, .f32⟩ : BufTy).Contents (Elt F) → (⟨S50000x64, .f32⟩ : BufTy).Contents (Elt F)),
    binary main_v41 main_v42 main_v43 (Host.divf : (⟨S50000x64, .f32⟩ : BufTy).Contents (Elt F) → (⟨S50000x64, .f32⟩ : BufTy).Contents (Elt F) → (⟨S50000x64, .f32⟩ : BufTy).Contents (Elt F)),
    reshape main_arg3 main_v44 rfl shapeCasts_S1x1x64_S1x64,
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_arg0 main_v45 main_v46 (mulf : (⟨S50000x64, .f32⟩ : BufTy).Contents (Elt F) → (⟨S50000x64, .f32⟩ : BufTy).Contents (Elt F) → (⟨S50000x64, .f32⟩ : BufTy).Contents (Elt F)),
    nullary main_c_5 (constantI S_ 32 0#32),
    unary main_c_5 main_v47 (broadcastInDim S1600000 ![] bcast_S_S1600000 : (⟨S_, .i32⟩ : BufTy).Contents (Elt F) → (⟨S1600000, .i32⟩ : BufTy).Contents (Elt F)),
    binary main_v5 main_v47 main_v48 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v49 (broadcastInDim S1600000 ![] bcast_S_S1600000 : (⟨S_, .i32⟩ : BufTy).Contents (Elt F) → (⟨S1600000, .i32⟩ : BufTy).Contents (Elt F)),
    binary main_v5 main_v49 main_v50 (addi : (⟨S1600000, .i32⟩ : BufTy).Contents (Elt F) → (⟨S1600000, .i32⟩ : BufTy).Contents (Elt F) → (⟨S1600000, .i32⟩ : BufTy).Contents (Elt F)) ]

/-- The operations of @main's second part, the second call's seven operations in its place. -/
abbrev ops1 : List (HloOp τ sig (Elt F)) :=
  [ ternary main_v48 main_v50 main_v5 main_v51 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v51 main_v52 (broadcastInDim S1600000x1 ![0] bcast_S1600000_S1600000x1_0 : (⟨S1600000, .i32⟩ : BufTy).Contents (Elt F) → (⟨S1600000x1, .i32⟩ : BufTy).Contents (Elt F)),
    binary main_v46 main_v52 main_v53 ((fun x i => Host.gather gather_S50000x64_S1600000x1_S1600000x64_1_0_n_n_0_1_164 x i) : (⟨S50000x64, .f32⟩ : BufTy).Contents (Elt F) → (⟨S1600000x1, .i32⟩ : BufTy).Contents (Elt F) → (⟨S1600000x64, .f32⟩ : BufTy).Contents (Elt F)),
    nullary main_c_7 (constantI S_ 32 0#32),
    unary main_c_7 main_v54 (broadcastInDim S1600000 ![] bcast_S_S1600000 : (⟨S_, .i32⟩ : BufTy).Contents (Elt F) → (⟨S1600000, .i32⟩ : BufTy).Contents (Elt F)),
    binary main_v3 main_v54 main_v55 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 1000#32),
    unary main_c_8 main_v56 (broadcastInDim S1600000 ![] bcast_S_S1600000 : (⟨S_, .i32⟩ : BufTy).Contents (Elt F) → (⟨S1600000, .i32⟩ : BufTy).Contents (Elt F)),
    binary main_v3 main_v56 main_v57 (addi : (⟨S1600000, .i32⟩ : BufTy).Contents (Elt F) → (⟨S1600000, .i32⟩ : BufTy).Contents (Elt F) → (⟨S1600000, .i32⟩ : BufTy).Contents (Elt F)),
    ternary main_v55 main_v57 main_v3 main_v58 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v58 main_v59 (broadcastInDim S1600000x1 ![0] bcast_S1600000_S1600000x1_0 : (⟨S1600000, .i32⟩ : BufTy).Contents (Elt F) → (⟨S1600000x1, .i32⟩ : BufTy).Contents (Elt F)),
    binary main_arg1 main_v59 main_v60 ((fun x i => Host.gather gather_S1000x64_S1600000x1_S1600000x64_1_0_n_n_0_1_164 x i) : (⟨S1000x64, .f32⟩ : BufTy).Contents (Elt F) → (⟨S1600000x1, .i32⟩ : BufTy).Contents (Elt F) → (⟨S1600000x64, .f32⟩ : BufTy).Contents (Elt F)),
    unary main_arg4 main_v61 ((extractStridedSlice S1x1x64x1 ![1, 0, 0, 0] · slices_S2x2x64x1_S1x1x64x1_1_0_0_0) : (⟨S2x2x64x1, .f32⟩ : BufTy).Contents (Elt F) → (⟨S1x1x64x1, .f32⟩ : BufTy).Contents (Elt F)),
    reshape main_v61 main_v62 rfl shapeCasts_S1x1x64x1_S64x1,
    binary main_v53 main_v62 main_v63 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    unary main_arg4 main_v64 ((extractStridedSlice S1x1x64x1 ![1, 1, 0, 0] · slices_S2x2x64x1_S1x1x64x1_1_1_0_0) : (⟨S2x2x64x1, .f32⟩ : BufTy).Contents (Elt F) → (⟨S1x1x64x1, .f32⟩ : BufTy).Contents (Elt F)),
    reshape main_v64 main_v65 rfl shapeCasts_S1x1x64x1_S64x1,
    binary main_v60 main_v65 main_v66 ((fun l r => Host.dotGeneral dot_S1600000x64_S64x1_S1600000x1_1_0_0_1_n_n none l r) : (⟨S1600000x64, .f32⟩ : BufTy).Contents (Elt F) → (⟨S64x1, .f32⟩ : BufTy).Contents (Elt F) → (⟨S1600000x1, .f32⟩ : BufTy).Contents (Elt F)),
    binary main_v63 main_v66 main_v67 (addf : (⟨S1600000x1, .f32⟩ : BufTy).Contents (Elt F) → (⟨S1600000x1, .f32⟩ : BufTy).Contents (Elt F) → (⟨S1600000x1, .f32⟩ : BufTy).Contents (Elt F)),
    reshape main_v67 main_v68 rfl shapeCasts_S1600000x1_S1600000,
    nullary main_cst_9 (constant S_ .f32 0x3E4CCCCD#32),
    TRef.nullary main_call1.cst (constant S_ .f32 0x00000000#32),
    TRef.unary main_call1.cst main_call1.v0 (broadcastInDim S1600000 ![] bcast_S_S1600000),
    TRef.binary (.of main_v68) main_call1.v0 main_call1.v1 (cmpf .oge),
    TRef.unary (.of main_cst_9) main_call1.v2 id,
    TRef.unary main_call1.v2 main_call1.v3 (broadcastInDim S1600000 ![] bcast_S_S1600000),
    TRef.binary main_call1.v3 (.of main_v68) main_call1.v4 mulf,
    TRef.ternary main_call1.v1 (.of main_v68) main_call1.v4 main_call1.call0.v0 select,
    unary main_v69 main_v70 (Host.negf : (⟨S1600000, .f32⟩ : BufTy).Contents (Elt F) → (⟨S1600000, .f32⟩ : BufTy).Contents (Elt F)),
    unary main_v70 main_v71 (Host.exp : (⟨S1600000, .f32⟩ : BufTy).Contents (Elt F) → (⟨S1600000, .f32⟩ : BufTy).Contents (Elt F)),
    nullary main_cst_10 (constant S_ .f32 0x00000000#32),
    unary main_cst_10 main_v72 (broadcastInDim S50000 ![] bcast_S_S50000 : (⟨S_, .f32⟩ : BufTy).Contents (Elt F) → (⟨S50000, .f32⟩ : BufTy).Contents (Elt F)),
    unary main_v1 main_v73 (broadcastInDim S1600000x1 ![0] bcast_S1600000_S1600000x1_0 : (⟨S1600000, .i32⟩ : BufTy).Contents (Elt F) → (⟨S1600000x1, .i32⟩ : BufTy).Contents (Elt F)),
    ternary main_v72 main_v73 main_v71 main_v74 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    unary main_v74 main_v75 (broadcastInDim S50000x1 ![0] bcast_S50000_S50000x1_0 : (⟨S50000, .f32⟩ : BufTy).Contents (Elt F) → (⟨S50000x1, .f32⟩ : BufTy).Contents (Elt F)),
    binary main_v53 main_v60 main_v76 (subf : (⟨S1600000x64, .f32⟩ : BufTy).Contents (Elt F) → (⟨S1600000x64, .f32⟩ : BufTy).Contents (Elt F) → (⟨S1600000x64, .f32⟩ : BufTy).Contents (Elt F)),
    unary main_v71 main_v77 (broadcastInDim S1600000x1 ![0] bcast_S1600000_S1600000x1_0 : (⟨S1600000, .f32⟩ : BufTy).Contents (Elt F) → (⟨S1600000x1, .f32⟩ : BufTy).Contents (Elt F)),
    unary main_v77 main_v78 (broadcastInDim S1600000x64 ![0, 1] bcast_S1600000x1_S1600000x64_0_1 : (⟨S1600000x1, .f32⟩ : BufTy).Contents (Elt F) → (⟨S1600000x64, .f32⟩ : BufTy).Contents (Elt F)),
    binary main_v76 main_v78 main_v79 (mulf : (⟨S1600000x64, .f32⟩ : BufTy).Contents (Elt F) → (⟨S1600000x64, .f32⟩ : BufTy).Contents (Elt F) → (⟨S1600000x64, .f32⟩ : BufTy).Contents (Elt F)),
    nullary main_cst_11 (constant S_ .f32 0x00000000#32),
    unary main_cst_11 main_v80 (broadcastInDim S50000x64 ![] bcast_S_S50000x64 : (⟨S_, .f32⟩ : BufTy).Contents (Elt F) → (⟨S50000x64, .f32⟩ : BufTy).Contents (Elt F)),
    unary main_v1 main_v81 (broadcastInDim S1600000x1 ![0] bcast_S1600000_S1600000x1_0 : (⟨S1600000, .i32⟩ : BufTy).Contents (Elt F) → (⟨S1600000x1, .i32⟩ : BufTy).Contents (Elt F)),
    ternary main_v80 main_v81 main_v79 main_v82 ((fun x i u => Host.scatterAdd scatter_S50000x64_S1600000x1_S1600000x64_1_0_0_1 x i u) : (⟨S50000x64, .f32⟩ : BufTy).Contents (Elt F) → (⟨S1600000x1, .i32⟩ : BufTy).Contents (Elt F) → (⟨S1600000x64, .f32⟩ : BufTy).Contents (Elt F) → (⟨S50000x64, .f32⟩ : BufTy).Contents (Elt F)),
    unary main_v75 main_v83 (broadcastInDim S50000x64 ![0, 1] bcast_S50000x1_S50000x64_0_1 : (⟨S50000x1, .f32⟩ : BufTy).Contents (Elt F) → (⟨S50000x64, .f32⟩ : BufTy).Contents (Elt F)),
    binary main_v82 main_v83 main_v84 (Host.divf : (⟨S50000x64, .f32⟩ : BufTy).Contents (Elt F) → (⟨S50000x64, .f32⟩ : BufTy).Contents (Elt F) → (⟨S50000x64, .f32⟩ : BufTy).Contents (Elt F)),
    unary main_v43 main_v85 (broadcastInDim S1x50000x64 ![1, 2] bcast_S50000x64_S1x50000x64_1_2 : (⟨S50000x64, .f32⟩ : BufTy).Contents (Elt F) → (⟨S1x50000x64, .f32⟩ : BufTy).Contents (Elt F)),
    unary main_v84 main_v86 (broadcastInDim S1x50000x64 ![1, 2] bcast_S50000x64_S1x50000x64_1_2 : (⟨S50000x64, .f32⟩ : BufTy).Contents (Elt F) → (⟨S1x50000x64, .f32⟩ : BufTy).Contents (Elt F)),
    binary main_v85 main_v86 main_v87 ((fun a b => concatenate S2x50000x64 0 [⟨S1x50000x64, a⟩, ⟨S1x50000x64, b⟩] concatenates_S1x50000x64_S1x50000x64_S2x50000x64_d0) : (⟨S1x50000x64, .f32⟩ : BufTy).Contents (Elt F) → (⟨S1x50000x64, .f32⟩ : BufTy).Contents (Elt F) → (⟨S2x50000x64, .f32⟩ : BufTy).Contents (Elt F)) ]

/-- @main's operations, in order. -/
abbrev ops : List (HloOp τ sig (Elt F)) := ops0 ++ ops1

set_option maxRecDepth 8192 in
set_option maxHeartbeats 4000000 in
/-- The first part is its line: the callee's definitions unfolded at the call and the record at its fields, both
    sides are one chain of steps once sequencing is reassociated. -/
theorem main_part0_eq (c : Dev nD) : main_part0 (F := F) c = seq ops0 := by
  simp only [main_part0, fn_leaky_relu.body, fn_where.body, seq, bind_assoc, pure_bind]
  rfl

set_option maxRecDepth 8192 in
set_option maxHeartbeats 4000000 in
/-- The second part likewise. -/
theorem main_part1_eq (c : Dev nD) : main_part1 (F := F) c = seq ops1 := by
  simp only [main_part1, fn_leaky_relu.body, fn_where.body, seq, bind_assoc, pure_bind]

/-- @main is the two parts in turn, so the concatenated line. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., binary_bufs_sub .., unary_bufs_sub .., reshape_bufs_sub .., binary_bufs_sub ..,
    binary_bufs_sub .., reshape_bufs_sub .., nullary_bufs_sub .., nullary_bufs_sub .., unary_bufs_sub .., binary_bufs_sub ..,
    unary_bufs_sub .., unary_bufs_sub .., binary_bufs_sub .., ternary_bufs_sub .., unary_bufs_sub .., unary_bufs_sub ..,
    nullary_bufs_sub .., unary_bufs_sub .., unary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., binary_bufs_sub .., reshape_bufs_sub .., unary_bufs_sub .., binary_bufs_sub ..,
    nullary_bufs_sub .., unary_bufs_sub .., binary_bufs_sub .., nullary_bufs_sub .., unary_bufs_sub .., binary_bufs_sub ..⟩

set_option maxRecDepth 8192 in
theorem ops1_sub : (ops1 : List (HloOp τ sig (Elt F))).Forall fun op => op.bufs ⊆ tcRefs τ sig :=
  ⟨ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., reshape_bufs_sub .., binary_bufs_sub .., unary_bufs_sub .., reshape_bufs_sub .., binary_bufs_sub ..,
    binary_bufs_sub .., reshape_bufs_sub .., nullary_bufs_sub .., nullary_bufs_sub .., unary_bufs_sub .., binary_bufs_sub ..,
    unary_bufs_sub .., unary_bufs_sub .., binary_bufs_sub .., ternary_bufs_sub .., unary_bufs_sub .., unary_bufs_sub ..,
    nullary_bufs_sub .., unary_bufs_sub .., unary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., binary_bufs_sub .., unary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

set_option maxRecDepth 8192 in
set_option maxHeartbeats 4000000 in
/-- From any memory with zero counters, for any float values: every weakly fair execution of @main on the
    TensorCore terminates, and every final state has each buffer at the operations' fold over the launch
    contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.RefSide

end
-- ==== Proof.RefTerm.lean ====
/-
  The reference's result as one term of its five arguments, for any float values.

  From the edge table `A : [3, E]` come three vectors over the edges (destination, relation, source: a row
  sliced out and reshaped). A row index is wrapped as jnp wraps a negative one and broadcast to a column
  `[E, 1]`, at which the node table (for head 1 first rescaled columnwise by `w`) and the relation table
  are gathered. A head's score is the two dot products with its two attention vectors (sliced out of
  `a : [2, 2, 64, 1]` and reshaped to `[64, 1]`) added and reshaped to a vector; its weight
  `exp (-leaky_relu score)`; the weights, and the messages `(source - relation) · weight`, are
  scatter-added over the destination into zero tables, and the head's result is their quotient. The two
  heads' results, each with a leading axis of extent 1, are concatenated along that axis.
-/
import proofs.«412317_j52716428591538_3_alg».proof.Proof.Gen.ReferenceIdeal

noncomputable section

namespace Cert.RefSide

open Cert.ReferenceIdeal Cert.ReferenceIdeal.Gen Idealize.ShloMosaic

variable {F : FTy → Type} [FloatOps F]

/-- A row of the edge table as a vector over the edges: the slice at offsets `off`, reshaped. -/
def edgeRow (off : Fin 2 → ℕ) (hs : S3x1600000.Slices off S1x1600000) (A : IVec S3x1600000 32) : IVec S1600000 32 :=
  shapeCast S1600000 (extractStridedSlice S1x1600000 off A hs) shapeCasts_S1x1600000_S1600000

/-- jnp's reading of a possibly negative index into an axis of extent `n`, edge by edge: `v + n` where `v < 0`. -/
def wrapV (n : BitVec 32) (v : IVec S1600000 32) : IVec S1600000 32 :=
  select (cmpi .slt v (broadcastInDim S1600000 ![] bcast_S_S1600000 (constantI S_ 32 0#32)))
    (addi v (broadcastInDim S1600000 ![] bcast_S_S1600000 (constantI S_ 32 n))) v

/-- A vector over the edges as a column `[E, 1]`. -/
def col {α : Type} (v : S1600000.Idx → α) : S1600000x1.Idx → α :=
  broadcastInDim S1600000x1 ![0] bcast_S1600000_S1600000x1_0 v

/-- One attention vector `[64, 1]`: the slice of `a` at offsets `off`, reshaped. -/
def attVec (off : Fin 4 → ℕ) (hs : S2x2x64x1.Slices off S1x1x64x1) (a : FVec F S2x2x64x1 .f32) : FVec F S64x1 .f32 :=
  shapeCast S64x1 (extractStridedSlice S1x1x64x1 off a hs) shapeCasts_S1x1x64x1_S64x1

/-- `leaky_relu x s`: `x` where `x ≥ 0`, else `s · x`, edge by edge. -/
def leakyV (x : FVec F S1600000 .f32) (s : FVec F S_ .f32) : FVec F S1600000 .f32 :=
  select (cmpf .oge x (broadcastInDim S1600000 ![] bcast_S_S1600000 (constant S_ .f32 0x00000000#32)))
    x (mulf (broadcastInDim S1600000 ![] bcast_S_S1600000 s) x)

/-- A head's scores: the source rows against `a0` plus the relation rows against `a1`, as a vector. -/
def scoreV (src rel : FVec F S1600000x64 .f32) (a0 a1 : FVec F S64x1 .f32) : FVec F S1600000 .f32 :=
  shapeCast S1600000
    (addf (Host.dotGeneral dot_S1600000x64_S64x1_S1600000x1_1_0_0_1_n_n none src a0)
      (Host.dotGeneral dot_S1600000x64_S64x1_S1600000x1_1_0_0_1_n_n none rel a1))
    shapeCasts_S1600000x1_S1600000

/-- A head's attention weights: `exp (-leaky_relu score)` at slope 0.2. -/
def attV (src rel : FVec F S1600000x64 .f32) (a0 a1 : FVec F S64x1 .f32) : FVec F S1600000 .f32 :=
  Host.exp (Host.negf (leakyV (scoreV src rel a0 a1) (constant S_ .f32 0x3E4CCCCD#32)))

/-- The weights summed over the destination, from zero. -/
def denV (dst : IVec S1600000 32) (att : FVec F S1600000 .f32) : FVec F S50000 .f32 :=
  Host.scatterAdd scatter_S50000_S1600000x1_S1600000_n_0_0_1
    (broadcastInDim S50000 ![] bcast_S_S50000 (constant S_ .f32 0x00000000#32)) (col dst) att

/-- The messages `(source - relation) · weight` summed over the destination, from zero. -/
def numV (src rel : FVec F S1600000x64 .f32) (dst : IVec S1600000 32) (att : FVec F S1600000 .f32) : FVec F S50000x64 .f32 :=
  Host.scatterAdd scatter_S50000x64_S1600000x1_S1600000x64_1_0_0_1
    (broadcastInDim S50000x64 ![] bcast_S_S50000x64 (constant S_ .f32 0x00000000#32)) (col dst)
    (mulf (subf src rel) (broadcastInDim S1600000x64 ![0, 1] bcast_S1600000x1_S1600000x64_0_1 (col att)))

/-- One head's result `[50000, 64]`: summed messages over summed weights. -/
def headOut (src rel : FVec F S1600000x64 .f32) (dst : IVec S1600000 32) (a0 a1 : FVec F S64x1 .f32) : FVec F S50000x64 .f32 :=
  Host.divf (numV src rel dst (attV src rel a0 a1))
    (broadcastInDim S50000x64 ![0, 1] bcast_S50000x1_S50000x64_0_1
      (broadcastInDim S50000x1 ![0] bcast_S50000_S50000x1_0 (denV dst (attV src rel a0 a1))))

/-- The node table rescaled columnwise by `w` (head 1's table). -/
def scaled (h : FVec F S50000x64 .f32) (w : FVec F S1x1x64 .f32) : FVec F S50000x64 .f32 :=
  mulf h (broadcastInDim S50000x64 ![0, 1] bcast_S1x64_S50000x64_0_1 (shapeCast S1x64 w shapeCasts_S1x1x64_S1x64))

/-- The rows of a node table `x` at the edges' (wrapped) source indices. -/
def srcRows (x : FVec F S50000x64 .f32) (A : IVec S3x1600000 32) : FVec F S1600000x64 .f32 :=
  Host.gather gather_S50000x64_S1600000x1_S1600000x64_1_0_n_n_0_1_164 x
    (col (wrapV 50000#32 (edgeRow ![2, 0] slices_S3x1600000_S1x1600000_2_0 A)))

/-- The rows of the relation table at the edges' (wrapped) relation indices. -/
def relRows (r : FVec F S1000x64 .f32) (A : IVec S3x1600000 32) : FVec F S1600000x64 .f32 :=
  Host.gather gather_S1000x64_S1600000x1_S1600000x64_1_0_n_n_0_1_164 r
    (col (wrapV 1000#32 (edgeRow ![1, 0] slices_S3x1600000_S1x1600000_1_0 A)))

/-- Head 0's result: the node table as it is, the attention vectors `a[0, 0]` and `a[0, 1]`. -/
def head0 (h : FVec F S50000x64 .f32) (r : FVec F S1000x64 .f32) (A : IVec S3x1600000 32) (a : FVec F S2x2x64x1 .f32) :
    FVec F S50000x64 .f32 :=
  headOut (srcRows h A) (relRows r A) (edgeRow ![0, 0] slices_S3x1600000_S1x1600000_0_0 A)
    (attVec ![0, 0, 0, 0] slices_S2x2x64x1_S1x1x64x1_0_0_0_0 a) (attVec ![0, 1, 0, 0] slices_S2x2x64x1_S1x1x64x1_0_1_0_0 a)

/-- Head 1's result: the node table rescaled by `w`, the attention vectors `a[1, 0]` and `a[1, 1]`. -/
def head1 (h : FVec F S50000x64 .f32) (r : FVec F S1000x64 .f32) (A : IVec S3x1600000 32) (w : FVec F S1x1x64 .f32)
    (a : FVec F S2x2x64x1 .f32) : FVec F S50000x64 .f32 :=
  headOut (srcRows (scaled h w) A) (relRows r A) (edgeRow ![0, 0] slices_S3x1600000_S1x1600000_0_0 A)
    (attVec ![1, 0, 0, 0] slices_S2x2x64x1_S1x1x64x1_1_0_0_0 a) (attVec ![1, 1, 0, 0] slices_S2x2x64x1_S1x1x64x1_1_1_0_0 a)

/-- The reference's result: the two heads' results, each under a leading axis of extent 1, concatenated along it. -/
def refOut (h : FVec F S50000x64 .f32) (r : FVec F S1000x64 .f32) (A : IVec S3x1600000 32) (w : FVec F S1x1x64 .f32)
    (a : FVec F S2x2x64x1 .f32) : FVec F S2x50000x64 .f32 :=
  concatenate S2x50000x64 0
    [⟨S1x50000x64, broadcastInDim S1x50000x64 ![1, 2] bcast_S50000x64_S1x50000x64_1_2 (head0 h r A a)⟩,
     ⟨S1x50000x64, broadcastInDim S1x50000x64 ![1, 2] bcast_S50000x64_S1x50000x64_1_2 (head1 h r A w a)⟩]
    concatenates_S1x50000x64_S1x50000x64_S2x50000x64_d0

end Cert.RefSide

end
-- ==== Proof.RefFold0.lean ====
/-
  The first part of the reference's line, folded: what it leaves at the five argument buffers (their launch
  contents: no operation writes them) and at the buffers that the second part and the result read — the three index
  vectors, head 0's result, the node table rescaled by `w`, and the test and the sum of head 1's index wrap. Each is
  the fold unrolled once, every operation's result read at its own buffer and passed over at any other; what is
  left is the stage functions of the term, unfolded.
-/
import proofs.«412317_j52716428591538_3_alg».proof.Proof.RefRun
import proofs.«412317_j52716428591538_3_alg».proof.Proof.RefTerm

noncomputable section

namespace Cert.RefSide

open Cert.ReferenceIdeal Cert.ReferenceIdeal.Gen Idealize.ShloMosaic Idealize.ShloMosaic.TcCoe Idealize.SL.Sem
open Idealize.ShloMosaic.StableHlo

variable {F : FTy → Type} [FloatOps F]

/-- Two lines folded one after the other are their concatenation folded. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih _

/-! ## The first part: what it leaves at the buffers the second part and the result read -/

section Part0

variable (V : Valuation τ sig (Elt F))

set_option maxRecDepth 8192 in
set_option maxHeartbeats 4000000 in
theorem p0_arg0 : after ops0 V (main_arg0 : DevRef τ sig) = V (main_arg0 : DevRef τ sig) := by
  simp only [ops0]
  after_results_simp

set_option maxRecDepth 8192 in
set_option maxHeartbeats 4000000 in
theorem p0_arg1 : after ops0 V (main_arg1 : DevRef τ sig) = V (main_arg1 : DevRef τ sig) := by
  simp only [ops0]
  after_results_simp

set_option maxRecDepth 8192 in
set_option maxHeartbeats 4000000 in
theorem p0_arg2 : after ops0 V (main_arg2 : DevRef τ sig) = V (main_arg2 : DevRef τ sig) := by
  simp only [ops0]
  after_results_simp

set_option maxRecDepth 8192 in
set_option maxHeartbeats 4000000 in
theorem p0_arg3 : after ops0 V (main_arg3 : DevRef τ sig) = V (main_arg3 : DevRef τ sig) := by
  simp only [ops0]
  after_results_simp

set_option maxRecDepth 8192 in
set_option maxHeartbeats 4000000 in
theorem p0_arg4 : after ops0 V (main_arg4 : DevRef τ sig) = V (main_arg4 : DevRef τ sig) := by
  simp only [ops0]
  after_results_simp

set_option maxRecDepth 8192 in
set_option maxHeartbeats 4000000 in
/-- The destination indices. -/
theorem p0_v1 : after ops0 V (main_v1 : DevRef τ sig)
    = edgeRow ![0, 0] slices_S3x1600000_S1x1600000_0_0 (V (main_arg2 : DevRef τ sig)) := by
  simp only [ops0]
  after_results_simp
  rfl

set_option maxRecDepth 8192 in
set_option maxHeartbeats 4000000 in
/-- The relation indices. -/
theorem p0_v3 : after ops0 V (main_v3 : DevRef τ sig)
    = edgeRow ![1, 0] slices_S3x1600000_S1x1600000_1_0 (V (main_arg2 : DevRef τ sig)) := by
  simp only [ops0]
  after_results_simp
  rfl

set_option maxRecDepth 8192 in
set_option maxHeartbeats 4000000 in
/-- The source indices. -/
theorem p0_v5 : after ops0 V (main_v5 : DevRef τ sig)
    = edgeRow ![2, 0] slices_S3x1600000_S1x1600000_2_0 (V (main_arg2 : DevRef τ sig)) := by
  simp only [ops0]
  after_results_simp
  rfl

set_option maxRecDepth 8192 in
set_option maxHeartbeats 4000000 in
/-- Head 0's result. -/
theorem p0_v43 : after ops0 V (main_v43 : DevRef τ sig)
    = head0 (V (main_arg0 : DevRef τ sig)) (V (main_arg1 : DevRef τ sig)) (V (main_arg2 : DevRef τ sig))
        (V (main_arg4 : DevRef τ sig)) := by
  simp only [ops0]
  after_results_simp
  simp only [TRef.ofBuf, TRef.toBuf, cast_eq]
  rfl

set_option maxRecDepth 8192 in
set_option maxHeartbeats 4000000 in
/-- The node table rescaled by `w`. -/
theorem p0_v46 : after ops0 V (main_v46 : DevRef τ sig)
    = scaled (V (main_arg0 : DevRef τ sig)) (V (main_arg3 : DevRef τ sig)) := by
  simp only [ops0]
  after_results_simp
  rfl

set_option maxRecDepth 8192 in
set_option maxHeartbeats 4000000 in
/-- Head 1's test `source index < 0`. -/
theorem p0_v48 : after ops0 V (main_v48 : DevRef τ sig)
    = cmpi .slt (edgeRow ![2, 0] slices_S3x1600000_S1x1600000_2_0 (V (main_arg2 : DevRef τ sig)))
        (broadcastInDim S1600000 ![] bcast_S_S1600000 (constantI S_ 32 0#32)) := by
  simp only [ops0]
  after_results_simp
  rfl

set_option maxRecDepth 8192 in
set_option maxHeartbeats 4000000 in
/-- Head 1's `source index + 50000`. -/
theorem p0_v50 : after ops0 V (main_v50 : DevRef τ sig)
    = addi (edgeRow ![2, 0] slices_S3x1600000_S1x1600000_2_0 (V (main_arg2 : DevRef τ sig)))
        (broadcastInDim S1600000 ![] bcast_S_S1600000 (constantI S_ 32 50000#32)) := by
  simp only [ops0]
  after_results_simp
  rfl

end Part0

end Cert.RefSide

end
-- ==== Proof.RefFold.lean ====
/-
  The reference's whole line, folded. The second part's operations leave the argument buffers alone and put at the
  result buffer the concatenation of head 0's result, as the first part left it, and head 1's, computed from what the
  first part left at the index vectors, the rescaled table and the index wrap's test and sum. With the first part's
  facts the result buffer after @main is `refOut` of the five arguments' launch contents, and the argument buffers
  hold what they held.
-/
import proofs.«412317_j52716428591538_3_alg».proof.Proof.RefFold0

noncomputable section

namespace Cert.RefSide

open Cert.ReferenceIdeal Cert.ReferenceIdeal.Gen Idealize.ShloMosaic Idealize.ShloMosaic.TcCoe Idealize.SL.Sem
open Idealize.ShloMosaic.StableHlo

variable {F : FTy → Type} [FloatOps F]

/-- A concatenation of two pieces is decided by the pieces. -/
theorem concat2_congr {α : Type} {x x' y y' : S1x50000x64.Idx → α} (hx : x = x') (hy : y = y') :
    concatenate S2x50000x64 0 [⟨S1x50000x64, x⟩, ⟨S1x50000x64, y⟩] concatenates_S1x50000x64_S1x50000x64_S2x50000x64_d0
      = concatenate S2x50000x64 0 [⟨S1x50000x64, x'⟩, ⟨S1x50000x64, y'⟩]
          concatenates_S1x50000x64_S1x50000x64_S2x50000x64_d0 := by
  subst hx; subst hy; rfl

/-! ## The second part: the result from what the first part left -/

section Part1

variable (W : Valuation τ sig (Elt F))

set_option maxRecDepth 8192 in
set_option maxHeartbeats 4000000 in
theorem p1_arg0 : after ops1 W (main_arg0 : DevRef τ sig) = W (main_arg0 : DevRef τ sig) := by
  simp only [ops1]
  after_results_simp

set_option maxRecDepth 8192 in
set_option maxHeartbeats 4000000 in
theorem p1_arg1 : after ops1 W (main_arg1 : DevRef τ sig) = W (main_arg1 : DevRef τ sig) := by
  simp only [ops1]
  after_results_simp

set_option maxRecDepth 8192 in
set_option maxHeartbeats 4000000 in
theorem p1_arg2 : after ops1 W (main_arg2 : DevRef τ sig) = W (main_arg2 : DevRef τ sig) := by
  simp only [ops1]
  after_results_simp

set_option maxRecDepth 8192 in
set_option maxHeartbeats 4000000 in
theorem p1_arg3 : after ops1 W (main_arg3 : DevRef τ sig) = W (main_arg3 : DevRef τ sig) := by
  simp only [ops1]
  after_results_simp

set_option maxRecDepth 8192 in
set_option maxHeartbeats 4000000 in
theorem p1_arg4 : after ops1 W (main_arg4 : DevRef τ sig) = W (main_arg4 : DevRef τ sig) := by
  simp only [ops1]
  after_results_simp

/-- Head 1's result from what the first part left: the rescaled table gathered at the wrapped source indices
    (the test and the sum come from the first part), the relation rows, the destination indices, `a[1, 0]` and
    `a[1, 1]`. -/
def head1From (W : Valuation τ sig (Elt F)) : FVec F S50000x64 .f32 :=
  headOut
    (Host.gather gather_S50000x64_S1600000x1_S1600000x64_1_0_n_n_0_1_164 (W (main_v46 : DevRef τ sig))
      (col (select (W (main_v48 : DevRef τ sig)) (W (main_v50 : DevRef τ sig)) (W (main_v5 : DevRef τ sig)))))
    (Host.gather gather_S1000x64_S1600000x1_S1600000x64_1_0_n_n_0_1_164 (W (main_arg1 : DevRef τ sig))
      (col (wrapV 1000#32 (W (main_v3 : DevRef τ sig)))))
    (W (main_v1 : DevRef τ sig))
    (attVec ![1, 0, 0, 0] slices_S2x2x64x1_S1x1x64x1_1_0_0_0 (W (main_arg4 : DevRef τ sig)))
    (attVec ![1, 1, 0, 0] slices_S2x2x64x1_S1x1x64x1_1_1_0_0 (W (main_arg4 : DevRef τ sig)))

set_option maxRecDepth 8192 in
set_option maxHeartbeats 4000000 in
/-- The result buffer after the second part: head 0's result as the first part left it and head 1's, each under a
    leading axis of extent 1, concatenated. The last operation is read first; its two operands are then two folds of
    their own. -/
theorem p1_v87 : after ops1 W (main_v87 : DevRef τ sig)
    = concatenate S2x50000x64 0
        [⟨S1x50000x64, broadcastInDim S1x50000x64 ![1, 2] bcast_S50000x64_S1x50000x64_1_2 (W (main_v43 : DevRef τ sig))⟩,
         ⟨S1x50000x64, broadcastInDim S1x50000x64 ![1, 2] bcast_S50000x64_S1x50000x64_1_2 (head1From W)⟩]
        concatenates_S1x50000x64_S1x50000x64_S2x50000x64_d0 := by
  simp only [ops1, after_cons, after_nil]
  rw [binary_result]
  refine concat2_congr ?_ ?_
  · after_results_simp
  · after_results_simp
    simp only [TRef.ofBuf, TRef.toBuf, cast_eq]
    rfl

end Part1

/-! ## The whole line -/

section Whole

variable (V : Valuation τ sig (Elt F))

/-- The result buffer after @main: `refOut` of the five arguments' contents. -/
theorem out_eq : after ops V (main_v87 : DevRef τ sig)
    = refOut (V (main_arg0 : DevRef τ sig)) (V (main_arg1 : DevRef τ sig)) (V (main_arg2 : DevRef τ sig))
        (V (main_arg3 : DevRef τ sig)) (V (main_arg4 : DevRef τ sig)) := by
  rw [show (ops : List (HloOp τ sig (Elt F))) = ops0 ++ ops1 from rfl, after_app, p1_v87]
  unfold head1From
  rw [p0_v43, p0_v46, p0_v48, p0_v50, p0_v5, p0_v3, p0_v1, p0_arg1, p0_arg4]
  rfl

theorem arg0_eq : after ops V (main_arg0 : DevRef τ sig) = V (main_arg0 : DevRef τ sig) := by
  rw [show (ops : List (HloOp τ sig (Elt F))) = ops0 ++ ops1 from rfl, after_app, p1_arg0, p0_arg0]
theorem arg1_eq : after ops V (main_arg1 : DevRef τ sig) = V (main_arg1 : DevRef τ sig) := by
  rw [show (ops : List (HloOp τ sig (Elt F))) = ops0 ++ ops1 from rfl, after_app, p1_arg1, p0_arg1]
theorem arg2_eq : after ops V (main_arg2 : DevRef τ sig) = V (main_arg2 : DevRef τ sig) := by
  rw [show (ops : List (HloOp τ sig (Elt F))) = ops0 ++ ops1 from rfl, after_app, p1_arg2, p0_arg2]
theorem arg3_eq : after ops V (main_arg3 : DevRef τ sig) = V (main_arg3 : DevRef τ sig) := by
  rw [show (ops : List (HloOp τ sig (Elt F))) = ops0 ++ ops1 from rfl, after_app, p1_arg3, p0_arg3]
theorem arg4_eq : after ops V (main_arg4 : DevRef τ sig) = V (main_arg4 : DevRef τ sig) := by
  rw [show (ops : List (HloOp τ sig (Elt F))) = ops0 ++ ops1 from rfl, after_app, p1_arg4, p0_arg4]

end Whole

end Cert.RefSide

end
-- ==== Proof.RefValue.lean ====
/-
  The reference's result, read at an index, is the specification.

  Stage by stage, at explicit coordinates: a row of the edge table as a vector over the edges; the wrapped index
  column; the two row gathers; the attention vectors sliced out of `a`; a head's scores, weights, summed weights
  and summed messages; a head's quotient; and the concatenation of the two heads along the leading axis.
-/
import proofs.«412317_j52716428591538_3_alg».proof.Proof.RefTerm
import proofs.«412317_j52716428591538_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.RefSide

open Cert.ReferenceIdeal Cert.ReferenceIdeal.Gen Idealize.ShloMosaic Idealize.ShloMosaic.ValueIdx
open scoped BigOperators

/-! ## The index vectors -/

/-- Row `row` of the edge table, sliced out and reshaped to a vector, at edge `e`. -/
theorem edgeRow_apply (off : Fin 2 → ℕ) (hs : S3x1600000.Slices off S1x1600000) (A : IVec S3x1600000 32)
    (row : Fin 3) (h0 : off 0 = row.val) (h1 : off 1 = 0) (e : Fin 1600000) :
    edgeRow off hs A (ix1 e) = A (ix2 row e) := by
  unfold edgeRow
  refine (shapeCast_apply _ _ (ix1 e) (ix2 0 e) ?_).trans ?_
  · rw [Shape.rowMajor_val_two, Shape.rowMajor_val_one]
    show 0 * 1600000 + e.val = e.val
    omega
  · refine extractStridedSlice_apply _ _ _ (ix2 0 e) (ix2 row e) fun a => ?_
    match a with
    | ⟨0, _⟩ => show row.val = off 0 + 0; omega
    | ⟨1, _⟩ => show e.val = off 1 + e.val; omega

/-- The wrapped vector at an index: the scalar wrap of the entry. -/
theorem wrapV_apply (n : BitVec 32) (v : IVec S1600000 32) (i : S1600000.Idx) :
    wrapV n v i = RowOps.wrap n (v i) := rfl

/-- A vector over the edges as a column, at `(e, 0)`. -/
theorem col_apply {α : Type} (v : S1600000.Idx → α) (e : Fin 1600000) : col v (ix2 e 0) = v (ix1 e) :=
  broadcastInDim_apply _ _ v (ix2 e 0) (ix1 e) fun a => by
    match a with
    | ⟨0, _⟩ => rfl

/-! ## The two row gathers -/

/-- The gathered node rows at `(e, k)`: the table's row at the wrapped, clamped source index of edge `e`. -/
theorem srcRows_apply (x : FVec Ideal S50000x64 .f32) (A : IVec S3x1600000 32) (e : Fin 1600000) (k : Fin 64) :
    srcRows x A (ix2 e k) = x (ix2 (Cert.EdgeAttn.srcRow A e) k) := by
  show Host.gather (RowOps.rowGather 50000 1600000 64 gather_S50000x64_S1600000x1_S1600000x64_1_0_n_n_0_1_164_wf) x _ (ix2 e k) = _
  rw [RowOps.gather_rows_apply (by decide), col_apply, wrapV_apply,
    edgeRow_apply _ _ A 2 rfl rfl]
  rfl

/-- The gathered relation rows at `(e, k)`. -/
theorem relRows_apply (r : FVec Ideal S1000x64 .f32) (A : IVec S3x1600000 32) (e : Fin 1600000) (k : Fin 64) :
    relRows r A (ix2 e k) = Cert.EdgeAttn.relAt r A e k := by
  show Host.gather (RowOps.rowGather 1000 1600000 64 gather_S1000x64_S1600000x1_S1600000x64_1_0_n_n_0_1_164_wf) r _ (ix2 e k) = _
  rw [RowOps.gather_rows_apply (by decide), col_apply, wrapV_apply,
    edgeRow_apply _ _ A 1 rfl rfl]
  rfl

/-! ## The attention vectors -/

/-- The slice of `a` at head `i`, part `p`, reshaped to `[64, 1]`, at `(k, 0)`. -/
theorem attVec_apply (off : Fin 4 → ℕ) (hs : S2x2x64x1.Slices off S1x1x64x1) (a : FVec Ideal S2x2x64x1 .f32)
    (i p : Fin 2) (h0 : off 0 = i.val) (h1 : off 1 = p.val) (h2 : off 2 = 0) (h3 : off 3 = 0) (k : Fin 64) :
    attVec off hs a (ix2 k 0) = a (ix4 i p k 0) := by
  unfold attVec
  refine (shapeCast_apply _ _ (ix2 k 0) (ix4 0 0 k 0) ?_).trans ?_
  · rw [Shape.rowMajor_val_four, Shape.rowMajor_val_two]
    show ((0 * 1 + 0) * 64 + k.val) * 1 + 0 = k.val * 1 + 0
    omega
  · refine extractStridedSlice_apply _ _ _ (ix4 0 0 k 0) (ix4 i p k 0) fun b => ?_
    match b with
    | ⟨0, _⟩ => show i.val = off 0 + 0; omega
    | ⟨1, _⟩ => show p.val = off 1 + 0; omega
    | ⟨2, _⟩ => show k.val = off 2 + k.val; omega
    | ⟨3, _⟩ => show 0 = off 3 + 0; omega

/-! ## The host's pointwise and accumulating operations on the extended reals -/

theorem hostDivf_apply {s : Shape} (x y : FVec Ideal s .f32) (i : s.Idx) : Host.divf x y i = Ideal.div (x i) (y i) := rfl
theorem hostExp_apply {s : Shape} (x : FVec Ideal s .f32) (i : s.Idx) : Host.exp x i = Ideal.exp (x i) := rfl
theorem hostNegf_apply {s : Shape} (x : FVec Ideal s .f32) (i : s.Idx) : Host.negf x i = -(x i) := rfl
theorem hostScatterAdd_eq {s si u : Shape} {w : ℕ} (d : ScatterDims s si u) (x : FVec Ideal s .f32) (idx : IVec si w)
    (upd : FVec Ideal u .f32) : Host.scatterAdd d x idx upd = Ideal.hostScatterAdd d x idx upd := rfl

/-- The zero splat over any shape, at any index: the f32 zero word. -/
theorem zeroSplat_apply {t : Shape} (dims : Fin S_.rank → Fin t.rank) (hb : S_.BroadcastsInDim t dims) (i : t.Idx) :
    broadcastInDim t dims hb (constant (F := Ideal) S_ .f32 0x00000000#32) i = Cert.EdgeAttn.zero32 := rfl

/-- The program's two scatter records are the row scatter and the vector scatter. -/
theorem scatterVec_eq : scatter_S50000_S1600000x1_S1600000_n_0_0_1
    = RowOps.vecScatter 50000 1600000 scatter_S50000_S1600000x1_S1600000_n_0_0_1_wf := rfl
theorem scatterRows_eq : scatter_S50000x64_S1600000x1_S1600000x64_1_0_0_1
    = RowOps.rowScatter 50000 1600000 64 scatter_S50000x64_S1600000x1_S1600000x64_1_0_0_1_wf := rfl

/-- A segment sum depends on its index words and its summands entry by entry. -/
theorem edgeSum_congr {E w : ℕ} {d d' : Fin E → BitVec w} {g g' : Fin E → EReal} (n : ℕ)
    (hd : ∀ e, d e = d' e) (hg : ∀ e, g e = g' e) : RowOps.edgeSum d n g = RowOps.edgeSum d' n g' := by
  rw [show d = d' from funext hd, show g = g' from funext hg]

/-! ## The dot product with an attention vector, at an edge -/

theorem dotR_lhs_0 (j : S1600000x1.Idx) (k : dot_S1600000x64_S64x1_S1600000x1_1_0_0_1_n_n.contr.Idx) :
    (dot_S1600000x64_S64x1_S1600000x1_1_0_0_1_n_n.lhsIdx j k 0).val = (j 0).val := rfl
theorem dotR_lhs_1 (j : S1600000x1.Idx) (k : dot_S1600000x64_S64x1_S1600000x1_1_0_0_1_n_n.contr.Idx) :
    (dot_S1600000x64_S64x1_S1600000x1_1_0_0_1_n_n.lhsIdx j k 1).val = (k ⟨0, by decide⟩).val :=
  dot_S1600000x64_S64x1_S1600000x1_1_0_0_1_n_n.lhsIdx_val_of_single rfl j k
theorem dotR_rhs_0 (j : S1600000x1.Idx) (k : dot_S1600000x64_S64x1_S1600000x1_1_0_0_1_n_n.contr.Idx) :
    (dot_S1600000x64_S64x1_S1600000x1_1_0_0_1_n_n.rhsIdx j k 0).val = (k ⟨0, by decide⟩).val :=
  dot_S1600000x64_S64x1_S1600000x1_1_0_0_1_n_n.rhsIdx_val_of_single rfl j k
theorem dotR_rhs_1 (j : S1600000x1.Idx) (k : dot_S1600000x64_S64x1_S1600000x1_1_0_0_1_n_n.contr.Idx) :
    (dot_S1600000x64_S64x1_S1600000x1_1_0_0_1_n_n.rhsIdx j k 1).val = (j 1).val := rfl

/-- A `[1600000, 64] × [64, 1]` product at edge `e`: the sum over the 64 columns. -/
theorem dotR_at (lhs : FVec Ideal S1600000x64 .f32) (rhs : FVec Ideal S64x1 .f32) (e : Fin 1600000) :
    Host.dotGeneral dot_S1600000x64_S64x1_S1600000x1_1_0_0_1_n_n none lhs rhs (ix2 e 0)
      = ∑ k : Fin 64, lhs (ix2 e k) * rhs (ix2 k 0) := by
  simp only [Host.dotGeneral]
  rw [Ideal.dotGeneral_apply,
    ← Equiv.sum_comp (contrEquiv1 dot_S1600000x64_S64x1_S1600000x1_1_0_0_1_n_n 64 rfl rfl).symm]
  refine Finset.sum_congr rfl fun k _ => ?_
  have hk := contrEquiv1_symm_val dot_S1600000x64_S64x1_S1600000x1_1_0_0_1_n_n 64 rfl rfl k
  congr 2
  · funext b
    refine Fin.ext ?_
    match b with
    | ⟨0, _⟩ => exact dotR_lhs_0 _ _
    | ⟨1, _⟩ => exact (dotR_lhs_1 _ _).trans hk
  · funext b
    refine Fin.ext ?_
    match b with
    | ⟨0, _⟩ => exact (dotR_rhs_0 _ _).trans hk
    | ⟨1, _⟩ => exact dotR_rhs_1 _ _

/-! ## A head's scores and weights -/

/-- A head's score of edge `e`: the two dot products added. -/
theorem scoreV_apply (src rel : FVec Ideal S1600000x64 .f32) (a0 a1 : FVec Ideal S64x1 .f32) (e : Fin 1600000) :
    scoreV src rel a0 a1 (ix1 e)
      = (∑ k : Fin 64, src (ix2 e k) * a0 (ix2 k 0)) + ∑ k : Fin 64, rel (ix2 e k) * a1 (ix2 k 0) := by
  unfold scoreV
  refine (shapeCast_apply _ _ (ix1 e) (ix2 e 0) ?_).trans ?_
  · rw [Shape.rowMajor_val_two, Shape.rowMajor_val_one]
    show e.val * 1 + 0 = e.val
    omega
  · rw [addf_apply, dotR_at, dotR_at]

/-- `leaky_relu` at slope 0.2, entry by entry. -/
theorem leakyV_apply (x : FVec Ideal S1600000 .f32) (i : S1600000.Idx) :
    leakyV x (constant S_ .f32 0x3E4CCCCD#32) i = Cert.EdgeAttn.leaky (x i) := rfl

/-- A head's weight of edge `e`: `exp (-leaky score)`. -/
theorem attV_apply (src rel : FVec Ideal S1600000x64 .f32) (a0 a1 : FVec Ideal S64x1 .f32) (i : S1600000.Idx) :
    attV src rel a0 a1 i = Ideal.exp (-(Cert.EdgeAttn.leaky (scoreV src rel a0 a1 i))) := by
  unfold attV
  rw [hostExp_apply, hostNegf_apply, leakyV_apply]

/-! ## The two segment sums and their quotient -/

/-- The summed weights at node `n`. -/
theorem denV_apply (dst : IVec S1600000 32) (att : FVec Ideal S1600000 .f32) (n : Fin 50000) :
    denV dst att (ix1 n)
      = Cert.EdgeAttn.zero32 + RowOps.edgeSum (fun e => dst (ix1 e)) n.val (fun e => att (ix1 e)) := by
  unfold denV
  rw [hostScatterAdd_eq, scatterVec_eq, RowOps.scatterAdd_vec_apply, zeroSplat_apply]
  exact congrArg (Cert.EdgeAttn.zero32 + ·) (edgeSum_congr n.val (fun e => col_apply dst e) fun _ => rfl)

/-- The weight column broadcast along the 64 columns, at `(e, f)`: edge `e`'s weight. -/
theorem attBcast_apply (att : FVec Ideal S1600000 .f32) (e : Fin 1600000) (f : Fin 64) :
    broadcastInDim S1600000x64 ![0, 1] bcast_S1600000x1_S1600000x64_0_1 (col att) (ix2 e f) = att (ix1 e) :=
  (broadcastInDim_apply _ _ (col att) (ix2 e f) (ix2 e 0) fun b => by
    match b with
    | ⟨0, _⟩ => rfl
    | ⟨1, _⟩ => rfl).trans (col_apply att e)

/-- The summed messages at node `n`, column `f`. -/
theorem numV_apply (src rel : FVec Ideal S1600000x64 .f32) (dst : IVec S1600000 32) (att : FVec Ideal S1600000 .f32)
    (n : Fin 50000) (f : Fin 64) :
    numV src rel dst att (ix2 n f)
      = Cert.EdgeAttn.zero32
        + RowOps.edgeSum (fun e => dst (ix1 e)) n.val (fun e => (src (ix2 e f) - rel (ix2 e f)) * att (ix1 e)) := by
  unfold numV
  rw [hostScatterAdd_eq, scatterRows_eq, RowOps.scatterAdd_rows_apply, zeroSplat_apply]
  refine congrArg (Cert.EdgeAttn.zero32 + ·) (edgeSum_congr n.val (fun e => col_apply dst e) fun e => ?_)
  rw [mulf_apply, subf_apply, attBcast_apply]

/-- The summed weights broadcast along the 64 columns, at `(n, f)`: node `n`'s sum. -/
theorem denBcast_apply (den : FVec Ideal S50000 .f32) (n : Fin 50000) (f : Fin 64) :
    broadcastInDim S50000x64 ![0, 1] bcast_S50000x1_S50000x64_0_1
      (broadcastInDim S50000x1 ![0] bcast_S50000_S50000x1_0 den) (ix2 n f) = den (ix1 n) :=
  (broadcastInDim_apply _ _ _ (ix2 n f) (ix2 n 0) fun b => by
    match b with
    | ⟨0, _⟩ => rfl
    | ⟨1, _⟩ => rfl).trans
  (broadcastInDim_apply _ _ den (ix2 n 0) (ix1 n) fun b => by
    match b with
    | ⟨0, _⟩ => rfl)

/-- One head's result at node `n`, column `f`: summed messages over summed weights. -/
theorem headOut_apply (src rel : FVec Ideal S1600000x64 .f32) (dst : IVec S1600000 32) (a0 a1 : FVec Ideal S64x1 .f32)
    (n : Fin 50000) (f : Fin 64) :
    headOut src rel dst a0 a1 (ix2 n f)
      = Ideal.div (numV src rel dst (attV src rel a0 a1) (ix2 n f)) (denV dst (attV src rel a0 a1) (ix1 n)) := by
  unfold headOut
  rw [hostDivf_apply, denBcast_apply]

/-! ## A head's result is the specification's -/

/-- Once a head's operands read as the specification's rows, its result at `(n, f)` is the specification's. -/
theorem headOut_eq_outAt (h : FVec Ideal S50000x64 .f32) (r : FVec Ideal S1000x64 .f32) (A : IVec S3x1600000 32)
    (w : FVec Ideal S1x1x64 .f32) (a : FVec Ideal S2x2x64x1 .f32) (i : Fin 2)
    (src rel : FVec Ideal S1600000x64 .f32) (dst : IVec S1600000 32) (a0 a1 : FVec Ideal S64x1 .f32)
    (hsrc : ∀ e k, src (ix2 e k) = Cert.EdgeAttn.srcAt h A w i e k)
    (hrel : ∀ e k, rel (ix2 e k) = Cert.EdgeAttn.relAt r A e k)
    (hdst : ∀ e, dst (ix1 e) = A (ix2 0 e))
    (ha0 : ∀ k, a0 (ix2 k 0) = a (ix4 i 0 k 0)) (ha1 : ∀ k, a1 (ix2 k 0) = a (ix4 i 1 k 0))
    (n : Fin 50000) (f : Fin 64) :
    headOut src rel dst a0 a1 (ix2 n f) = Cert.EdgeAttn.outAt h r A w a i n f := by
  have hscore : ∀ e : Fin 1600000, scoreV src rel a0 a1 (ix1 e) = Cert.EdgeAttn.score h r A w a i e := fun e => by
    rw [scoreV_apply]
    unfold Cert.EdgeAttn.score
    exact congrArg₂ (· + ·)
      (Finset.sum_congr rfl fun k _ => by rw [hsrc, ha0])
      (Finset.sum_congr rfl fun k _ => by rw [hrel, ha1])
  have hatt : ∀ e : Fin 1600000, attV src rel a0 a1 (ix1 e) = Cert.EdgeAttn.att h r A w a i e := fun e => by
    rw [attV_apply, hscore]
    rfl
  rw [headOut_apply, numV_apply, denV_apply]
  unfold Cert.EdgeAttn.outAt
  refine congrArg₂ Ideal.div
    (congrArg (Cert.EdgeAttn.zero32 + ·) (edgeSum_congr n.val hdst fun e => ?_))
    (congrArg (Cert.EdgeAttn.zero32 + ·) (edgeSum_congr n.val hdst hatt))
  rw [hsrc, hrel, hatt]
  rfl

/-! ## The two heads -/

/-- The node table rescaled columnwise by `w`, at `(row, k)`. -/
theorem scaled_apply (h : FVec Ideal S50000x64 .f32) (w : FVec Ideal S1x1x64 .f32) (row : Fin 50000) (k : Fin 64) :
    scaled h w (ix2 row k) = h (ix2 row k) * w (ix3 0 0 k) := by
  unfold scaled
  rw [mulf_apply]
  refine congrArg (h (ix2 row k) * ·) ?_
  refine (broadcastInDim_apply _ _ _ (ix2 row k) (ix2 0 k) fun b => by
    match b with
    | ⟨0, _⟩ => rfl
    | ⟨1, _⟩ => rfl).trans ?_
  refine shapeCast_apply _ _ (ix2 0 k) (ix3 0 0 k) ?_
  rw [Shape.rowMajor_val_three, Shape.rowMajor_val_two]
  show (0 * 1 + 0) * 64 + k.val = 0 * 64 + k.val
  omega

/-- Head 0's result at `(n, f)`. -/
theorem head0_apply (h : FVec Ideal S50000x64 .f32) (r : FVec Ideal S1000x64 .f32) (A : IVec S3x1600000 32)
    (w : FVec Ideal S1x1x64 .f32) (a : FVec Ideal S2x2x64x1 .f32) (n : Fin 50000) (f : Fin 64) :
    head0 h r A a (ix2 n f) = Cert.EdgeAttn.outAt h r A w a 0 n f := by
  unfold head0
  refine headOut_eq_outAt h r A w a 0 _ _ _ _ _ (fun e k => ?_) (fun e k => relRows_apply r A e k)
    (fun e => edgeRow_apply _ _ A 0 rfl rfl e)
    (fun k => attVec_apply _ _ a 0 0 rfl rfl rfl rfl k) (fun k => attVec_apply _ _ a 0 1 rfl rfl rfl rfl k) n f
  rw [srcRows_apply]
  unfold Cert.EdgeAttn.srcAt
  rw [if_pos rfl]

/-- Head 1's result at `(n, f)`. -/
theorem head1_apply (h : FVec Ideal S50000x64 .f32) (r : FVec Ideal S1000x64 .f32) (A : IVec S3x1600000 32)
    (w : FVec Ideal S1x1x64 .f32) (a : FVec Ideal S2x2x64x1 .f32) (n : Fin 50000) (f : Fin 64) :
    head1 h r A w a (ix2 n f) = Cert.EdgeAttn.outAt h r A w a 1 n f := by
  unfold head1
  refine headOut_eq_outAt h r A w a 1 _ _ _ _ _ (fun e k => ?_) (fun e k => relRows_apply r A e k)
    (fun e => edgeRow_apply _ _ A 0 rfl rfl e)
    (fun k => attVec_apply _ _ a 1 0 rfl rfl rfl rfl k) (fun k => attVec_apply _ _ a 1 1 rfl rfl rfl rfl k) n f
  rw [srcRows_apply, scaled_apply]
  unfold Cert.EdgeAttn.srcAt
  rw [if_neg (by decide)]

/-! ## The whole result -/

/-- A head's result under a new leading axis of extent 1, at `(0, n, f)`. -/
theorem lead_apply {α : Type} (v : S50000x64.Idx → α) (n : Fin 50000) (f : Fin 64) :
    broadcastInDim S1x50000x64 ![1, 2] bcast_S50000x64_S1x50000x64_1_2 v (ix3 0 n f) = v (ix2 n f) :=
  broadcastInDim_apply _ _ v (ix3 0 n f) (ix2 n f) fun b => by
    match b with
    | ⟨0, _⟩ => rfl
    | ⟨1, _⟩ => rfl

/-- THE REFERENCE'S RESULT IS THE SPECIFICATION. -/
theorem refOut_eq_out (h : FVec Ideal S50000x64 .f32) (r : FVec Ideal S1000x64 .f32) (A : IVec S3x1600000 32)
    (w : FVec Ideal S1x1x64 .f32) (a : FVec Ideal S2x2x64x1 .f32) :
    refOut (F := Ideal) h r A w a = Cert.EdgeAttn.out h r A w a := by
  funext j
  obtain ⟨i, n, f, rfl⟩ : ∃ (i : Fin 2) (n : Fin 50000) (f : Fin 64), j = ix3 i n f := ⟨j 0, j 1, j 2, eq_ix3 j⟩
  show refOut h r A w a (ix3 i n f) = Cert.EdgeAttn.outAt h r A w a i n f
  unfold refOut
  match i with
  | ⟨0, _⟩ =>
    refine (concatenate_pair_apply_left 0 _ _ concatenates_S1x50000x64_S1x50000x64_S2x50000x64_d0 (ix3 0 n f) rfl
      (ix3 0 n f) fun b => by
        match b with
        | ⟨0, _⟩ => rfl
        | ⟨1, _⟩ => rfl
        | ⟨2, _⟩ => rfl).trans ?_
    rw [lead_apply]
    exact head0_apply h r A w a n f
  | ⟨1, _⟩ =>
    refine (concatenate_pair_apply_right 0 _ _ concatenates_S1x50000x64_S1x50000x64_S2x50000x64_d0 (ix3 1 n f) rfl rfl
      (ix3 0 n f) (fun b hb => by
        match b with
        | ⟨0, _⟩ => exact absurd rfl hb
        | ⟨1, _⟩ => rfl
        | ⟨2, _⟩ => rfl) (by show 0 + 1 = 1; rfl)).trans ?_
    rw [lead_apply]
    exact head1_apply h r A w a n f

end Cert.RefSide

end
-- ==== Proof.RefSide.lean ====
/-
  The reference side of the certificate: every execution of the reference program terminates, leaves its five
  arguments as they were, and leaves at its result the specified function of them.
-/
import proofs.«412317_j52716428591538_3_alg».proof.Proof.RefFold
import proofs.«412317_j52716428591538_3_alg».proof.Proof.Spec
import proofs.«412317_j52716428591538_3_alg».proof.Proof.RefValue

noncomputable section

namespace Cert.RefSide

open Cert.ReferenceIdeal Cert.ReferenceIdeal.Gen Idealize.ShloMosaic Idealize.ShloMosaic.TcCoe Idealize.SL.Sem

/-- At the extended reals, from any memory with zero counters: every weakly fair execution of the reference's @main
    on the TensorCore terminates; the result buffer then holds the specified attention output of the five
    arguments' launch contents, and each argument buffer holds what it held. The run leaves every buffer at the
    fold of @main's operations; the fold at the result buffer is the reference's term of the arguments, which is
    the specification index by index. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v87)
        = Cert.EdgeAttn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono
    (fun _ h c =>
      ⟨(h c main_v87).trans ((out_eq _).trans (refOut_eq_out _ _ _ _ _)),
        (h c main_arg0).trans (arg0_eq _), (h c main_arg1).trans (arg1_eq _), (h c main_arg2).trans (arg2_eq _),
        (h c main_arg3).trans (arg3_eq _), (h c main_arg4).trans (arg4_eq _)⟩)
    (run_fold m ρ)

end Cert.RefSide

end
-- ==== Proof.lean ====
/-
  The certificate: a two-head relational graph attention over 1,600,000 edges — per edge a gathered source row and
  relation row, a score, the weight `exp (-leaky_relu score)` and the message `(source - relation) · weight`, then per
  node the messages summed over the weights summed — computed by a Pallas kernel between host gathers and host
  segment sums, against its jnp reference, equal as extended reals.

  The statement is made under one added precondition of the evident domain: every relation index lies in
  `[0, 1000)` and every source index in `[0, 50000)`. Outside it the two programs differ: the kernel's `jnp.take`
  fills an out-of-range row with the NaN word (which reads `⊥`), the reference's `x[idx]` clamps the index.

  Both programs are shown to end at ONE function of the five argument arrays (`Cert.EdgeAttn.out`, Proof/Spec.lean):
  the reference by its run read stage by stage (Proof/RefSide.lean), the kernel by its generated frame run, whose
  two output arrays are read block by block off the body's payloads and whose host tail is read at an index
  (Proof/KerSide.lean). The only algebra between the two is, for head 1, `x · (a · w) = (x · w) · a` under a sum,
  and `0 - y = -y`; nothing needs finiteness.
-/
import proofs.«412317_j52716428591538_3_alg».proof.Defs
import proofs.«412317_j52716428591538_3_alg».proof.Proof.Gen.Kernel
import proofs.«412317_j52716428591538_3_alg».proof.Proof.Gen.Kernel.Frame
import proofs.«412317_j52716428591538_3_alg».proof.Proof.Gen.KernelIdeal
import proofs.«412317_j52716428591538_3_alg».proof.Proof.Gen.KernelIdeal.Frame
import proofs.«412317_j52716428591538_3_alg».proof.Proof.Gen.ReferenceIdeal
import proofs.«412317_j52716428591538_3_alg».proof.Proof.Gen.Pre_finite_inputs
import proofs.«412317_j52716428591538_3_alg».proof.Proof.PreDecode
import proofs.«412317_j52716428591538_3_alg».proof.Proof.KerSide
import proofs.«412317_j52716428591538_3_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefSide.run m ρ)

/-- The ideal pass rewrote nothing. -/
theorem preserves : Cert.preserves_Kernel_KernelIdeal := trivial

/-- Both programs end at `Cert.EdgeAttn.out` of the (agreeing) argument arrays: the kernel by its frame run, its
    result buffer read through the host tail; the reference by its run. -/
theorem algebraic : Cert.algebraic_KernelIdeal_ReferenceIdeal := by
  intro m ρ m' ρ' hpre hagree
  refine ⟨fun c => Cert.EdgeAttn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.Gen.run_main m ρ)
    have hin := Cert.PreDecode.rows_in_range _ _ _ _ _ (hpre c)
    exact ⟨((h c).2 Cert.KernelIdeal.main_v43 (Pipeline.mem_restRefs_of Cert.KernelIdeal.main_v43 (by decide) (by decide))).trans
        (Cert.KerSide.result_eq m c hin.1 hin.2),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c),
      ((h c).2 Cert.KernelIdeal.main_arg4 (Pipeline.mem_restRefs_of Cert.KernelIdeal.main_arg4 (by decide) (by decide))).trans
        (Cert.KernelIdeal.Gen.W_main_arg4 m (Cert.KernelIdeal.Gen.dats m) c)⟩
  · refine (θ_run Cert.ReferenceIdeal.defs _ _).mono (fun _ h c => ⟨(h c).1.trans ?_, (h c).2⟩) (Cert.RefSide.run m' ρ')
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
